-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S10x1024 : Shape := ⟨2, ![10, 1024]⟩
abbrev S10x64x65536 : Shape := ⟨3, ![10, 64, 65536]⟩
abbrev S_ : Shape := ⟨0, ![]⟩

class Facts : Prop where
  bcast_S_S10x64x65536 : S_.BroadcastsInDim S10x64x65536 (![] : Fin 0 → Fin S10x64x65536.rank)
  reducesTo_S10x64x65536_S_d0_1_2 : S10x64x65536.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S10x1024 : S_.BroadcastsInDim S10x1024 (![] : Fin 0 → Fin S10x1024.rank)
  reducesTo_S10x1024_S_d0_1 : S10x1024.ReducesTo [0, 1] S_

variable [Facts]

def fn_part1 {F : FTy → Type} [FloatOps F] (main_v10 : IVec S_ 1) (main_v15 : IVec S10x1024 1) (main_c_5 : IVec S_ 1) : IVec S_ 1 :=
  let main_v16 : IVec S_ 1 := (fun x v => Host.reduce IntOp.andi x v reducesTo_S10x1024_S_d0_1 h_S_) main_v15 main_c_5
  let main_v17 : IVec S_ 1 := andi main_v10 main_v16
  main_v17

def fn {F : FTy → Type} [FloatOps F] (main_arg0 : IVec S4096x1024 32) (main_arg1 : IVec S10x1024 32) (main_arg2 : FVec F S10x64x65536 .f32) : IVec S_ 1 :=
  let main_v0 : FVec F S10x64x65536 .f32 := Host.absf main_arg2
  let main_cst : FVec F S_ .f32 := constant S_ .f32 0x7F800000#32
  let main_v1 : FVec F S10x64x65536 .f32 := broadcastInDim S10x64x65536 ![] bcast_S_S10x64x65536 main_cst
  let main_v2 : IVec S10x64x65536 1 := cmpf .olt main_v0 main_v1
  let main_c : IVec S_ 1 := constantI S_ 1 1#1
  let main_v3 : IVec S_ 1 := (fun x v => Host.reduce IntOp.andi x v reducesTo_S10x64x65536_S_d0_1_2 h_S_) main_v2 main_c
  let main_c_0 : IVec S_ 32 := constantI S_ 32 0#32
  let main_v4 : IVec S4096x1024 32 := broadcastInDim S4096x1024 ![] bcast_S_S4096x1024 main_c_0
  let main_v5 : IVec S4096x1024 1 := cmpi .sge main_arg0 main_v4
  let main_c_1 : IVec S_ 32 := constantI S_ 32 1#32
  let main_v6 : IVec S4096x1024 32 := broadcastInDim S4096x1024 ![] bcast_S_S4096x1024 main_c_1
  let main_v7 : IVec S4096x1024 1 := cmpi .sle main_arg0 main_v6
  let main_v8 : IVec S4096x1024 1 := andi main_v5 main_v7
  let main_c_2 : IVec S_ 1 := constantI S_ 1 1#1
  let main_v9 : IVec S_ 1 := (fun x v => Host.reduce IntOp.andi x v reducesTo_S4096x1024_S_d0_1 h_S_) main_v8 main_c_2
  let main_v10 : IVec S_ 1 := andi main_v3 main_v9
  let main_c_3 : IVec S_ 32 := constantI S_ 32 0#32
  let main_v11 : IVec S10x1024 32 := broadcastInDim S10x1024 ![] bcast_S_S10x1024 main_c_3
  let main_v12 : IVec S10x1024 1 := cmpi .sge main_arg1 main_v11
  let main_c_4 : IVec S_ 32 := constantI S_ 32 1024#32
  let main_v13 : IVec S10x1024 32 := broadcastInDim S10x1024 ![] bcast_S_S10x1024 main_c_4
  let main_v14 : IVec S10x1024 1 := cmpi .slt main_arg1 main_v13
  let main_v15 : IVec S10x1024 1 := andi main_v12 main_v14
  let main_c_5 : IVec S_ 1 := constantI S_ 1 1#1
  fn_part1 (F := F) main_v10 main_v15 main_c_5
-- ==== Kernel.lean ====
abbrev S4096x1024 : Shape := ⟨2, ![4096, 1024]⟩
abbrev S10x1024 : Shape := ⟨2, ![10, 1024]⟩
abbrev S10x64x65536 : Shape := ⟨3, ![10, 64, 65536]⟩
abbrev S_ : Shape := ⟨0, ![]⟩
abbrev S10x1024x1 : Shape := ⟨3, ![10, 1024, 1]⟩
abbrev S1 : Shape := ⟨1, ![1]⟩
abbrev S1x1x1 : Shape := ⟨3, ![1, 1, 1]⟩
abbrev S4096x10x1024 : Shape := ⟨3, ![4096, 10, 1024]⟩
abbrev S4096x10x64x16 : Shape := ⟨4, ![4096, 10, 64, 16]⟩
abbrev S16 : Shape := ⟨1, ![16]⟩
abbrev S1x1x1x16 : Shape := ⟨4, ![1, 1, 1, 16]⟩
abbrev S4096x10x64 : Shape := ⟨3, ![4096, 10, 64]⟩
abbrev S64x4096x10 : Shape := ⟨3, ![64, 4096, 10]⟩
abbrev S10x64x256x256 : Shape := ⟨4, ![10, 64, 256, 256]⟩
abbrev S4096x10 : Shape := ⟨2, ![4096, 10]⟩
abbrev S1x1024x10 : Shape := ⟨3, ![1, 1024, 10]⟩
abbrev S10x1x256x256 : Shape := ⟨4, ![10, 1, 256, 256]⟩
abbrev S1024x10 : Shape := ⟨2, ![1024, 10]⟩
abbrev S1024x256 : Shape := ⟨2, ![1024, 256]⟩
abbrev S1x1024x1 : Shape := ⟨3, ![1, 1024, 1]⟩
abbrev S1024x1 : Shape := ⟨2, ![1024, 1]⟩
abbrev S1x1x256x256 : Shape := ⟨4, ![1, 1, 256, 256]⟩
abbrev S256x256 : Shape := ⟨2, ![256, 256]⟩
abbrev S1024 : Shape := ⟨1, ![1024]⟩

abbrev nBuf : Space → Nat
  | .hbm => 45
  | .vmem => 6
  | .smem => 0
  | _ => 0

abbrev bufTy : (tb : Table) → Fin (tcTables nBuf tb) → BufTy
  | .hbm, ⟨0, _⟩ => ⟨S4096x1024, .i32⟩
  | .hbm, ⟨1, _⟩ => ⟨S10x1024, .i32⟩
  | .hbm, ⟨2, _⟩ => ⟨S10x64x65536, .f32⟩
  | .hbm, ⟨3, _⟩ => ⟨S_, .i32⟩
  | .hbm, ⟨4, _⟩ => ⟨S10x1024, .i32⟩
  | .hbm, ⟨5, _⟩ => ⟨S10x1024, .i1⟩
  | .hbm, ⟨6, _⟩ => ⟨S_, .i32⟩
  | .hbm, ⟨7, _⟩ => ⟨S10x1024, .i32⟩
  | .hbm, ⟨8, _⟩ => ⟨S10x1024, .i32⟩
  | .hbm, ⟨9, _⟩ => ⟨S10x1024, .i32⟩
  | .hbm, ⟨10, _⟩ => ⟨S10x1024x1, .i32⟩
  | .hbm, ⟨11, _⟩ => ⟨S1, .i32⟩
  | .hbm, ⟨12, _⟩ => ⟨S_, .i32⟩
  | .hbm, ⟨13, _⟩ => ⟨S10x1024x1, .i32⟩
  | .hbm, ⟨14, _⟩ => ⟨S10x1024x1, .i1⟩
  | .hbm, ⟨15, _⟩ => ⟨S1x1x1, .i32⟩
  | .hbm, ⟨16, _⟩ => ⟨S10x1024x1, .i32⟩
  | .hbm, ⟨17, _⟩ => ⟨S10x1024x1, .i1⟩
  | .hbm, ⟨18, _⟩ => ⟨S10x1024x1, .i1⟩
  | .hbm, ⟨19, _⟩ => ⟨S_, .i1⟩
  | .hbm, ⟨20, _⟩ => ⟨S10x1024, .i1⟩
  | .hbm, ⟨21, _⟩ => ⟨S4096x10x1024, .i32⟩
  | .hbm, ⟨22, _⟩ => ⟨S4096x10x1024, .i1⟩
  | .hbm, ⟨23, _⟩ => ⟨S_, .i32⟩
  | .hbm, ⟨24, _⟩ => ⟨S4096x10x1024, .i32⟩
  | .hbm, ⟨25, _⟩ => ⟨S4096x10x1024, .i32⟩
  | .hbm, ⟨26, _⟩ => ⟨S4096x10x64x16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S1x1x1x16, .i32⟩
  | .hbm, ⟨38, _⟩ => ⟨S4096x10x64x16, .i32⟩
  | .hbm, ⟨39, _⟩ => ⟨S4096x10x64x16, .i32⟩
  | .hbm, ⟨40, _⟩ => ⟨S_, .i32⟩
  | .hbm, ⟨41, _⟩ => ⟨S4096x10x64, .i32⟩
  | .hbm, ⟨42, _⟩ => ⟨S64x4096x10, .i32⟩
  | .hbm, ⟨43, _⟩ => ⟨S10x64x256x256, .f32⟩
  | .hbm, ⟨44, _⟩ => ⟨S4096x10, .f32⟩
  | .local _ .vmem, ⟨0, _⟩ => ⟨S1x1024x10, .i32⟩
  | .local _ .vmem, ⟨1, _⟩ => ⟨S1x1024x10, .i32⟩
  | .local _ .vmem, ⟨2, _⟩ => ⟨S10x1x256x256, .f32⟩
  | .local _ .vmem, ⟨3, _⟩ => ⟨S10x1x256x256, .f32⟩
  | .local _ .vmem, ⟨4, _⟩ => ⟨S1024x10, .f32⟩
  | .local _ .vmem, ⟨5, _⟩ => ⟨S1024x10, .f32⟩
  | _, _ => ⟨S4096x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 64], ![false, false]⟩

def k0_cond1 (i : grid0.Coords) : BitVec 1 :=
  let arg1 : BitVec 32 := BitVec.ofNat 32 (i 1).val
  let c0_i32 : BitVec 32 := 0#32
  let v222 : BitVec 1 := Scalar.cmpi .eq arg1 c0_i32
  let v223 : BitVec 32 := Scalar.extui v222
  let c0_i32_97 : BitVec 32 := 0#32
  let v224 : BitVec 1 := Scalar.cmpi .ne v223 c0_i32_97
  v224

def k0_cond2 (i : grid0.Coords) : BitVec 1 :=
  let arg1 : BitVec 32 := BitVec.ofNat 32 (i 1).val
  let c0_i32_98 : BitVec 32 := 0#32
  let v225 : BitVec 1 := Scalar.cmpi .ne arg1 c0_i32_98
  let v226 : BitVec 32 := Scalar.extui v225
  let c0_i32_99 : BitVec 32 := 0#32
  let v227 : BitVec 1 := Scalar.cmpi .ne v226 c0_i32_99
  v227

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S10x1024 : S_.BroadcastsInDim S10x1024 (![] : Fin 0 → Fin S10x1024.rank)
  bcast_S10x1024_S10x1024x1_0_1 : S10x1024.BroadcastsInDim S10x1024x1 (![0, 1] : Fin 2 → Fin S10x1024x1.rank)
  bcast_S_S10x1024x1 : S_.BroadcastsInDim S10x1024x1 (![] : Fin 0 → Fin S10x1024x1.rank)
  bcast_S1_S1x1x1_2 : S1.BroadcastsInDim S1x1x1 (![2] : Fin 1 → Fin S1x1x1.rank)
  bcast_S1x1x1_S10x1024x1_0_1_2 : S1x1x1.BroadcastsInDim S10x1024x1 (![0, 1, 2] : Fin 3 → Fin S10x1024x1.rank)
  reducesTo_S10x1024x1_S10x1024_d2 : S10x1024x1.ReducesTo [2] S10x1024
  h_S_ : 0 < S_.numel
  bcast_S10x1024_S4096x10x1024_1_2 : S10x1024.BroadcastsInDim S4096x10x1024 (![1, 2] : Fin 2 → Fin S4096x10x1024.rank)
  bcast_S_S4096x10x1024 : S_.BroadcastsInDim S4096x10x1024 (![] : Fin 0 → Fin S4096x10x1024.rank)
  shapeCasts_S4096x10x1024_S4096x10x64x16 : S4096x10x1024.ShapeCasts S4096x10x64x16
  bcast_S_S16 : S_.BroadcastsInDim S16 (![] : Fin 0 → Fin S16.rank)
  bcast_S16_S1x1x1x16_3 : S16.BroadcastsInDim S1x1x1x16 (![3] : Fin 1 → Fin S1x1x1x16.rank)
  bcast_S1x1x1x16_S4096x10x64x16_0_1_2_3 : S1x1x1x16.BroadcastsInDim S4096x10x64x16 (![0, 1, 2, 3] : Fin 4 → Fin S4096x10x64x16.rank)
  reducesTo_S4096x10x64x16_S4096x10x64_d3 : S4096x10x64x16.ReducesTo [3] S4096x10x64
  transposes_S4096x10x64_S64x4096x10_2_0_1 : S4096x10x64.Transposes [2, 0, 1] S64x4096x10
  shapeCasts_S10x64x65536_S10x64x256x256 : S10x64x65536.ShapeCasts S10x64x256x256
  iota_S1024x256_d1_w32 : S1024x256.Iotas .tc 32 [1]
  inb_S1x1024x10_S1x1024x1_0_0_0 : ∀ a, (![0, 0, 0] : Fin 3 → Nat) a + S1x1024x1.size a ≤ S1x1024x10.size a
  h_S1x1024x1 : 0 < S1x1024x1.numel
  shapeCasts_S1x1024x1_S1024x1 : S1x1024x1.ShapeCasts S1024x1
  inb_S10x1x256x256_S1x1x256x256_0_0_0_0 : ∀ a, (![0, 0, 0, 0] : Fin 4 → Nat) a + S1x1x256x256.size a ≤ S10x1x256x256.size a
  h_S1x1x256x256 : 0 < S1x1x256x256.numel
  shapeCasts_S1x1x256x256_S256x256 : S1x1x256x256.ShapeCasts S256x256
  bitsLt_bf16_f32 : FTy.bits .bf16 < FTy.bits .f32
  broadcasts_S1024x1_S1024x256 : S1024x1.Broadcasts S1024x256
  natLt_1_32 : 1 < 32
  reduces_S1024x256_S1024 : S1024x256.Reduces [1] S1024
  shapeCasts_S1024_S1024x1 : S1024.ShapeCasts S1024x1
  inb_S1x1024x10_S1x1024x1_0_0_1 : ∀ a, (![0, 0, 1] : Fin 3 → Nat) a + S1x1024x1.size a ≤ S1x1024x10.size a
  inb_S10x1x256x256_S1x1x256x256_1_0_0_0 : ∀ a, (![1, 0, 0, 0] : Fin 4 → Nat) a + S1x1x256x256.size a ≤ S10x1x256x256.size a
  inb_S1x1024x10_S1x1024x1_0_0_2 : ∀ a, (![0, 0, 2] : Fin 3 → Nat) a + S1x1024x1.size a ≤ S1x1024x10.size a
  inb_S10x1x256x256_S1x1x256x256_2_0_0_0 : ∀ a, (![2, 0, 0, 0] : Fin 4 → Nat) a + S1x1x256x256.size a ≤ S10x1x256x256.size a
  inb_S1x1024x10_S1x1024x1_0_0_3 : ∀ a, (![0, 0, 3] : Fin 3 → Nat) a + S1x1024x1.size a ≤ S1x1024x10.size a
  inb_S10x1x256x256_S1x1x256x256_3_0_0_0 : ∀ a, (![3, 0, 0, 0] : Fin 4 → Nat) a + S1x1x256x256.size a ≤ S10x1x256x256.size a
  inb_S1x1024x10_S1x1024x1_0_0_4 : ∀ a, (![0, 0, 4] : Fin 3 → Nat) a + S1x1024x1.size a ≤ S1x1024x10.size a
  inb_S10x1x256x256_S1x1x256x256_4_0_0_0 : ∀ a, (![4, 0, 0, 0] : Fin 4 → Nat) a + S1x1x256x256.size a ≤ S10x1x256x256.size a
  inb_S1x1024x10_S1x1024x1_0_0_5 : ∀ a, (![0, 0, 5] : Fin 3 → Nat) a + S1x1024x1.size a ≤ S1x1024x10.size a
  inb_S10x1x256x256_S1x1x256x256_5_0_0_0 : ∀ a, (![5, 0, 0, 0] : Fin 4 → Nat) a + S1x1x256x256.size a ≤ S10x1x256x256.size a
  inb_S1x1024x10_S1x1024x1_0_0_6 : ∀ a, (![0, 0, 6] : Fin 3 → Nat) a + S1x1024x1.size a ≤ S1x1024x10.size a
  inb_S10x1x256x256_S1x1x256x256_6_0_0_0 : ∀ a, (![6, 0, 0, 0] : Fin 4 → Nat) a + S1x1x256x256.size a ≤ S10x1x256x256.size a
  inb_S1x1024x10_S1x1024x1_0_0_7 : ∀ a, (![0, 0, 7] : Fin 3 → Nat) a + S1x1024x1.size a ≤ S1x1024x10.size a
  inb_S10x1x256x256_S1x1x256x256_7_0_0_0 : ∀ a, (![7, 0, 0, 0] : Fin 4 → Nat) a + S1x1x256x256.size a ≤ S10x1x256x256.size a
  inb_S1x1024x10_S1x1024x1_0_0_8 : ∀ a, (![0, 0, 8] : Fin 3 → Nat) a + S1x1024x1.size a ≤ S1x1024x10.size a
  inb_S10x1x256x256_S1x1x256x256_8_0_0_0 : ∀ a, (![8, 0, 0, 0] : Fin 4 → Nat) a + S1x1x256x256.size a ≤ S10x1x256x256.size a
  inb_S1x1024x10_S1x1024x1_0_0_9 : ∀ a, (![0, 0, 9] : Fin 3 → Nat) a + S1x1024x1.size a ≤ S1x1024x10.size a
  inb_S10x1x256x256_S1x1x256x256_9_0_0_0 : ∀ a, (![9, 0, 0, 0] : Fin 4 → Nat) a + S1x1x256x256.size a ≤ S10x1x256x256.size a
  concatenates_S1024x1_S1024x1_S1024x1_S1024x1_S1024x1_S1024x1_S1024x1_S1024x1_S1024x1_S1024x1_S1024x10_d1 : Shape.Concatenates [S1024x1, S1024x1, S1024x1, S1024x1, S1024x1, S1024x1, S1024x1, S1024x1, S1024x1, S1024x1] S1024x10 1
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  gather_S4096x1024_S10x1024x1_S4096x10x1024_0_1_n_n_1_2_40961_wf : GatherDims.WF S4096x1024 S10x1024x1 S4096x10x1024 [0] [1] [] [1] [] 2 ![4096, 1]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x10.size a ≤ S64x4096x10.size a
  hwx0_0 : ∀ i : grid0.Coords, EltTy.bits .i32 = 32 ∨ (Rect.block (s := S64x4096x10) S1x1024x10.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x1x256x256.size a ≤ S10x64x256x256.size a
  hwx0_1 : ∀ i : grid0.Coords, EltTy.bits .f32 = 32 ∨ (Rect.block (s := S10x64x256x256) S10x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x10.size a ≤ S4096x10.size a
  hwx0_2 : ∀ i : grid0.Coords, EltTy.bits .f32 = 32 ∨ (Rect.block (s := S4096x10) S1024x10.size (cc0_transform_2 i) (hinb0_2 i)).WholeWords (EltTy.packing .f32)

variable [Facts₀]

def gather_S4096x1024_S10x1024x1_S4096x10x1024_0_1_n_n_1_2_40961 : GatherDims S4096x1024 S10x1024x1 S4096x10x1024 where
  offsetDims := [0]
  collapsedSliceDims := [1]
  operandBatchingDims := []
  startIndicesBatchingDims := []
  startIndexMap := [1]
  indexVectorDim := 2
  sliceSizes := ![4096, 1]
  wf := gather_S4096x1024_S10x1024x1_S4096x10x1024_0_1_n_n_1_2_40961_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v13) S1x1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S10x1024 : Shape := ⟨2, ![10, 1024]⟩
abbrev S10x64x65536 : Shape := ⟨3, ![10, 64, 65536]⟩
abbrev S_ : Shape := ⟨0, ![]⟩
abbrev S10x1024x1 : Shape := ⟨3, ![10, 1024, 1]⟩
abbrev S1 : Shape := ⟨1, ![1]⟩
abbrev S1x1x1 : Shape := ⟨3, ![1, 1, 1]⟩
abbrev S4096x10x1024 : Shape := ⟨3, ![4096, 10, 1024]⟩
abbrev S4096x10x64x16 : Shape := ⟨4, ![4096, 10, 64, 16]⟩
abbrev S16 : Shape := ⟨1, ![16]⟩
abbrev S1x1x1x16 : Shape := ⟨4, ![1, 1, 1, 16]⟩
abbrev S4096x10x64 : Shape := ⟨3, ![4096, 10, 64]⟩
abbrev S10 : Shape := ⟨1, ![10]⟩
abbrev S10x1 : Shape := ⟨2, ![10, 1]⟩
abbrev S64 : Shape := ⟨1, ![64]⟩
abbrev S1x64 : Shape := ⟨2, ![1, 64]⟩
abbrev S10x64 : Shape := ⟨2, ![10, 64]⟩
abbrev S1x10x64 : Shape := ⟨3, ![1, 10, 64]⟩
abbrev S41943040 : Shape := ⟨1, ![41943040]⟩
abbrev S4096x10x64x1 : Shape := ⟨4, ![4096, 10, 64, 1]⟩
abbrev S1x1x1x1 : Shape := ⟨4, ![1, 1, 1, 1]⟩
abbrev S4096x10 : Shape := ⟨2, ![4096, 10]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .i32⟩
  | .hbm, ⟨1, _⟩ => ⟨S10x1024, .i32⟩
  | .hbm, ⟨2, _⟩ => ⟨S10x64x65536, .f32⟩
  | .hbm, ⟨3, _⟩ => ⟨S_, .i32⟩
  | .hbm, ⟨4, _⟩ => ⟨S10x1024, .i32⟩
  | .hbm, ⟨5, _⟩ => ⟨S10x1024, .i1⟩
  | .hbm, ⟨6, _⟩ => ⟨S_, .i32⟩
  | .hbm, ⟨7, _⟩ => ⟨S10x1024, .i32⟩
  | .hbm, ⟨8, _⟩ => ⟨S10x1024, .i32⟩
  | .hbm, ⟨9, _⟩ => ⟨S10x1024, .i32⟩
  | .hbm, ⟨10, _⟩ => ⟨S10x1024x1, .i32⟩
  | .hbm, ⟨11, _⟩ => ⟨S1, .i32⟩
  | .hbm, ⟨12, _⟩ => ⟨S_, .i32⟩
  | .hbm, ⟨13, _⟩ => ⟨S10x1024x1, .i32⟩
  | .hbm, ⟨14, _⟩ => ⟨S10x1024x1, .i1⟩
  | .hbm, ⟨15, _⟩ => ⟨S1x1x1, .i32⟩
  | .hbm, ⟨16, _⟩ => ⟨S10x1024x1, .i32⟩
  | .hbm, ⟨17, _⟩ => ⟨S10x1024x1, .i1⟩
  | .hbm, ⟨18, _⟩ => ⟨S10x1024x1, .i1⟩
  | .hbm, ⟨19, _⟩ => ⟨S_, .i1⟩
  | .hbm, ⟨20, _⟩ => ⟨S10x1024, .i1⟩
  | .hbm, ⟨21, _⟩ => ⟨S4096x10x1024, .i32⟩
  | .hbm, ⟨22, _⟩ => ⟨S4096x10x1024, .i1⟩
  | .hbm, ⟨23, _⟩ => ⟨S_, .i32⟩
  | .hbm, ⟨24, _⟩ => ⟨S4096x10x1024, .i32⟩
  | .hbm, ⟨25, _⟩ => ⟨S4096x10x1024, .i32⟩
  | .hbm, ⟨26, _⟩ => ⟨S4096x10x64x16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S1x1x1x16, .i32⟩
  | .hbm, ⟨38, _⟩ => ⟨S4096x10x64x16, .i32⟩
  | .hbm, ⟨39, _⟩ => ⟨S4096x10x64x16, .i32⟩
  | .hbm, ⟨40, _⟩ => ⟨S_, .i32⟩
  | .hbm, ⟨41, _⟩ => ⟨S4096x10x64, .i32⟩
  | .hbm, ⟨42, _⟩ => ⟨S10, .i32⟩
  | .hbm, ⟨43, _⟩ => ⟨S10x1, .i32⟩
  | .hbm, ⟨44, _⟩ => ⟨S_, .i32⟩
  | .hbm, ⟨45, _⟩ => ⟨S10x1, .i32⟩
  | .hbm, ⟨46, _⟩ => ⟨S10x1, .i32⟩
  | .hbm, ⟨47, _⟩ => ⟨S64, .i32⟩
  | .hbm, ⟨48, _⟩ => ⟨S1x64, .i32⟩
  | .hbm, ⟨49, _⟩ => ⟨S10x64, .i32⟩
  | .hbm, ⟨50, _⟩ => ⟨S10x64, .i32⟩
  | .hbm, ⟨51, _⟩ => ⟨S10x64, .i32⟩
  | .hbm, ⟨52, _⟩ => ⟨S_, .i32⟩
  | .hbm, ⟨53, _⟩ => ⟨S10x64, .i32⟩
  | .hbm, ⟨54, _⟩ => ⟨S10x64, .i32⟩
  | .hbm, ⟨55, _⟩ => ⟨S1x10x64, .i32⟩
  | .hbm, ⟨56, _⟩ => ⟨S4096x10x64, .i32⟩
  | .hbm, ⟨57, _⟩ => ⟨S4096x10x64, .i32⟩
  | .hbm, ⟨58, _⟩ => ⟨S41943040, .f32⟩
  | .hbm, ⟨59, _⟩ => ⟨S_, .i32⟩
  | .hbm, ⟨60, _⟩ => ⟨S4096x10x64, .i32⟩
  | .hbm, ⟨61, _⟩ => ⟨S4096x10x64, .i1⟩
  | .hbm, ⟨62, _⟩ => ⟨S_, .i32⟩
  | .hbm, ⟨63, _⟩ => ⟨S4096x10x64, .i32⟩
  | .hbm, ⟨64, _⟩ => ⟨S4096x10x64, .i32⟩
  | .hbm, ⟨65, _⟩ => ⟨S4096x10x64, .i32⟩
  | .hbm, ⟨66, _⟩ => ⟨S4096x10x64x1, .i32⟩
  | .hbm, ⟨67, _⟩ => ⟨S1, .i32⟩
  | .hbm, ⟨68, _⟩ => ⟨S_, .i32⟩
  | .hbm, ⟨69, _⟩ => ⟨S4096x10x64x1, .i32⟩
  | .hbm, ⟨70, _⟩ => ⟨S4096x10x64x1, .i1⟩
  | .hbm, ⟨71, _⟩ => ⟨S1x1x1x1, .i32⟩
  | .hbm, ⟨72, _⟩ => ⟨S4096x10x64x1, .i32⟩
  | .hbm, ⟨73, _⟩ => ⟨S4096x10x64x1, .i1⟩
  | .hbm, ⟨74, _⟩ => ⟨S4096x10x64x1, .i1⟩
  | .hbm, ⟨75, _⟩ => ⟨S_, .i1⟩
  | .hbm, ⟨76, _⟩ => ⟨S4096x10x64, .i1⟩
  | .hbm, ⟨77, _⟩ => ⟨S4096x10x64, .f32⟩
  | .hbm, ⟨78, _⟩ => ⟨S_, .f32⟩
  | .hbm, ⟨79, _⟩ => ⟨S4096x10x64, .f32⟩
  | .hbm, ⟨80, _⟩ => ⟨S4096x10x64, .f32⟩
  | .hbm, ⟨81, _⟩ => ⟨S_, .f32⟩
  | .hbm, ⟨82, _⟩ => ⟨S4096x10, .f32⟩
  | _, _ => ⟨S4096x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v28 : Ref sig .tc := ⟨.hbm, 80, rfl⟩
abbrev main_cst : Ref sig .tc := ⟨.hbm, 81, rfl⟩
abbrev main_v29 : Ref sig .tc := ⟨.hbm, 82, rfl⟩

abbrev nD : Nat := 1
abbrev τ : Topo := Topo.v7x

variable {F : FTy → Type} [FloatOps F]

class Facts₀ : Prop where
  bcast_S_S10x1024 : S_.BroadcastsInDim S10x1024 (![] : Fin 0 → Fin S10x1024.rank)
  bcast_S10x1024_S10x1024x1_0_1 : S10x1024.BroadcastsInDim S10x1024x1 (![0, 1] : Fin 2 → Fin S10x1024x1.rank)
  bcast_S_S10x1024x1 : S_.BroadcastsInDim S10x1024x1 (![] : Fin 0 → Fin S10x1024x1.rank)
  bcast_S1_S1x1x1_2 : S1.BroadcastsInDim S1x1x1 (![2] : Fin 1 → Fin S1x1x1.rank)
  bcast_S1x1x1_S10x1024x1_0_1_2 : S1x1x1.BroadcastsInDim S10x1024x1 (![0, 1, 2] : Fin 3 → Fin S10x1024x1.rank)
  reducesTo_S10x1024x1_S10x1024_d2 : S10x1024x1.ReducesTo [2] S10x1024
  h_S_ : 0 < S_.numel
  bcast_S10x1024_S4096x10x1024_1_2 : S10x1024.BroadcastsInDim S4096x10x1024 (![1, 2] : Fin 2 → Fin S4096x10x1024.rank)
  bcast_S_S4096x10x1024 : S_.BroadcastsInDim S4096x10x1024 (![] : Fin 0 → Fin S4096x10x1024.rank)
  shapeCasts_S4096x10x1024_S4096x10x64x16 : S4096x10x1024.ShapeCasts S4096x10x64x16
  bcast_S_S16 : S_.BroadcastsInDim S16 (![] : Fin 0 → Fin S16.rank)
  bcast_S16_S1x1x1x16_3 : S16.BroadcastsInDim S1x1x1x16 (![3] : Fin 1 → Fin S1x1x1x16.rank)
  bcast_S1x1x1x16_S4096x10x64x16_0_1_2_3 : S1x1x1x16.BroadcastsInDim S4096x10x64x16 (![0, 1, 2, 3] : Fin 4 → Fin S4096x10x64x16.rank)
  reducesTo_S4096x10x64x16_S4096x10x64_d3 : S4096x10x64x16.ReducesTo [3] S4096x10x64
  bcast_S10_S10x1_0 : S10.BroadcastsInDim S10x1 (![0] : Fin 1 → Fin S10x1.rank)
  bcast_S_S10x1 : S_.BroadcastsInDim S10x1 (![] : Fin 0 → Fin S10x1.rank)
  bcast_S64_S1x64_1 : S64.BroadcastsInDim S1x64 (![1] : Fin 1 → Fin S1x64.rank)
  bcast_S10x1_S10x64_0_1 : S10x1.BroadcastsInDim S10x64 (![0, 1] : Fin 2 → Fin S10x64.rank)
  bcast_S1x64_S10x64_0_1 : S1x64.BroadcastsInDim S10x64 (![0, 1] : Fin 2 → Fin S10x64.rank)
  bcast_S_S10x64 : S_.BroadcastsInDim S10x64 (![] : Fin 0 → Fin S10x64.rank)
  bcast_S10x64_S1x10x64_1_2 : S10x64.BroadcastsInDim S1x10x64 (![1, 2] : Fin 2 → Fin S1x10x64.rank)
  bcast_S1x10x64_S4096x10x64_0_1_2 : S1x10x64.BroadcastsInDim S4096x10x64 (![0, 1, 2] : Fin 3 → Fin S4096x10x64.rank)
  shapeCasts_S10x64x65536_S41943040 : S10x64x65536.ShapeCasts S41943040
  bcast_S_S4096x10x64 : S_.BroadcastsInDim S4096x10x64 (![] : Fin 0 → Fin S4096x10x64.rank)
  bcast_S4096x10x64_S4096x10x64x1_0_1_2 : S4096x10x64.BroadcastsInDim S4096x10x64x1 (![0, 1, 2] : Fin 3 → Fin S4096x10x64x1.rank)
  bcast_S_S4096x10x64x1 : S_.BroadcastsInDim S4096x10x64x1 (![] : Fin 0 → Fin S4096x10x64x1.rank)
  bcast_S1_S1x1x1x1_3 : S1.BroadcastsInDim S1x1x1x1 (![3] : Fin 1 → Fin S1x1x1x1.rank)
  bcast_S1x1x1x1_S4096x10x64x1_0_1_2_3 : S1x1x1x1.BroadcastsInDim S4096x10x64x1 (![0, 1, 2, 3] : Fin 4 → Fin S4096x10x64x1.rank)
  reducesTo_S4096x10x64x1_S4096x10x64_d3 : S4096x10x64x1.ReducesTo [3] S4096x10x64
  reducesTo_S4096x10x64_S4096x10_d2 : S4096x10x64.ReducesTo [2] S4096x10
  gather_S4096x1024_S10x1024x1_S4096x10x1024_0_1_n_n_1_2_40961_wf : GatherDims.WF S4096x1024 S10x1024x1 S4096x10x1024 [0] [1] [] [1] [] 2 ![4096, 1]
  gather_S41943040_S4096x10x64x1_S4096x10x64_n_0_n_n_0_3_1_wf : GatherDims.WF S41943040 S4096x10x64x1 S4096x10x64 [] [0] [] [0] [] 3 ![1]

variable [Facts₀]

def gather_S4096x1024_S10x1024x1_S4096x10x1024_0_1_n_n_1_2_40961 : GatherDims S4096x1024 S10x1024x1 S4096x10x1024 where
  offsetDims := [0]
  collapsedSliceDims := [1]
  operandBatchingDims := []
  startIndicesBatchingDims := []
  startIndexMap := [1]
  indexVectorDim := 2
  sliceSizes := ![4096, 1]
  wf := gather_S4096x1024_S10x1024x1_S4096x10x1024_0_1_n_n_1_2_40961_wf
def gather_S41943040_S4096x10x64x1_S4096x10x64_n_0_n_n_0_3_1 : GatherDims S41943040 S4096x10x64x1 S4096x10x64 where
  offsetDims := []
  collapsedSliceDims := [0]
  operandBatchingDims := []
  startIndicesBatchingDims := []
  startIndexMap := [0]
  indexVectorDim := 3
  sliceSizes := ![1]
  wf := gather_S41943040_S4096x10x64x1_S4096x10x64_n_0_n_n_0_3_1_wf

class Facts : Prop extends Facts₀ where

variable [Facts]
-- ==== Proof.Spec.lean ====
/-
  The function both programs compute. With `A[b, c, n]` the 16-bit address neuron `n` of class `c` forms from
  sample `b`, and `R[c, n, a]` the membership table, the response of class `c` on sample `b` is the number
  of neurons that have seen their address: `G A R [b, c] = Σ_n R[c, n, A[b, c, n]]`, a sum of 64 extended reals.
  An address is a word; `cell` reads it as a position in the table, reduced to the table's length so that the
  statement needs no side condition (every address met under the precondition is already below 65536).
-/
import Idealize.ShloMosaic.PureOps.Ideal
import Idealize.ShloMosaic.Lib.ValueIdx

noncomputable section

open scoped BigOperators

namespace Cert.Wisard

open Idealize.ShloMosaic Idealize.ShloMosaic.ValueIdx

/-- The addresses, one word per (sample, class, neuron). -/
abbrev SAddr : Shape := ⟨3, ![4096, 10, 64]⟩
/-- The tables, `[class, neuron, address]`. -/
abbrev STab : Shape := ⟨3, ![10, 64, 65536]⟩
/-- The responses, `[sample, class]`. -/
abbrev SResp : Shape := ⟨2, ![4096, 10]⟩

/-- A word read as a position in a table of 65536 entries. -/
def cell (w : BitVec 32) : Fin 65536 := ⟨w.toNat % 65536, Nat.mod_lt _ (by decide)⟩

theorem cell_val (w : BitVec 32) (h : w.toNat < 65536) : (cell w).val = w.toNat := Nat.mod_eq_of_lt h

/-- The response of each class on each sample: the table entries at the neurons' addresses, summed over the neurons. -/
def G (A : IVec SAddr 32) (R : FVec Ideal STab .f32) : FVec Ideal SResp .f32 :=
  fun j => ∑ n : Fin 64, R (ix3 (j 1) n (cell (A (ix3 (j 0) (j 1) n))))

/-! The kernel reads the same table entry through a split address: it views each neuron's 65536 entries as a
    `256 × 256` square and selects row `hi = a / 256`, column `lo = a mod 256`. -/

/-- The addresses as the kernel stages them, `[neuron, sample, class]`. -/
abbrev SAddrT : Shape := ⟨3, ![64, 4096, 10]⟩
/-- The tables as the kernel stages them, `[class, neuron, row, column]`. -/
abbrev STabSq : Shape := ⟨4, ![10, 64, 256, 256]⟩

/-- The row of the square a word selects. -/
def hiOf (w : BitVec 32) : Fin 256 := ⟨w.toNat / 256 % 256, Nat.mod_lt _ (by decide)⟩
/-- The column of the square a word selects. -/
def loOf (w : BitVec 32) : Fin 256 := ⟨w.toNat % 256, Nat.mod_lt _ (by decide)⟩

/-- Row and column give the position back when the word is below 65536. -/
theorem hi_lo_val (w : BitVec 32) (h : w.toNat < 65536) : 256 * (hiOf w).val + (loOf w).val = w.toNat := by
  show 256 * (w.toNat / 256 % 256) + w.toNat % 256 = w.toNat
  omega

/-- The response in the kernel's arrangement: per neuron the entry at (row, column) of its square, summed over the neurons. -/
def Kout (A : IVec SAddrT 32) (R : FVec Ideal STabSq .f32) : FVec Ideal SResp .f32 :=
  fun j => ∑ n : Fin 64, R (ix4 (j 1) n (hiOf (A (ix3 n (j 0) (j 1)))) (loOf (A (ix3 n (j 0) (j 1)))))

end Cert.Wisard

end
-- ==== Proof.Addr.lean ====
/-
  The address chain both programs share. From the binary input bits `a0 : i32[4096, 1024]` and the per-class
  permutations `a1 : i32[10, 1024]` each program first forms, on the host and by the same operations,
  `mapped[b, c, e] = a0[b, a1[c, e]]` (a take along axis 1 in fill mode: a negative index is moved up by 1024,
  an index outside `[0, 1023]` answers the fill word), views it as `[4096, 10, 64, 16]`, and packs each group of
  16 bits big-endian into one word: `addr[b, c, n] = Σ_k mapped[b, c, n, k] · (1 <<< (15 - k))`, a sum of words.
  `addr` is that composition, stated once; the kernel's host prefix transposes it, the reference adds the
  flat offset `(c · 64 + n) · 65536` to it.
-/
import proofs.«403497_j43233140801687_1_alg».proof.Proof.Gen.KernelIdeal

noncomputable section

namespace Cert.KernelIdeal.Addr

open Idealize.ShloMosaic Cert.KernelIdeal Cert.KernelIdeal.Facts₀

/-- The take's index after the negative wrap: `a1 + 1024` where `a1 < 0`, else `a1`, as a column `[10, 1024, 1]`. -/
def wrapped (a1 : IVec S10x1024 32) : IVec S10x1024x1 32 :=
  broadcastInDim S10x1024x1 ![0, 1] bcast_S10x1024_S10x1024x1_0_1
    (select (cmpi .slt a1 (broadcastInDim S10x1024 ![] bcast_S_S10x1024 (constantI S_ 32 0#32)))
      (addi a1 (broadcastInDim S10x1024 ![] bcast_S_S10x1024 (constantI S_ 32 1024#32))) a1)

/-- The take's range test `0 ≤ index ≤ 1023`, one bit per (class, position). -/
def inRange (a1 : IVec S10x1024 32) : IVec S10x1024 1 :=
  Host.reduce IntOp.andi
    (andi (cmpi .sge (wrapped a1) (broadcastInDim S10x1024x1 ![] bcast_S_S10x1024x1 (constantI S_ 32 0#32)))
      (cmpi .sle (wrapped a1) (broadcastInDim S10x1024x1 ![0, 1, 2] bcast_S1x1x1_S10x1024x1_0_1_2
        (broadcastInDim S1x1x1 ![2] bcast_S1_S1x1x1_2 (constantI S1 32 1023#32)))))
    (constantI S_ 1 1#1) reducesTo_S10x1024x1_S10x1024_d2 h_S_

/-- `mapped[b, c, e]`: the gathered bit where the index passes the range test, the fill word elsewhere. -/
def mapped (a0 : IVec S4096x1024 32) (a1 : IVec S10x1024 32) : IVec S4096x10x1024 32 :=
  select (broadcastInDim S4096x10x1024 ![1, 2] bcast_S10x1024_S4096x10x1024_1_2 (inRange a1))
    (Host.gather gather_S4096x1024_S10x1024x1_S4096x10x1024_0_1_n_n_1_2_40961 a0 (wrapped a1))
    (broadcastInDim S4096x10x1024 ![] bcast_S_S4096x10x1024 (constantI S_ 32 2147483648#32))

/-- The 16 weights `1 <<< (15 + (-1) · k)`, `k = 0 … 15`. -/
def weights : IVec S16 32 :=
  Host.shli (broadcastInDim S16 ![] bcast_S_S16 (constantI S_ 32 1#32))
    (addi (broadcastInDim S16 ![] bcast_S_S16 (constantI S_ 32 15#32))
      (muli (broadcastInDim S16 ![] bcast_S_S16 (constantI S_ 32 4294967295#32)) (iotaInDim S16 32 0)))

/-- `addr[b, c, n]`: the 16 mapped bits of neuron `n` of class `c`, weighted and summed as words. -/
def addr (a0 : IVec S4096x1024 32) (a1 : IVec S10x1024 32) : IVec S4096x10x64 32 :=
  Host.reduce IntOp.addi
    (muli (shapeCast S4096x10x64x16 (mapped a0 a1) shapeCasts_S4096x10x1024_S4096x10x64x16)
      (broadcastInDim S4096x10x64x16 ![0, 1, 2, 3] bcast_S1x1x1x16_S4096x10x64x16_0_1_2_3
        (broadcastInDim S1x1x1x16 ![3] bcast_S16_S1x1x1x16_3 weights)))
    (constantI S_ 32 0#32) reducesTo_S4096x10x64x16_S4096x10x64_d3 h_S_

end Cert.KernelIdeal.Addr

end
-- ==== Proof.LibTakeFill.lean ====
/-
  A gather whose out-of-range rows are replaced by a fill value ("fill mode"): the rows kept are those whose start
  index passes a range test, the test's bits are and-reduced over the index vector's axis, the row mask is laid over
  the result and a `select` keeps the gathered element where the mask is set and the fill elsewhere. When every start
  index passes the test the mask is all ones and the select is the gather itself: nothing is filled. The lemmas are
  generic in every shape and in the compared bounds; they never look inside the gathered values.
-/
import Idealize.ShloMosaic.PureOps
import Idealize.ShloMosaic.Lib.StableHlo.Predicate

noncomputable section

namespace Idealize.ShloMosaic.TakeFill

open Idealize.ShloMosaic

/-- An and-reduction, from the bit one, of a mask whose every bit is one is one at every result index: each step of the
    fold is `1 &&& 1`. No property of the reduced axes is used. -/
theorem reduce_andi_of_all_one {s t u : Shape} {axes : List (Fin s.rank)} (M : IVec s 1) (hM : ∀ i, M i = 1#1)
    (h : s.ReducesTo axes t) (hu : 0 < u.numel) :
    Host.reduce IntOp.andi M (constantI u 1 1#1) h hu = fun _ => 1#1 := by
  funext j
  unfold Host.reduce
  have key : ∀ l : List (Fin s.numel),
      l.foldl (fun r n => IntOp.andi r (M (s.rowMajor.symm n))) (1#1 : BitVec 1) = 1#1 := by
    intro l
    induction l with
    | nil => rfl
    | cons a l ih =>
      rw [List.foldl_cons, hM]
      exact ih
  exact key _

/-- A `select` under a broadcast mask whose every bit is one keeps its first operand everywhere. -/
theorem select_bcast_all_one {α : Type} {s t : Shape} (dims : Fin t.rank → Fin s.rank) (hb : t.BroadcastsInDim s dims)
    (M : IVec t 1) (hM : ∀ i, M i = 1#1) (a b : s.Idx → α) :
    select (broadcastInDim s dims hb M) a b = a := by
  funext j
  unfold select Scalar.select broadcastInDim
  exact if_pos (hM _)

/-- THE FILL-MODE TAKE with every index in range: the range test `lo ≤ idx ∧ idx ≤ hi` (signed, element by element,
    against any two bound vectors), and-reduced to a row mask, broadcast over the result and used to choose between
    the gathered value `a` and the fill `b`, chooses `a` everywhere. -/
theorem select_range_mask {α : Type} {si t u r : Shape} {axes : List (Fin si.rank)} (dims : Fin t.rank → Fin r.rank)
    (hb : t.BroadcastsInDim r dims) (hred : si.ReducesTo axes t) (hu : 0 < u.numel)
    (idx lo hi : IVec si 32)
    (hin : ∀ i, IntOp.cmpi .sge (idx i) (lo i) = 1#1 ∧ IntOp.cmpi .sle (idx i) (hi i) = 1#1)
    (a b : r.Idx → α) :
    select (broadcastInDim r dims hb
        (Host.reduce IntOp.andi (andi (cmpi .sge idx lo) (cmpi .sle idx hi)) (constantI u 1 1#1) hred hu)) a b = a := by
  have hM : ∀ i, (andi (cmpi .sge idx lo) (cmpi .sle idx hi)) i = 1#1 := by
    intro i
    show IntOp.andi (IntOp.cmpi .sge (idx i) (lo i)) (IntOp.cmpi .sle (idx i) (hi i)) = 1#1
    rw [(hin i).1, (hin i).2]; rfl
  rw [reduce_andi_of_all_one _ hM hred hu]
  exact select_bcast_all_one dims hb _ (fun _ => rfl) a b

/-- NumPy's wrap of a possibly negative index into an axis of extent `n`: `w + n` when `w` is negative, else `w`. -/
def wrapIdx (n w : BitVec 32) : BitVec 32 := Scalar.select (IntOp.cmpi .slt w 0#32) (IntOp.addi w n) w

/-- A word in `[-n, n)` (signed), wrapped, lies in `[0, n - 1]`: it passes the signed range test against `0` and `n - 1`. -/
theorem wrapIdx_in_range (n : Nat) (hn0 : 0 < n) (hn : n < 2 ^ 31) (w : BitVec 32)
    (hlo : -(n : Int) ≤ w.toInt) (hhi : w.toInt < (n : Int)) :
    IntOp.cmpi .sge (wrapIdx (BitVec.ofNat 32 n) w) 0#32 = 1#1
      ∧ IntOp.cmpi .sle (wrapIdx (BitVec.ofNat 32 n) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  -- a word whose signed value is in [0, n - 1] passes both compares
  have key : ∀ v : BitVec 32, 0 ≤ v.toInt → v.toInt ≤ (n : Int) - 1 →
      IntOp.cmpi .sge v 0#32 = 1#1 ∧ IntOp.cmpi .sle v (BitVec.ofNat 32 (n - 1)) = 1#1 := by
    intro v h0 h1
    unfold IntOp.cmpi
    simp only [StableHlo.Predicate.ofBool_eq_one_iff, BitVec.sle, decide_eq_true_eq, hn1I, BitVec.toInt_zero]
    constructor
    · exact h0
    · omega
  unfold wrapIdx Scalar.select
  by_cases hneg : w.toInt < 0
  · have hc1 : IntOp.cmpi .slt w 0#32 = 1#1 := by
      unfold IntOp.cmpi
      simp only [StableHlo.Predicate.ofBool_eq_one_iff, BitVec.slt, decide_eq_true_eq, BitVec.toInt_zero]
      exact hneg
    have hc : IntOp.cmpi .slt w 0#32 = (1 : BitVec 1) := hc1
    rw [if_pos hc]
    have hsum : (IntOp.addi w (BitVec.ofNat 32 n)).toInt = w.toInt + (n : Int) := by
      unfold IntOp.addi
      rw [BitVec.toInt_add, hnI]
      unfold Int.bmod
      have h32 : (2 : Int) ^ 32 = 4294967296 := by decide
      have h31 : (2 : Nat) ^ 31 = 2147483648 := by decide
      rw [h31] at hn
      simp only [h32, Nat.cast_ofNat]
      omega
    apply key
    · rw [hsum]; omega
    · rw [hsum]; omega
  · have hc1 : ¬ IntOp.cmpi .slt w 0#32 = 1#1 := by
      unfold IntOp.cmpi
      simp only [StableHlo.Predicate.ofBool_eq_one_iff, BitVec.slt, decide_eq_true_eq, BitVec.toInt_zero]
      exact hneg
    have hc : ¬ IntOp.cmpi .slt w 0#32 = (1 : BitVec 1) := hc1
    rw [if_neg hc]
    apply key
    · omega
    · omega

end Idealize.ShloMosaic.TakeFill

end
-- ==== Proof.AddrBound.lean ====
/-
  The packed address is a 16-bit number. With every mapping word in [0, 1024) the take's negative wrap keeps the word,
  the range test passes at every position, and the fill-mode take is the plain gather: each mapped element is some
  element of the sample array, hence 0 or 1. The address at (b, c, n) is the word sum over k of mapped bit k times
  the weight 2 ^ (15 - k); a sum of sixteen such terms is at most 2 ^ 16 - 1 and never wraps.
-/
import proofs.«403497_j43233140801687_1_alg».proof.Proof.Addr
import proofs.«403497_j43233140801687_1_alg».proof.Proof.LibTakeFill
import Idealize.ShloMosaic.PureOps.Reduce
import Idealize.ShloMosaic.Lib.StableHlo.Predicate
import Idealize.ShloMosaic.Lib.ValueIdx

noncomputable section

namespace Cert.KernelIdeal.Addr

open Idealize.ShloMosaic Cert.KernelIdeal Cert.KernelIdeal.Facts₀

/-! ## Words -/

/-- A word that is 0 or 1, times a word, is at most that word. -/
theorem toNat_muli_bit_le (b w : BitVec 32) (hb : b = 0#32 ∨ b = 1#32) : (IntOp.muli b w).toNat ≤ w.toNat := by
  rcases hb with rfl | rfl
  · show ((0#32 : BitVec 32) * w).toNat ≤ _
    rw [BitVec.zero_mul]; exact Nat.zero_le _
  · show ((1#32 : BitVec 32) * w).toNat ≤ _
    rw [BitVec.one_mul]

/-- The weight of bit k: 1 shifted left by 15 + (-1) · k. -/
def weightWord (k : Fin 16) : BitVec 32 :=
  IntOp.shli .host 1#32 (IntOp.addi 15#32 (IntOp.muli 4294967295#32 (BitVec.ofNat 32 k.val)))

/-- It is 2 ^ (15 - k). -/
theorem weightWord_toNat : ∀ k : Fin 16, (weightWord k).toNat = 2 ^ (15 - k.val) := by decide

/-- The sixteen weights add up to 2 ^ 16 - 1. -/
theorem weights_total : ∑ k : Fin 16, 2 ^ (15 - k.val) = 65535 := by decide

/-! ## The weights and the take, read at an index -/

theorem weights_apply (q : S16.Idx) : weights q = weightWord (q 0) := rfl

/-- The weights laid along the last axis read, at any index, the weight of its last coordinate. -/
theorem weightsCast_apply (i : S4096x10x64x16.Idx) :
    broadcastInDim S4096x10x64x16 ![0, 1, 2, 3] bcast_S1x1x1x16_S4096x10x64x16_0_1_2_3
      (broadcastInDim S1x1x1x16 ![3] bcast_S16_S1x1x1x16_3 weights) i = weightWord (i 3) := by
  show weights _ = _
  rw [weights_apply]
  rfl

/-- With every mapping word below 1024 the wrapped index passes the take's range test everywhere. -/
theorem wrapped_in_range (a1 : IVec S10x1024 32) (h1 : ∀ j : S10x1024.Idx, (a1 j).toNat < 1024) (i : S10x1024x1.Idx) :
    IntOp.cmpi .sge (wrapped a1 i) 0#32 = 1#1 ∧ IntOp.cmpi .sle (wrapped a1 i) 1023#32 = 1#1 := by
  obtain ⟨J, hJ⟩ : ∃ J : S10x1024.Idx, wrapped a1 i = TakeFill.wrapIdx 1024#32 (a1 J) := ⟨_, rfl⟩
  rw [hJ]
  have hw := h1 J
  have hI : (a1 J).toInt = ((a1 J).toNat : Int) := StableHlo.Predicate.toInt_eq_toNat_of_lt (by omega)
  exact TakeFill.wrapIdx_in_range 1024 (by decide) (by decide) (a1 J) (by omega) (by omega)

/-- So nothing is filled: the take is the gather. -/
theorem mapped_eq_gather (a0 : IVec S4096x1024 32) (a1 : IVec S10x1024 32) (h1 : ∀ j : S10x1024.Idx, (a1 j).toNat < 1024) :
    mapped a0 a1 = Host.gather gather_S4096x1024_S10x1024x1_S4096x10x1024_0_1_n_n_1_2_40961 a0 (wrapped a1) := by
  unfold mapped inRange
  exact TakeFill.select_range_mask _ _ _ _ _ _ _ (fun i => wrapped_in_range a1 h1 i) _ _

/-- Every mapped element is an element of the sample array: 0 or 1. -/
theorem mapped_bit (a0 : IVec S4096x1024 32) (a1 : IVec S10x1024 32) (h0 : ∀ i : S4096x1024.Idx, a0 i = 0#32 ∨ a0 i = 1#32)
    (h1 : ∀ j : S10x1024.Idx, (a1 j).toNat < 1024) (p : S4096x10x1024.Idx) : mapped a0 a1 p = 0#32 ∨ mapped a0 a1 p = 1#32 := by
  rw [mapped_eq_gather a0 a1 h1]
  exact h0 _

/-! ## The sum -/

/-- The sixteen terms of an address: mapped bit times weight. -/
abbrev terms (a0 : IVec S4096x1024 32) (a1 : IVec S10x1024 32) : IVec S4096x10x64x16 32 :=
  muli (shapeCast S4096x10x64x16 (mapped a0 a1) shapeCasts_S4096x10x1024_S4096x10x64x16)
    (broadcastInDim S4096x10x64x16 ![0, 1, 2, 3] bcast_S1x1x1x16_S4096x10x64x16_0_1_2_3
      (broadcastInDim S1x1x1x16 ![3] bcast_S16_S1x1x1x16_3 weights))

/-- Term k is at most 2 ^ (15 - k). -/
theorem terms_le (a0 : IVec S4096x1024 32) (a1 : IVec S10x1024 32) (h0 : ∀ i : S4096x1024.Idx, a0 i = 0#32 ∨ a0 i = 1#32)
    (h1 : ∀ j : S10x1024.Idx, (a1 j).toNat < 1024) (i : S4096x10x64x16.Idx) :
    (terms a0 a1 i).toNat ≤ 2 ^ (15 - (i 3).val) := by
  show (IntOp.muli (mapped a0 a1 _) (broadcastInDim S4096x10x64x16 ![0, 1, 2, 3] bcast_S1x1x1x16_S4096x10x64x16_0_1_2_3
      (broadcastInDim S1x1x1x16 ![3] bcast_S16_S1x1x1x16_3 weights) i)).toNat ≤ _
  rw [weightsCast_apply]
  exact (toNat_muli_bit_le _ _ (mapped_bit a0 a1 h0 h1 _)).trans (le_of_eq (weightWord_toNat _))

theorem addr_lt (a0 : IVec S4096x1024 32) (a1 : IVec S10x1024 32) (h0 : ∀ i : S4096x1024.Idx, a0 i = 0#32 ∨ a0 i = 1#32)
    (h1 : ∀ j : S10x1024.Idx, (a1 j).toNat < 1024) : ∀ i : S4096x10x64.Idx, (addr a0 a1 i).toNat < 65536 := by
  intro i
  have hR : S4096x10x64x16.Reduces [3] S4096x10x64 := by decide
  -- the sixteen terms over (b, c, n), by their position k on the last axis
  let f : Fin 16 → BitVec 32 := fun k => terms a0 a1 (hR.lift i k)
  have hle : ∀ k : Fin 16, (f k).toNat ≤ 2 ^ (15 - k.val) := fun k => terms_le a0 a1 h0 h1 (hR.lift i k)
  have hsum : ∑ k : Fin 16, (f k).toNat ≤ 65535 :=
    (Finset.sum_le_sum fun k _ => hle k).trans (le_of_eq weights_total)
  have hfold : ((Finset.univ : Finset (Fin 16)).fold IntOp.addi 0#32 f).toNat = ∑ k : Fin 16, (f k).toNat :=
    StableHlo.Predicate.toNat_fold_addi (Finset.univ : Finset (Fin 16)) f (lt_of_le_of_lt hsum (by decide))
  have e : addr a0 a1 i = (Finset.univ : Finset (Fin 16)).fold IntOp.addi 0#32 f :=
    Host.reduce_eq_fold_single IntOp.addi (terms a0 a1) (constantI S_ 32 0#32) reducesTo_S4096x10x64x16_S4096x10x64_d3 hR h_S_ i
  rw [e, hfold]
  exact lt_of_le_of_lt hsum (by decide)

end Cert.KernelIdeal.Addr

end
-- ==== Proof.PreDecode.lean ====
/-
  The printed precondition, read back at one element. The predicate is the conjunction of three `all`s: every table
  entry finite, every sample word in [0, 1] signed, every mapping word in [0, 1024) signed. From "the predicate is 1":
  each sample word is 0 or 1, and each mapping word is below 1024 as a natural number.
-/
import proofs.«403497_j43233140801687_1_alg».proof.Pre_finite_inputs
import proofs.«403497_j43233140801687_1_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Cert.Pre_finite_inputs
open Idealize.ShloMosaic

/-- The scalar shape has one index. -/
instance : Subsingleton S_.Idx := ⟨fun a b => funext fun d => d.elim0⟩

/-- A word that is at least 0 signed has its top bit clear. -/
theorem small_of_sge_zero (w : BitVec 32) (h0 : IntOp.cmpi .sge w 0#32 = 1#1) : w.toNat < 2 ^ 31 := by
  have h0' : BitVec.ofBool ((0#32 : BitVec 32).sle w) = 1#1 := h0
  rw [StableHlo.Predicate.ofBool_eq_one_iff] at h0'
  simp only [BitVec.sle, decide_eq_true_eq] at h0'
  have z : (0#32 : BitVec 32).toInt = 0 := by decide
  rw [z, BitVec.toInt_eq_toNat_cond] at h0'
  have hw := w.isLt
  split at h0' <;> omega

/-- A word in [0, 1] signed is 0 or 1. -/
theorem word_binary (w : BitVec 32) (h0 : IntOp.cmpi .sge w 0#32 = 1#1) (h1 : IntOp.cmpi .sle w 1#32 = 1#1) :
    w = 0#32 ∨ w = 1#32 := by
  have hs := small_of_sge_zero w h0
  have hle : w.toNat ≤ (1#32 : BitVec 32).toNat := (StableHlo.Predicate.sle_iff_toNat hs (by decide)).1 h1
  have h1n : (1#32 : BitVec 32).toNat = 1 := by decide
  rw [h1n] at hle
  rcases Nat.le_one_iff_eq_zero_or_eq_one.1 hle with e | e
  · exact Or.inl (BitVec.eq_of_toNat_eq (by rw [e]; rfl))
  · exact Or.inr (BitVec.eq_of_toNat_eq (by rw [e]; rfl))

/-- A word in [0, 1024) signed is below 1024. -/
theorem word_range (w : BitVec 32) (h0 : IntOp.cmpi .sge w 0#32 = 1#1) (h1 : IntOp.cmpi .slt w 1024#32 = 1#1) :
    w.toNat < 1024 := by
  have hs := small_of_sge_zero w h0
  have hlt : w.toNat < (1024#32 : BitVec 32).toNat := (StableHlo.Predicate.slt_iff_toNat hs (by decide)).1 h1
  have hn : (1024#32 : BitVec 32).toNat = 1024 := by decide
  rw [hn] at hlt
  exact hlt

/-- The predicate opened: the two integer `all`s at every element, as word comparisons. -/
theorem parts {F : FTy → Type} [FloatOps F] (a0 : IVec S4096x1024 32) (a1 : IVec S10x1024 32) (a2 : FVec F S10x64x65536 .f32)
    (h : Cert.Pre_finite_inputs.fn (F := F) a0 a1 a2 = fun _ => 1#1) :
    (∀ i : S4096x1024.Idx, IntOp.cmpi .sge (a0 i) 0#32 = 1#1 ∧ IntOp.cmpi .sle (a0 i) 1#32 = 1#1) ∧
    (∀ j : S10x1024.Idx, IntOp.cmpi .sge (a1 j) 0#32 = 1#1 ∧ IntOp.cmpi .slt (a1 j) 1024#32 = 1#1) := by
  have e := congrFun h ValueIdx.ix0
  dsimp only [Cert.Pre_finite_inputs.fn, Cert.Pre_finite_inputs.fn_part1] at e
  obtain ⟨e1, e3⟩ := IntOp.andi_eq_one.1 e
  obtain ⟨-, e2⟩ := IntOp.andi_eq_one.1 e1
  refine ⟨fun i => ?_, fun j => ?_⟩
  · have hi := Host.reduce_andi_all _ _ _ _ _ e2 i
    exact IntOp.andi_eq_one.1 hi
  · have hj := Host.reduce_andi_all _ _ _ _ _ e3 j
    exact IntOp.andi_eq_one.1 hj

theorem samples_binary {F : FTy → Type} [FloatOps F] (a0 : IVec S4096x1024 32) (a1 : IVec S10x1024 32) (a2 : FVec F S10x64x65536 .f32)
    (h : Cert.Pre_finite_inputs.fn (F := F) a0 a1 a2 = fun _ => 1#1) : ∀ i : S4096x1024.Idx, a0 i = 0#32 ∨ a0 i = 1#32 :=
  fun i => word_binary (a0 i) ((parts a0 a1 a2 h).1 i).1 ((parts a0 a1 a2 h).1 i).2

theorem mapping_range {F : FTy → Type} [FloatOps F] (a0 : IVec S4096x1024 32) (a1 : IVec S10x1024 32) (a2 : FVec F S10x64x65536 .f32)
    (h : Cert.Pre_finite_inputs.fn (F := F) a0 a1 a2 = fun _ => 1#1) : ∀ j : S10x1024.Idx, (a1 j).toNat < 1024 :=
  fun j => word_range (a1 j) ((parts a0 a1 a2 h).2 j).1 ((parts a0 a1 a2 h).2 j).2

end Cert.PreDecode

end
-- ==== Proof.K.Points.lean ====
/- The kernel body's two cases over the grid's points, and the staging memrefs the body is called with at a point. -/
import proofs.«403497_j43233140801687_1_alg».proof.Proof.Gen.Kernel.Frame
import proofs.«403497_j43233140801687_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body, over the grid

The grid is 4 × 64, row-major: point `t` has coordinates `(t / 64, t % 64)`. The body's two
conditionals compare the second coordinate with zero: the first holds exactly where it is zero (the
output block is overwritten there), the second exactly where it is not (the output block is added to). -/

/-- The first conditional's condition: the second coordinate is zero. -/
abbrev resetAt (i : grid0.Coords) : Prop := k0_cond1 i = 1#1
/-- The second conditional's condition: the second coordinate is not zero. -/
abbrev addAt (i : grid0.Coords) : Prop := k0_cond2 i = 1#1

/-- The first condition holds at the points that are multiples of 64 — decided over the 256 points. -/
theorem resetAt_iff : ∀ t : Fin cfg0.N, resetAt (grid0.coords t) ↔ t.val % 64 = 0 :=
  (by decide +kernel : ∀ t : Fin grid0.N, k0_cond1 (grid0.coords t) = 1#1 ↔ t.val % 64 = 0)

/-- The second condition holds at every other point — decided over the 256 points. -/
theorem addAt_iff : ∀ t : Fin cfg0.N, addAt (grid0.coords t) ↔ ¬ t.val % 64 = 0 :=
  (by decide +kernel : ∀ t : Fin grid0.N, k0_cond2 (grid0.coords t) = 1#1 ↔ ¬ t.val % 64 = 0)

/-! ## The staging memrefs at a point -/

/-- The address block's current staging memref at point `t`, and its wholeness. -/
abbrev mem0 (t : Fin cfg0.N) : Memref sig .tc .vmem S1x1024x10 .i32 := win0_0.stage (cfg0.slots t 0)
abbrev whole0 (t : Fin cfg0.N) : (mem0 t).IsWhole := hstage0_0 ((cfg0.slots t 0).cast nbuf0_0)
/-- The table block's current staging memref at point `t`, and its wholeness. -/
abbrev mem1 (t : Fin cfg0.N) : Memref sig .tc .vmem S10x1x256x256 .f32 := win0_1.stage (cfg0.slots t 1)
abbrev whole1 (t : Fin cfg0.N) : (mem1 t).IsWhole := hstage0_1 ((cfg0.slots t 1).cast nbuf0_1)
/-- The output block's current staging memref at point `t`, and its wholeness. -/
abbrev mem2 (t : Fin cfg0.N) : Memref sig .tc .vmem S1024x10 .f32 := win0_2.stage (cfg0.slots t 2)
abbrev whole2 (t : Fin cfg0.N) : (mem2 t).IsWhole := hstage0_2 ((cfg0.slots t 2).cast nbuf0_2)

/-- One staging view of the output block, through which its contents are stated (a whole buffer's pieces read the
    same through any whole view of the shape). -/
abbrev outView : View sig .tc .vmem S1024x10 .f32 := (Memref.whole cc0_stg2_0 : Memref sig .tc .vmem S1024x10 .f32).view

end Cert.Kernel.Body

end
-- ==== Proof.K.RunReset.lean ====
/- The kernel body's run at a point whose second coordinate is zero: the output block is overwritten. -/
import proofs.«403497_j43233140801687_1_alg».proof.Proof.K.Points

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- THE RESET CASE. At a point whose second coordinate is zero the body reads the ten address columns and the ten
    tables, computes the ten looked-up columns, and overwrites the output block with their concatenation (the
    block is read first, and the value read is dropped). On whole staging memrefs — the inputs' at their contents,
    the output's at anything — the body runs to a continuation holding the inputs' as they were and the output's with
    the pieces its store wrote; the pieces are the witness the run finds. -/
noncomputable def runReset (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : resetAt i) (h2 : ¬ addAt i)
    (x0 : Vec F S1x1024x10 .i32) (x1 : Vec F S10x1x256x256 .f32) :
    { L : List (View.Piece (Elt F) S1024x10 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__ram_lookup_kernel i arg2 harg2 arg3 harg3 arg4 harg4) K } := by
  refine ⟨?_, fun E K => ?run⟩
  case run =>
    simp only [cc0__ram_lookup_kernel_eq_skeleton]; unfold cc0__ram_lookup_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.K.RunAdd.lean ====
/- The kernel body's run at a point whose second coordinate is not zero: the output block is added to.
   (After the reset case's module, so that what the two runs share is declared once.) -/
import proofs.«403497_j43233140801687_1_alg».proof.Proof.K.RunReset

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- THE ADDING CASE. At a point whose second coordinate is not zero the body reads the ten address columns and the
    ten tables, computes the ten looked-up columns, reads the output block and overwrites it with what it read plus
    the columns' concatenation. On whole staging memrefs — the inputs' at their contents, the output's at the running
    contents `acc` — the body runs to a continuation holding the inputs' as they were and the output's with the
    pieces its store wrote; the pieces are the witness the run finds. -/
noncomputable def runAdd (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ resetAt i) (h2 : addAt i)
    (x0 : Vec F S1x1024x10 .i32) (x1 : Vec F S10x1x256x256 .f32) (acc : Vec F S1024x10 .f32) :
    { L : List (View.Piece (Elt F) S1024x10 .f32) //
      ∀ (E : Set ℕ) (K : PUnit → sProp 𝕄),
        iprop(owns (c : Thread nD τ) arg2 fullShare x0 ∗ owns (c : Thread nD τ) arg3 fullShare x1
            ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__ram_lookup_kernel i arg2 harg2 arg3 harg3 arg4 harg4) K } := by
  refine ⟨?_, fun E K => ?run⟩
  case run =>
    simp only [cc0__ram_lookup_kernel_eq_skeleton]; unfold cc0__ram_lookup_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.K.Frame.lean ====
/- The kernel's frame: what the output block holds after each point, the pipeline's proof data, the body obligation,
   the run of @main and the frame claim's post. -/
import proofs.«403497_j43233140801687_1_alg».proof.Proof.K.RunAdd

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The reset case's pieces tile the output block (one store of the whole block), so they cover it. -/
theorem cover_reset (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : resetAt i) (h2 : ¬ addAt i)
    (x0 : Vec F S1x1024x10 .i32) (x1 : Vec F S10x1x256x256 .f32) (y : S1024x10.Idx) :
    ∃ pc ∈ (runReset c i arg2 harg2 arg3 harg3 arg4 harg4 h1 h2 x0 x1).1, y ∈ pc.1.set :=
  View.cover_of_tiledL (runReset c i arg2 harg2 arg3 harg3 arg4 harg4 h1 h2 x0 x1).1 S1024x10.size (by sl_kernel_rfl) y

/-- What the reset case leaves in the output's staging buffer: its pieces read back over junk. -/
def leftReset (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : resetAt i) (h2 : ¬ addAt i)
    (x0 : Vec F S1x1024x10 .i32) (x1 : Vec F S10x1x256x256 .f32) : Vec F S1024x10 .f32 :=
  outView.read (Elt F) (outView.writes (Elt F) outView.junk (runReset c i arg2 harg2 arg3 harg3 arg4 harg4 h1 h2 x0 x1).1)

/-- The adding case's pieces tile the output block (one store of the whole block), so they cover it. -/
theorem cover_add (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ resetAt i) (h2 : addAt i)
    (x0 : Vec F S1x1024x10 .i32) (x1 : Vec F S10x1x256x256 .f32) (acc : Vec F S1024x10 .f32) (y : S1024x10.Idx) :
    ∃ pc ∈ (runAdd c i arg2 harg2 arg3 harg3 arg4 harg4 h1 h2 x0 x1 acc).1, y ∈ pc.1.set :=
  View.cover_of_tiledL (runAdd c i arg2 harg2 arg3 harg3 arg4 harg4 h1 h2 x0 x1 acc).1 S1024x10.size (by sl_kernel_rfl) y

/-- What the adding case leaves in the output's staging buffer over the running contents `acc`: its pieces read
    back over junk. -/
def leftAdd (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ resetAt i) (h2 : addAt i)
    (x0 : Vec F S1x1024x10 .i32) (x1 : Vec F S10x1x256x256 .f32) (acc : Vec F S1024x10 .f32) : Vec F S1024x10 .f32 :=
  outView.read (Elt F) (outView.writes (Elt F) outView.junk (runAdd c i arg2 harg2 arg3 harg3 arg4 harg4 h1 h2 x0 x1 acc).1)

/-! ## What the output block holds after each point -/

/-- THE ACCUMULATION. What the output's staging buffer holds after the body at point `n`: at a multiple of 64 (the
    second coordinate zero) what the reset case leaves from the point's two input blocks; at any other point what the
    adding case leaves from them over what the point before left (the buffer is not written back between: the
    write-back is at the points ≡ 63 mod 64 only). -/
def accAfter (c : Dev nD) : (n : ℕ) → n < cfg0.N → Vec F S1024x10 .f32
  | 0, hn => leftReset c (grid0.coords ⟨0, hn⟩) (mem0 ⟨0, hn⟩) (whole0 ⟨0, hn⟩) (mem1 ⟨0, hn⟩) (whole1 ⟨0, hn⟩) (mem2 ⟨0, hn⟩) (whole2 ⟨0, hn⟩)
      ((resetAt_iff ⟨0, hn⟩).mpr (Nat.zero_mod _)) (fun h' => (addAt_iff ⟨0, hn⟩).mp h' (Nat.zero_mod _))
      (Gen.iblk m c 0 ⟨0, hn⟩) (Gen.iblk m c 1 ⟨0, hn⟩)
  | n + 1, hn =>
    if h : (n + 1) % 64 = 0 then
      leftReset c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        ((resetAt_iff ⟨n + 1, hn⟩).mpr h) (fun h' => (addAt_iff ⟨n + 1, hn⟩).mp h' h)
        (Gen.iblk m c 0 ⟨n + 1, hn⟩) (Gen.iblk m c 1 ⟨n + 1, hn⟩)
    else
      leftAdd c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        (fun h' => h ((resetAt_iff ⟨n + 1, hn⟩).mp h')) ((addAt_iff ⟨n + 1, hn⟩).mpr h)
        (Gen.iblk m c 0 ⟨n + 1, hn⟩) (Gen.iblk m c 1 ⟨n + 1, hn⟩) (accAfter c n (Nat.lt_of_succ_lt hn))

/-- `accAfter` at a multiple of 64: the reset case's contents. -/
theorem accAfter_reset (c : Dev nD) (t : Fin cfg0.N) (h : t.val % 64 = 0) :
    accAfter m c t.val t.isLt = leftReset c (grid0.coords t) (mem0 t) (whole0 t) (mem1 t) (whole1 t) (mem2 t) (whole2 t)
      ((resetAt_iff t).mpr h) (fun h' => (addAt_iff t).mp h' h) (Gen.iblk m c 0 t) (Gen.iblk m c 1 t) := by
  obtain ⟨n, hn⟩ := t
  cases n with
  | zero => exact rfl
  | succ n => exact (dif_pos h).trans rfl

/-- `accAfter` at any other point: the adding case's contents over what the point before left. -/
theorem accAfter_add (c : Dev nD) (t : Fin cfg0.N) (h : ¬ t.val % 64 = 0) :
    accAfter m c t.val t.isLt = leftAdd c (grid0.coords t) (mem0 t) (whole0 t) (mem1 t) (whole1 t) (mem2 t) (whole2 t)
      (fun h' => h ((resetAt_iff t).mp h')) ((addAt_iff t).mpr h) (Gen.iblk m c 0 t) (Gen.iblk m c 1 t)
      (accAfter m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The pipeline's proof data -/

/-- The proof data of the one pipeline on core `c`: the arrays as the region finds them; after the body at point `t`
    each input's buffer at its block and the output's at `accAfter`; the invariant the scoped rest and the generator
    register; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => accAfter m c t.val t.isLt
  Φ _ := Pipeline.ΦA spec0 c
  q _ := fullShare
  owed _ := 0

/-- The proof data's arrays are the region-entry contents (the definition projected; the fold over the host
    operations before the region is never opened). -/
theorem dats_A (c : Dev nD) (w : Fin cfg0.W) : (dats m 0 c).A w = Gen.V m c (Pipeline.arrRef spec0 w) := by
  dsimp only [dats]

/-- What the body leaves, window by window. -/
theorem dats_after0 (c : Dev nD) (t : Fin cfg0.N) : (dats m 0 c).after 0 t = Gen.iblk m c 0 t := by dsimp only [dats]
theorem dats_after1 (c : Dev nD) (t : Fin cfg0.N) : (dats m 0 c).after 1 t = Gen.iblk m c 1 t := by dsimp only [dats]
theorem dats_after2 (c : Dev nD) (t : Fin cfg0.N) : (dats m 0 c).after 2 t = accAfter m c t.val t.isLt := by dsimp only [dats]

/-- Each input's current staging buffer holds its block at every point, fetched there or not. -/
theorem dats_before0 (c : Dev nD) (t : Fin cfg0.N) (d) : (dats m 0 c).before 0 t d = Gen.iblk m c 0 t :=
  Gen.before0_0_of m (dats m 0 c) (dats_A m c 0) (dats_after0 m c) t d
theorem dats_before1 (c : Dev nD) (t : Fin cfg0.N) (d) : (dats m 0 c).before 1 t d = Gen.iblk m c 1 t :=
  Gen.before0_1_of m (dats m 0 c) (dats_A m c 1) (dats_after1 m c) t d

/-- The output block is stored into at every point: one of the two conditions holds at any coordinates (the second
    coordinate is zero or it is not) — decided over its 64 values. -/
theorem live2 : ∀ i : grid0.Coords, cfg0.idle 2 i = false := by
  intro i
  have key : ∀ j : Fin 64, (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false := by decide +kernel
  exact key (i 1)

/-- At a point that is no multiple of 64 the output's current staging buffer holds what the body left at the point
    before: the point is not the first, the buffer was not written back between (the write-back is at the points
    ≡ 63 mod 64), the window is stored into at every point and its blocks tile the array. -/
theorem dats_before2_add (c : Dev nD) (t : Fin cfg0.N) (h : ¬ t.val % 64 = 0) (d) :
    (dats m 0 c).before 2 t d = accAfter m c (t.val - 1) (Nat.lt_of_le_of_lt (Nat.sub_le _ _) t.isLt) := by
  have hN : t.val < 256 := lt_of_lt_of_eq t.isLt (show cfg0.N = 256 from Gen.N_0)
  rw [Dat.before_out_kept _ 2 rfl t (by omega) (Bool.eq_false_iff.mpr fun hf => by have := (Gen.flush0_2 _).mp hf; dsimp only at this; omega)
    live2 (fun _ _ => rfl)]
  dsimp only [dats]

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ (dats m 0 c).leavesExact 2 t)

set_option maxHeartbeats 1600000 in
/-- The body at any point: the inputs' memrefs hold their blocks; the point is a multiple of 64 or not, and in the
    second case the output's memref holds what the point before left; so the case's run applies; the invariant
    passes through unread; the core owes nothing throughout. -/
theorem body_sound (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [dats_before0, dats_before1]
  rw [show (dats m 0 c).Φ t.succ = (dats m 0 c).Φ t.castSucc from rfl,
    show (dats m 0 c).owesAt () t.succ = (dats m 0 c).owesAt () t.castSucc from rfl,
    dats_after0, dats_after1,
    show (dats m 0 c).leavesExact 2 t = owns (c : Thread nD τ) (mem2 t) fullShare ((dats m 0 c).after 2 t) from by
      unfold Dat.leavesExact; rw [live2],
    dats_after2]
  by_cases h : t.val % 64 = 0
  · rw [accAfter_reset m c t h]
    unfold leftReset
    iintro ⟨HΦ, Ho, ⟨%d0, H0⟩, ⟨%d1, H1⟩, ⟨%d2, H2⟩⟩
    iapply ((runReset c (grid0.coords t) _ _ _ _ _ _ ((resetAt_iff t).mpr h) (fun h' => (addAt_iff t).mp h' h) (Gen.iblk m c 0 t) (Gen.iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_reset c _ _ _ _ _ _ _ _ _ _ _)
  · rw [accAfter_add m c t h]
    simp only [dats_before2_add m c t h]
    unfold leftAdd
    iintro ⟨HΦ, Ho, ⟨%d0, H0⟩, ⟨%d1, H1⟩, ⟨%d2, H2⟩⟩
    iapply ((runAdd c (grid0.coords t) _ _ _ _ _ _ (fun h' => h ((resetAt_iff t).mp h')) ((addAt_iff t).mpr h) (Gen.iblk m c 0 t) (Gen.iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_add c _ _ _ _ _ _ _ _ _ _ _ _)

/-- The library's body obligation, at every point. -/
theorem body_obligation (c : Dev nD) : BodyObligation (dats (F := F) m 0 c) (defs₀ (F := F)) Variants.none () Set.univ := fun t => by
  rw [Gen.bigSep_W0, Gen.bigSep_W0]
  exact body_sound m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (Gen.V m)) :=
  Pipeline.θ_run_frame cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := dats_A m) (hΦ := fun _ _ => rfl)

/-- THE FRAME: no argument array is changed by the run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_of m ρ (dats m) (dats_A m) (run_main m ρ)

end Cert.Kernel.Body

end
-- ==== Proof.KI.Points.lean ====
/- The kernel body's two cases over the grid's points, and the staging memrefs the body is called with at a point. -/
import proofs.«403497_j43233140801687_1_alg».proof.Proof.Gen.KernelIdeal.Frame
import proofs.«403497_j43233140801687_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body, over the grid

The grid is 4 × 64, row-major: point `t` has coordinates `(t / 64, t % 64)`. The body's two
conditionals compare the second coordinate with zero: the first holds exactly where it is zero (the
output block is overwritten there), the second exactly where it is not (the output block is added to). -/

/-- The first conditional's condition: the second coordinate is zero. -/
abbrev resetAt (i : grid0.Coords) : Prop := k0_cond1 i = 1#1
/-- The second conditional's condition: the second coordinate is not zero. -/
abbrev addAt (i : grid0.Coords) : Prop := k0_cond2 i = 1#1

/-- The first condition holds at the points that are multiples of 64 — decided over the 256 points. -/
theorem resetAt_iff : ∀ t : Fin cfg0.N, resetAt (grid0.coords t) ↔ t.val % 64 = 0 :=
  (by decide +kernel : ∀ t : Fin grid0.N, k0_cond1 (grid0.coords t) = 1#1 ↔ t.val % 64 = 0)

/-- The second condition holds at every other point — decided over the 256 points. -/
theorem addAt_iff : ∀ t : Fin cfg0.N, addAt (grid0.coords t) ↔ ¬ t.val % 64 = 0 :=
  (by decide +kernel : ∀ t : Fin grid0.N, k0_cond2 (grid0.coords t) = 1#1 ↔ ¬ t.val % 64 = 0)

/-! ## The staging memrefs at a point -/

/-- The address block's current staging memref at point `t`, and its wholeness. -/
abbrev mem0 (t : Fin cfg0.N) : Memref sig .tc .vmem S1x1024x10 .i32 := win0_0.stage (cfg0.slots t 0)
abbrev whole0 (t : Fin cfg0.N) : (mem0 t).IsWhole := hstage0_0 ((cfg0.slots t 0).cast nbuf0_0)
/-- The table block's current staging memref at point `t`, and its wholeness. -/
abbrev mem1 (t : Fin cfg0.N) : Memref sig .tc .vmem S10x1x256x256 .f32 := win0_1.stage (cfg0.slots t 1)
abbrev whole1 (t : Fin cfg0.N) : (mem1 t).IsWhole := hstage0_1 ((cfg0.slots t 1).cast nbuf0_1)
/-- The output block's current staging memref at point `t`, and its wholeness. -/
abbrev mem2 (t : Fin cfg0.N) : Memref sig .tc .vmem S1024x10 .f32 := win0_2.stage (cfg0.slots t 2)
abbrev whole2 (t : Fin cfg0.N) : (mem2 t).IsWhole := hstage0_2 ((cfg0.slots t 2).cast nbuf0_2)

/-- One staging view of the output block, through which its contents are stated (a whole buffer's pieces read the
    same through any whole view of the shape). -/
abbrev outView : View sig .tc .vmem S1024x10 .f32 := (Memref.whole cc0_stg2_0 : Memref sig .tc .vmem S1024x10 .f32).view

end Cert.KernelIdeal.Body

end
-- ==== Proof.KI.RunReset.lean ====
/- The kernel body's run at a point whose second coordinate is zero: the output block is overwritten. -/
import proofs.«403497_j43233140801687_1_alg».proof.Proof.KI.Points

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- THE RESET CASE. At a point whose second coordinate is zero the body reads the ten address columns and the ten
    tables, computes the ten looked-up columns, and overwrites the output block with their concatenation (the
    block is read first, and the value read is dropped). On whole staging memrefs — the inputs' at their contents,
    the output's at anything — the body runs to a continuation holding the inputs' as they were and the output's with
    the pieces its store wrote; the pieces are the witness the run finds. -/
noncomputable def runReset (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : resetAt i) (h2 : ¬ addAt i)
    (x0 : Vec F S1x1024x10 .i32) (x1 : Vec F S10x1x256x256 .f32) :
    { L : List (View.Piece (Elt F) S1024x10 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__ram_lookup_kernel i arg2 harg2 arg3 harg3 arg4 harg4) K } := by
  refine ⟨?_, fun E K => ?run⟩
  case run =>
    simp only [cc0__ram_lookup_kernel_eq_skeleton]; unfold cc0__ram_lookup_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.RunAdd.lean ====
/- The kernel body's run at a point whose second coordinate is not zero: the output block is added to.
   (After the reset case's module, so that what the two runs share is declared once.) -/
import proofs.«403497_j43233140801687_1_alg».proof.Proof.KI.RunReset

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- THE ADDING CASE. At a point whose second coordinate is not zero the body reads the ten address columns and the
    ten tables, computes the ten looked-up columns, reads the output block and overwrites it with what it read plus
    the columns' concatenation. On whole staging memrefs — the inputs' at their contents, the output's at the running
    contents `acc` — the body runs to a continuation holding the inputs' as they were and the output's with the
    pieces its store wrote; the pieces are the witness the run finds. -/
noncomputable def runAdd (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ resetAt i) (h2 : addAt i)
    (x0 : Vec F S1x1024x10 .i32) (x1 : Vec F S10x1x256x256 .f32) (acc : Vec F S1024x10 .f32) :
    { L : List (View.Piece (Elt F) S1024x10 .f32) //
      ∀ (E : Set ℕ) (K : PUnit → sProp 𝕄),
        iprop(owns (c : Thread nD τ) arg2 fullShare x0 ∗ owns (c : Thread nD τ) arg3 fullShare x1
            ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__ram_lookup_kernel i arg2 harg2 arg3 harg3 arg4 harg4) K } := by
  refine ⟨?_, fun E K => ?run⟩
  case run =>
    simp only [cc0__ram_lookup_kernel_eq_skeleton]; unfold cc0__ram_lookup_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.Frame.lean ====
/- The kernel's frame: what the output block holds after each point, the pipeline's proof data, the body obligation,
   the run of @main and the frame claim's post. -/
import proofs.«403497_j43233140801687_1_alg».proof.Proof.KI.RunAdd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The reset case's pieces tile the output block (one store of the whole block), so they cover it. -/
theorem cover_reset (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : resetAt i) (h2 : ¬ addAt i)
    (x0 : Vec F S1x1024x10 .i32) (x1 : Vec F S10x1x256x256 .f32) (y : S1024x10.Idx) :
    ∃ pc ∈ (runReset c i arg2 harg2 arg3 harg3 arg4 harg4 h1 h2 x0 x1).1, y ∈ pc.1.set :=
  View.cover_of_tiledL (runReset c i arg2 harg2 arg3 harg3 arg4 harg4 h1 h2 x0 x1).1 S1024x10.size (by sl_kernel_rfl) y

/-- What the reset case leaves in the output's staging buffer: its pieces read back over junk. -/
def leftReset (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : resetAt i) (h2 : ¬ addAt i)
    (x0 : Vec F S1x1024x10 .i32) (x1 : Vec F S10x1x256x256 .f32) : Vec F S1024x10 .f32 :=
  outView.read (Elt F) (outView.writes (Elt F) outView.junk (runReset c i arg2 harg2 arg3 harg3 arg4 harg4 h1 h2 x0 x1).1)

/-- The adding case's pieces tile the output block (one store of the whole block), so they cover it. -/
theorem cover_add (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ resetAt i) (h2 : addAt i)
    (x0 : Vec F S1x1024x10 .i32) (x1 : Vec F S10x1x256x256 .f32) (acc : Vec F S1024x10 .f32) (y : S1024x10.Idx) :
    ∃ pc ∈ (runAdd c i arg2 harg2 arg3 harg3 arg4 harg4 h1 h2 x0 x1 acc).1, y ∈ pc.1.set :=
  View.cover_of_tiledL (runAdd c i arg2 harg2 arg3 harg3 arg4 harg4 h1 h2 x0 x1 acc).1 S1024x10.size (by sl_kernel_rfl) y

/-- What the adding case leaves in the output's staging buffer over the running contents `acc`: its pieces read
    back over junk. -/
def leftAdd (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ resetAt i) (h2 : addAt i)
    (x0 : Vec F S1x1024x10 .i32) (x1 : Vec F S10x1x256x256 .f32) (acc : Vec F S1024x10 .f32) : Vec F S1024x10 .f32 :=
  outView.read (Elt F) (outView.writes (Elt F) outView.junk (runAdd c i arg2 harg2 arg3 harg3 arg4 harg4 h1 h2 x0 x1 acc).1)

/-! ## What the output block holds after each point -/

/-- THE ACCUMULATION. What the output's staging buffer holds after the body at point `n`: at a multiple of 64 (the
    second coordinate zero) what the reset case leaves from the point's two input blocks; at any other point what the
    adding case leaves from them over what the point before left (the buffer is not written back between: the
    write-back is at the points ≡ 63 mod 64 only). -/
def accAfter (c : Dev nD) : (n : ℕ) → n < cfg0.N → Vec F S1024x10 .f32
  | 0, hn => leftReset c (grid0.coords ⟨0, hn⟩) (mem0 ⟨0, hn⟩) (whole0 ⟨0, hn⟩) (mem1 ⟨0, hn⟩) (whole1 ⟨0, hn⟩) (mem2 ⟨0, hn⟩) (whole2 ⟨0, hn⟩)
      ((resetAt_iff ⟨0, hn⟩).mpr (Nat.zero_mod _)) (fun h' => (addAt_iff ⟨0, hn⟩).mp h' (Nat.zero_mod _))
      (Gen.iblk m c 0 ⟨0, hn⟩) (Gen.iblk m c 1 ⟨0, hn⟩)
  | n + 1, hn =>
    if h : (n + 1) % 64 = 0 then
      leftReset c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        ((resetAt_iff ⟨n + 1, hn⟩).mpr h) (fun h' => (addAt_iff ⟨n + 1, hn⟩).mp h' h)
        (Gen.iblk m c 0 ⟨n + 1, hn⟩) (Gen.iblk m c 1 ⟨n + 1, hn⟩)
    else
      leftAdd c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        (fun h' => h ((resetAt_iff ⟨n + 1, hn⟩).mp h')) ((addAt_iff ⟨n + 1, hn⟩).mpr h)
        (Gen.iblk m c 0 ⟨n + 1, hn⟩) (Gen.iblk m c 1 ⟨n + 1, hn⟩) (accAfter c n (Nat.lt_of_succ_lt hn))

/-- `accAfter` at a multiple of 64: the reset case's contents. -/
theorem accAfter_reset (c : Dev nD) (t : Fin cfg0.N) (h : t.val % 64 = 0) :
    accAfter m c t.val t.isLt = leftReset c (grid0.coords t) (mem0 t) (whole0 t) (mem1 t) (whole1 t) (mem2 t) (whole2 t)
      ((resetAt_iff t).mpr h) (fun h' => (addAt_iff t).mp h' h) (Gen.iblk m c 0 t) (Gen.iblk m c 1 t) := by
  obtain ⟨n, hn⟩ := t
  cases n with
  | zero => exact rfl
  | succ n => exact (dif_pos h).trans rfl

/-- `accAfter` at any other point: the adding case's contents over what the point before left. -/
theorem accAfter_add (c : Dev nD) (t : Fin cfg0.N) (h : ¬ t.val % 64 = 0) :
    accAfter m c t.val t.isLt = leftAdd c (grid0.coords t) (mem0 t) (whole0 t) (mem1 t) (whole1 t) (mem2 t) (whole2 t)
      (fun h' => h ((resetAt_iff t).mp h')) ((addAt_iff t).mpr h) (Gen.iblk m c 0 t) (Gen.iblk m c 1 t)
      (accAfter m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The pipeline's proof data -/

/-- The proof data of the one pipeline on core `c`: the arrays as the region finds them; after the body at point `t`
    each input's buffer at its block and the output's at `accAfter`; the invariant the scoped rest and the generator
    register; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => accAfter m c t.val t.isLt
  Φ _ := Pipeline.ΦA spec0 c
  q _ := fullShare
  owed _ := 0

/-- The proof data's arrays are the region-entry contents (the definition projected; the fold over the host
    operations before the region is never opened). -/
theorem dats_A (c : Dev nD) (w : Fin cfg0.W) : (dats m 0 c).A w = Gen.V m c (Pipeline.arrRef spec0 w) := by
  dsimp only [dats]

/-- What the body leaves, window by window. -/
theorem dats_after0 (c : Dev nD) (t : Fin cfg0.N) : (dats m 0 c).after 0 t = Gen.iblk m c 0 t := by dsimp only [dats]
theorem dats_after1 (c : Dev nD) (t : Fin cfg0.N) : (dats m 0 c).after 1 t = Gen.iblk m c 1 t := by dsimp only [dats]
theorem dats_after2 (c : Dev nD) (t : Fin cfg0.N) : (dats m 0 c).after 2 t = accAfter m c t.val t.isLt := by dsimp only [dats]

/-- Each input's current staging buffer holds its block at every point, fetched there or not. -/
theorem dats_before0 (c : Dev nD) (t : Fin cfg0.N) (d) : (dats m 0 c).before 0 t d = Gen.iblk m c 0 t :=
  Gen.before0_0_of m (dats m 0 c) (dats_A m c 0) (dats_after0 m c) t d
theorem dats_before1 (c : Dev nD) (t : Fin cfg0.N) (d) : (dats m 0 c).before 1 t d = Gen.iblk m c 1 t :=
  Gen.before0_1_of m (dats m 0 c) (dats_A m c 1) (dats_after1 m c) t d

/-- The output block is stored into at every point: one of the two conditions holds at any coordinates (the second
    coordinate is zero or it is not) — decided over its 64 values. -/
theorem live2 : ∀ i : grid0.Coords, cfg0.idle 2 i = false := by
  intro i
  have key : ∀ j : Fin 64, (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false := by decide +kernel
  exact key (i 1)

/-- At a point that is no multiple of 64 the output's current staging buffer holds what the body left at the point
    before: the point is not the first, the buffer was not written back between (the write-back is at the points
    ≡ 63 mod 64), the window is stored into at every point and its blocks tile the array. -/
theorem dats_before2_add (c : Dev nD) (t : Fin cfg0.N) (h : ¬ t.val % 64 = 0) (d) :
    (dats m 0 c).before 2 t d = accAfter m c (t.val - 1) (Nat.lt_of_le_of_lt (Nat.sub_le _ _) t.isLt) := by
  have hN : t.val < 256 := lt_of_lt_of_eq t.isLt (show cfg0.N = 256 from Gen.N_0)
  rw [Dat.before_out_kept _ 2 rfl t (by omega) (Bool.eq_false_iff.mpr fun hf => by have := (Gen.flush0_2 _).mp hf; dsimp only at this; omega)
    live2 (fun _ _ => rfl)]
  dsimp only [dats]

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ (dats m 0 c).leavesExact 2 t)

set_option maxHeartbeats 1600000 in
/-- The body at any point: the inputs' memrefs hold their blocks; the point is a multiple of 64 or not, and in the
    second case the output's memref holds what the point before left; so the case's run applies; the invariant
    passes through unread; the core owes nothing throughout. -/
theorem body_sound (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [dats_before0, dats_before1]
  rw [show (dats m 0 c).Φ t.succ = (dats m 0 c).Φ t.castSucc from rfl,
    show (dats m 0 c).owesAt () t.succ = (dats m 0 c).owesAt () t.castSucc from rfl,
    dats_after0, dats_after1,
    show (dats m 0 c).leavesExact 2 t = owns (c : Thread nD τ) (mem2 t) fullShare ((dats m 0 c).after 2 t) from by
      unfold Dat.leavesExact; rw [live2],
    dats_after2]
  by_cases h : t.val % 64 = 0
  · rw [accAfter_reset m c t h]
    unfold leftReset
    iintro ⟨HΦ, Ho, ⟨%d0, H0⟩, ⟨%d1, H1⟩, ⟨%d2, H2⟩⟩
    iapply ((runReset c (grid0.coords t) _ _ _ _ _ _ ((resetAt_iff t).mpr h) (fun h' => (addAt_iff t).mp h' h) (Gen.iblk m c 0 t) (Gen.iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_reset c _ _ _ _ _ _ _ _ _ _ _)
  · rw [accAfter_add m c t h]
    simp only [dats_before2_add m c t h]
    unfold leftAdd
    iintro ⟨HΦ, Ho, ⟨%d0, H0⟩, ⟨%d1, H1⟩, ⟨%d2, H2⟩⟩
    iapply ((runAdd c (grid0.coords t) _ _ _ _ _ _ (fun h' => h ((resetAt_iff t).mp h')) ((addAt_iff t).mpr h) (Gen.iblk m c 0 t) (Gen.iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_add c _ _ _ _ _ _ _ _ _ _ _ _)

/-- The library's body obligation, at every point. -/
theorem body_obligation (c : Dev nD) : BodyObligation (dats (F := F) m 0 c) (defs₀ (F := F)) Variants.none () Set.univ := fun t => by
  rw [Gen.bigSep_W0, Gen.bigSep_W0]
  exact body_sound m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (Gen.V m)) :=
  Pipeline.θ_run_frame cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := dats_A m) (hΦ := fun _ _ => rfl)

/-- THE FRAME: no argument array is changed by the run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_of m ρ (dats m) (dats_A m) (run_main m ρ)

end Cert.KernelIdeal.Body

end
-- ==== Proof.KI.Host.lean ====
/- The kernel program's host prefix read as values: what the two arrays the kernel's windows stage hold when the
   kernel is entered. The address array is the shared address chain with its axes permuted to
   [neuron, sample, class]; the table array is the third argument with each neuron's 65536 entries viewed as a
   256 × 256 square. Read at an index, the first is the address at the permuted index and the second the table entry
   at position 256 · row + column; the kernel-side response over them is therefore the response function itself. -/
import proofs.«403497_j43233140801687_1_alg».proof.Proof.Gen.KernelIdeal.Frame
import proofs.«403497_j43233140801687_1_alg».proof.Proof.Addr
import proofs.«403497_j43233140801687_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Host

open Cert.KernelIdeal Cert.KernelIdeal.Facts₀
open Idealize.ShloMosaic Idealize.ShloMosaic.TcCoe Idealize.ShloMosaic.ValueIdx

variable {F : FTy → Type} [FloatOps F]

/-- The address array as the kernel finds it: the shared address chain, axes permuted to [neuron, sample, class]. -/
theorem V13_eq (m : (ℓ : Loc nD τ sig) → Buf (Elt F) ℓ) (c : Dev nD) :
    (Gen.V m c main_v13 : IVec S64x4096x10 32)
      = transpose S64x4096x10 [2, 0, 1]
          (Cert.KernelIdeal.Addr.addr (m ((c.tc : Thread nD τ).loc main_arg0)) (m ((c.tc : Thread nD τ).loc main_arg1)))
          transposes_S4096x10x64_S64x4096x10_2_0_1 := by
  dsimp only [Gen.V]
  simp only [Gen.hostOps0, Gen.hostOps0_1, List.flatten_cons, List.flatten_nil, List.append_nil, List.cons_append,
    List.nil_append]
  after_results_simp
  rfl

/-- The table array as the kernel finds it: the third argument, each neuron's entries viewed as a square. -/
theorem V14_eq (m : (ℓ : Loc nD τ sig) → Buf (Elt F) ℓ) (c : Dev nD) :
    (Gen.V m c main_v14 : FVec F S10x64x256x256 .f32)
      = shapeCast S10x64x256x256 (m ((c.tc : Thread nD τ).loc main_arg2)) shapeCasts_S10x64x65536_S10x64x256x256 := by
  dsimp only [Gen.V]
  simp only [Gen.hostOps0, Gen.hostOps0_1, List.flatten_cons, List.flatten_nil, List.append_nil, List.cons_append,
    List.nil_append]
  after_results
  rfl

/-- The address array read at (neuron, sample, class): the address of that neuron of that class on that sample. -/
theorem V13_apply (m : (ℓ : Loc nD τ sig) → Buf (Elt F) ℓ) (c : Dev nD) (n : Fin 64) (b : Fin 4096) (k : Fin 10) :
    Gen.V m c main_v13 (ix3 n b k)
      = Cert.KernelIdeal.Addr.addr (m ((c.tc : Thread nD τ).loc main_arg0)) (m ((c.tc : Thread nD τ).loc main_arg1)) (ix3 b k n) := by
  have e := congrFun (V13_eq m c) (ix3 n b k)
  refine e.trans ?_
  exact transpose_apply _ _ transposes_S4096x10x64_S64x4096x10_2_0_1 _ _
    fun a => match a with | ⟨0, _⟩ => rfl | ⟨1, _⟩ => rfl | ⟨2, _⟩ => rfl

/-- The table array read at (class, neuron, row, column): the table entry at position 256 · row + column. -/
theorem V14_apply (m : (ℓ : Loc nD τ sig) → Buf (Elt F) ℓ) (c : Dev nD) (k : Fin 10) (n : Fin 64) (p q : Fin 256) :
    Gen.V m c main_v14 (ix4 k n p q)
      = m ((c.tc : Thread nD τ).loc main_arg2) (ix3 k n ⟨256 * p.val + q.val, by omega⟩) := by
  have e := congrFun (V14_eq m c) (ix4 k n p q)
  refine e.trans ?_
  refine shapeCast_apply _ shapeCasts_S10x64x65536_S10x64x256x256 _ _ ?_
  rw [Shape.rowMajor_val_three, Shape.rowMajor_val_four]
  show ((k.val * 64 + n.val) * 65536 + (256 * p.val + q.val)) = ((k.val * 64 + n.val) * 256 + p.val) * 256 + q.val
  omega

open scoped BigOperators in
/-- Over the two arrays the kernel finds, the response summed the kernel's way (row and column of each neuron's
    square) is the response function of the addresses and the table: row and column give the address back, every
    address being below 65536. -/
theorem Kout_eq_G (m : (ℓ : Loc nD τ sig) → Buf (Elt Ideal) ℓ) (c : Dev nD)
    (hlt : ∀ i : S4096x10x64.Idx,
      (Cert.KernelIdeal.Addr.addr (m ((c.tc : Thread nD τ).loc main_arg0)) (m ((c.tc : Thread nD τ).loc main_arg1)) i).toNat < 65536) :
    Cert.Wisard.Kout (Gen.V m c main_v13) (Gen.V m c main_v14)
      = Cert.Wisard.G (Cert.KernelIdeal.Addr.addr (m ((c.tc : Thread nD τ).loc main_arg0)) (m ((c.tc : Thread nD τ).loc main_arg1)))
          (m ((c.tc : Thread nD τ).loc main_arg2)) := by
  funext j
  unfold Cert.Wisard.Kout Cert.Wisard.G
  refine Finset.sum_congr rfl fun n _ => ?_
  have h := hlt (ix3 (j 0) (j 1) n)
  have e13 := V13_apply m c n (j 0) (j 1)
  refine (V14_apply m c (j 1) n _ _).trans ?_
  refine congrArg (m ((c.tc : Thread nD τ).loc main_arg2)) ?_
  refine congrArg (ix3 (j 1) n) (Fin.ext ?_)
  rw [Cert.Wisard.cell_val _ h]
  refine Eq.trans ?_ (Cert.Wisard.hi_lo_val _ h)
  show 256 * (Cert.Wisard.hiOf (Gen.V m c main_v13 (ix3 n (j 0) (j 1)))).val
      + (Cert.Wisard.loOf (Gen.V m c main_v13 (ix3 n (j 0) (j 1)))).val = _
  rw [e13]

end Cert.KernelIdeal.Host

end
-- ==== Proof.KI.Blocks.lean ====
/- Where the kernel's three windows sit at a grid point, and what the two input blocks hold there.

   The grid is 4 × 64, row-major: point `t` is (batch tile `t / 64`, neuron `t % 64`). The address window's block at
   `t` is (neuron, batch tile, 0) in blocks of [1, 1024, 10]; the table window's is (0, neuron, 0, 0) in blocks of
   [10, 1, 256, 256]; the response window's is (batch tile, 0) in blocks of [1024, 10]. So row `r`, class `k` of the
   address block at `t` is the address of sample `1024 · (t / 64) + r`, class `k`, neuron `t % 64`; entry
   (k, 0, p, q) of the table block is entry (k, t % 64, p, q) of the tables; and the response block written back at the
   last neuron of batch tile `b` covers samples `1024 b … 1024 b + 1023`, so the four write-backs tile the responses. -/
import proofs.«403497_j43233140801687_1_alg».proof.Proof.Gen.KernelIdeal.Frame
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid has 256 points. -/
theorem N_eq : cfg0.N = 256 := N_0

/-- The three windows' block indices at a point, in closed form — decided once over the 256 points. -/
theorem idx_facts : ∀ t : Fin cfg0.N,
    win0_0.index t (0 : Fin 3) = t.val % 64 ∧ win0_0.index t (1 : Fin 3) = t.val / 64 ∧ win0_0.index t (2 : Fin 3) = 0
    ∧ win0_1.index t (0 : Fin 4) = 0 ∧ win0_1.index t (1 : Fin 4) = t.val % 64 ∧ win0_1.index t (2 : Fin 4) = 0
    ∧ win0_1.index t (3 : Fin 4) = 0
    ∧ win0_2.index t (0 : Fin 2) = t.val / 64 ∧ win0_2.index t (1 : Fin 2) = 0 :=
  (by decide +kernel : ∀ t : Fin grid0.N, _)

/-- The address array as the kernel finds it, and its block at a point. -/
abbrev addrArr (c : Dev nD) : Vec F S64x4096x10 .i32 := V m c main_v13
abbrev addrBlk (c : Dev nD) (t : Fin cfg0.N) : Vec F S1x1024x10 .i32 := iblk m c 0 t
/-- The table array as the kernel finds it, and its block at a point. -/
abbrev tabArr (c : Dev nD) : Vec F S10x64x256x256 .f32 := V m c main_v14
abbrev tabBlk (c : Dev nD) (t : Fin cfg0.N) : Vec F S10x1x256x256 .f32 := iblk m c 1 t

theorem pt_mod (t : Fin cfg0.N) : t.val % 64 < 64 := Nat.mod_lt _ (by decide)
theorem pt_row (t : Fin cfg0.N) (r : Fin 1024) : 1024 * (t.val / 64) + r.val < 4096 := by
  have h : t.val < 256 := N_eq ▸ t.isLt
  have := r.isLt
  omega

/-- The address window's block at point `t`, read off ANY contents `A` of its array: row `r`, class `k` is `A` at
    (neuron `t % 64`, sample `1024 (t / 64) + r`, class `k`). -/
theorem addrRead (A : Vec F S64x4096x10 .i32) (t : Fin cfg0.N) (r : Fin 1024) (k : Fin 10) :
    ((cfg0.win 0).blk t).view.read (Elt F) A (ix3 (0 : Fin 1) r k)
      = A (ix3 (⟨t.val % 64, pt_mod t⟩ : Fin 64) (⟨1024 * (t.val / 64) + r.val, pt_row t r⟩ : Fin 4096) k) := by
  obtain ⟨e0, e1, e2, -⟩ := idx_facts t
  show A (((cfg0.win 0).blk t).view.emb (ix3 (0 : Fin 1) r k)) = A _
  refine congrArg A (funext fun a => Fin.ext ?_)
  match a with
  | ⟨0, _⟩ => show win0_0.index t (0 : Fin 3) * 1 + 1 * 0 = t.val % 64; rw [e0]; omega
  | ⟨1, _⟩ => show win0_0.index t (1 : Fin 3) * 1024 + 1 * r.val = 1024 * (t.val / 64) + r.val; rw [e1]; omega
  | ⟨2, _⟩ => show win0_0.index t (2 : Fin 3) * 10 + 1 * k.val = k.val; rw [e2]; omega

/-- Row `r`, class `k` of the address block at point `t`: sample `1024 (t / 64) + r`, class `k`, neuron `t % 64`. -/
theorem addrBlk_apply (c : Dev nD) (t : Fin cfg0.N) (r : Fin 1024) (k : Fin 10) :
    addrBlk m c t (ix3 (0 : Fin 1) r k)
      = addrArr m c (ix3 (⟨t.val % 64, pt_mod t⟩ : Fin 64) (⟨1024 * (t.val / 64) + r.val, pt_row t r⟩ : Fin 4096) k) :=
  addrRead (V m c main_v13) t r k

/-- The table window's block at point `t`, read off ANY contents `R` of its array: entry (k, 0, p, q) is `R` at
    (k, `t % 64`, p, q). -/
theorem tabRead (R : Vec F S10x64x256x256 .f32) (t : Fin cfg0.N) (k : Fin 10) (p q : Fin 256) :
    ((cfg0.win 1).blk t).view.read (Elt F) R (ix4 k (0 : Fin 1) p q)
      = R (ix4 k (⟨t.val % 64, pt_mod t⟩ : Fin 64) p q) := by
  obtain ⟨-, -, -, e0, e1, e2, e3, -⟩ := idx_facts t
  show R (((cfg0.win 1).blk t).view.emb (ix4 k (0 : Fin 1) p q)) = R _
  refine congrArg R (funext fun a => Fin.ext ?_)
  match a with
  | ⟨0, _⟩ => show win0_1.index t (0 : Fin 4) * 10 + 1 * k.val = k.val; rw [e0]; omega
  | ⟨1, _⟩ => show win0_1.index t (1 : Fin 4) * 1 + 1 * 0 = t.val % 64; rw [e1]; omega
  | ⟨2, _⟩ => show win0_1.index t (2 : Fin 4) * 256 + 1 * p.val = p.val; rw [e2]; omega
  | ⟨3, _⟩ => show win0_1.index t (3 : Fin 4) * 256 + 1 * q.val = q.val; rw [e3]; omega

/-- Entry (k, 0, p, q) of the table block at point `t`: entry (k, t % 64, p, q) of the tables. -/
theorem tabBlk_apply (c : Dev nD) (t : Fin cfg0.N) (k : Fin 10) (p q : Fin 256) :
    tabBlk m c t (ix4 k (0 : Fin 1) p q) = tabArr m c (ix4 k (⟨t.val % 64, pt_mod t⟩ : Fin 64) p q) :=
  tabRead (V m c main_v14) t k p q

/-- A response index is in point `t`'s block iff each coordinate is in the block's range on its axis. -/
theorem mem_respBlk (t : Fin cfg0.N) (i : S4096x10.Idx) :
    i ∈ ((cfg0.win 2).blk t).view.set
      ↔ ∀ a : Fin 2, win0_2.index t a * S1024x10.size a ≤ (i a).val
          ∧ (i a).val < win0_2.index t a * S1024x10.size a + S1024x10.size a := by
  show i ∈ ((View.whole main_v15).slice (win0_2.rect t)).set ↔ _
  rw [View.set_slice_whole, Rect.mem_set_unit]
  exact Iff.rfl

/-- The point that writes back the block holding sample `b`: the last neuron of `b`'s batch tile. -/
theorem lastPt_lt (b : Fin 4096) : 64 * (b.val / 1024) + 63 < cfg0.N := by
  rw [N_eq]; have := b.isLt; omega

/-- Every response index lies in the block some write-back writes: the four write-backs tile the responses. -/
theorem resp_cover (i : S4096x10.Idx) :
    ∃ t : Fin cfg0.N, (cfg0.win 2).flush t = true ∧ i ∈ ((cfg0.win 2).blk t).view.set := by
  have hi0 : (i 0).val < 4096 := (i 0).isLt
  have hi1 : (i 1).val < 10 := (i 1).isLt
  refine ⟨⟨64 * ((i 0).val / 1024) + 63, lastPt_lt (i 0)⟩, (flush0_2 _).mpr (by show (64 * ((i 0).val / 1024) + 63) % 64 = 63; omega), ?_⟩
  rw [mem_respBlk]
  obtain ⟨-, -, -, -, -, -, -, e0, e1⟩ := idx_facts ⟨64 * ((i 0).val / 1024) + 63, lastPt_lt (i 0)⟩
  have e0' : win0_2.index ⟨64 * ((i 0).val / 1024) + 63, lastPt_lt (i 0)⟩ (0 : Fin 2) = (i 0).val / 1024 := by
    rw [e0]; show (64 * ((i 0).val / 1024) + 63) / 64 = (i 0).val / 1024; omega
  intro a
  match a with
  | ⟨0, _⟩ =>
    show win0_2.index _ (0 : Fin 2) * 1024 ≤ (i 0).val ∧ (i 0).val < win0_2.index _ (0 : Fin 2) * 1024 + 1024
    rw [e0']; omega
  | ⟨1, _⟩ =>
    show win0_2.index _ (1 : Fin 2) * 10 ≤ (i 1).val ∧ (i 1).val < win0_2.index _ (1 : Fin 2) * 10 + 10
    rw [e1]; omega

end Cert.KernelIdeal.Result

end
-- ==== Proof.KI.Step.lean ====
import proofs.«403497_j43233140801687_1_alg».proof.Proof.Gen.KernelIdeal.Skeleton

/-! # One grid step's arithmetic, as a function of the twenty vectors it loads

A grid step loads, for each class `k` of the ten, the column `k` of the address block (a
`[1,1024,1]` vector of words) and the table of class `k` (a `[1,1,256,256]` vector of floats), and
stores either the concatenation of the ten per-class selections (`stepReset`) or that concatenation
added to the block already there (`stepAdd`). The two definitions below are the stored values with
every intermediate name of the body substituted by the payload that computes it. -/

noncomputable section

namespace Cert.KernelIdeal.Step

open Idealize.ShloMosaic Idealize.SL.Sem

variable {F : FTy → Type} [FloatOps F]

/-- The lane coordinate: the word at `(r, l)` is `l`. -/
abbrev lanes : IVec S1024x256 32 := iota .tc S1024x256 32 [1] Gen.iota_S1024x256_d1_w32

/-- The value stored when the step starts a row block afresh: the ten per-class selections, joined
along axis 1. `cols k` is the address column of class `k`, `tbls k` its table. -/
def stepReset (cols : Fin 10 → Vec F S1x1024x1 .i32) (tbls : Fin 10 → Vec F S1x1x256x256 .f32) :
    FVec F S1024x10 .f32 :=
  Gen.k0_pay1 lanes
    (Gen.k0_pay3 (cols 0) (tbls 0))
    (Gen.k0_pay8 lanes (Gen.k0_pay5 (tbls 1)) (Gen.k0_pay6 (cols 1)) (Gen.k0_pay7 (cols 1)))
    (Gen.k0_pay9 lanes (cols 2) (tbls 2))
    (Gen.k0_pay14 lanes (Gen.k0_pay11 (cols 3)) (Gen.k0_pay12 (cols 3)) (Gen.k0_pay13 (tbls 3)))
    (Gen.k0_pay15 lanes (cols 4) (tbls 4))
    (Gen.k0_pay19 lanes (Gen.k0_pay17 (cols 5)) (Gen.k0_pay18 (cols 5)) (tbls 5))
    (Gen.k0_pay20 lanes (cols 6) (tbls 6))
    (Gen.k0_pay22 lanes (Gen.k0_pay21 (cols 7)) 8#32 (tbls 7))
    (Gen.k0_pay23 lanes (cols 8) (tbls 8))
    (cols 9) (tbls 9)

/-- The value stored when the step accumulates: the block already there plus the ten selections. -/
def stepAdd (cols : Fin 10 → Vec F S1x1024x1 .i32) (tbls : Fin 10 → Vec F S1x1x256x256 .f32)
    (acc : Vec F S1024x10 .f32) : FVec F S1024x10 .f32 :=
  Gen.k0_pay2 lanes
    (Gen.k0_pay3 (cols 0) (tbls 0))
    (Gen.k0_pay8 lanes (Gen.k0_pay5 (tbls 1)) (Gen.k0_pay6 (cols 1)) (Gen.k0_pay7 (cols 1)))
    (Gen.k0_pay9 lanes (cols 2) (tbls 2))
    (Gen.k0_pay14 lanes (Gen.k0_pay11 (cols 3)) (Gen.k0_pay12 (cols 3)) (Gen.k0_pay13 (tbls 3)))
    (Gen.k0_pay15 lanes (cols 4) (tbls 4))
    (Gen.k0_pay19 lanes (Gen.k0_pay17 (cols 5)) (Gen.k0_pay18 (cols 5)) (tbls 5))
    (Gen.k0_pay20 lanes (cols 6) (tbls 6))
    (Gen.k0_pay22 lanes (Gen.k0_pay21 (cols 7)) 8#32 (tbls 7))
    (Gen.k0_pay23 lanes (cols 8) (tbls 8))
    (cols 9) (tbls 9) acc

/-- Accumulating is adding the fresh value to the block already there. -/
theorem stepAdd_eq (cols : Fin 10 → Vec F S1x1024x1 .i32) (tbls : Fin 10 → Vec F S1x1x256x256 .f32)
    (acc : Vec F S1024x10 .f32) :
    stepAdd cols tbls acc
      = addf (shapeCast S1024x10 acc Gen.shapeCasts_S1024x10_S1024x10) (stepReset cols tbls) := rfl

end Cert.KernelIdeal.Step

end
-- ==== Proof.KI.Pieces.lean ====
/- What the body's one store leaves in the response block, in each of its two cases, as a function of the two input
   blocks.

   The body loads, for each class `k` of the ten, column `k` of the address block (the unit-stride rectangle of sizes
   [1, 1024, 1] at offsets (0, 0, k)) and table `k` of the table block (sizes [1, 1, 256, 256] at offsets (k, 0, 0, 0)),
   and then stores ONE vector over the whole response block. So the block it leaves is that vector: the step's
   arithmetic applied to the twenty loads — at the first neuron the ten selections joined, at a later neuron the block
   already there plus them. -/
import proofs.«403497_j43233140801687_1_alg».proof.Proof.KI.Frame
import proofs.«403497_j43233140801687_1_alg».proof.Proof.KI.Step
import Idealize.ShloMosaic.Lib.Pipeline.Value
import Idealize.ShloMosaic.Lib.ValueIdx
import Idealize.ShloMosaic.Lib.Tactic

set_option maxRecDepth 16384

noncomputable section

namespace Cert.KernelIdeal.Result

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The response block's store and loads are at zero offsets. -/
theorem hz2 : (![0, 0] : Fin 2 → Nat) = fun _ => 0 := funext fun a => by fin_cases a <;> rfl

/-- Column `k` of the address block lies inside it. -/
theorem inb_col (k : Fin 10) : ∀ a, (![0, 0, k.val] : Fin 3 → Nat) a + S1x1024x1.size a ≤ S1x1024x10.size a := by
  intro a
  have hk := k.isLt
  match a with
  | ⟨0, _⟩ => show 0 + 1 ≤ 1; omega
  | ⟨1, _⟩ => show 0 + 1024 ≤ 1024; omega
  | ⟨2, _⟩ => show k.val + 1 ≤ 10; omega

/-- Table `k` of the table block lies inside it. -/
theorem inb_tbl (k : Fin 10) : ∀ a, (![k.val, 0, 0, 0] : Fin 4 → Nat) a + S1x1x256x256.size a ≤ S10x1x256x256.size a := by
  intro a
  have hk := k.isLt
  match a with
  | ⟨0, _⟩ => show k.val + 1 ≤ 10; omega
  | ⟨1, _⟩ => show 0 + 1 ≤ 1; omega
  | ⟨2, _⟩ => show 0 + 256 ≤ 256; omega
  | ⟨3, _⟩ => show 0 + 256 ≤ 256; omega

/-- The ten address columns the body loads from the address block `x0`: class `k`'s is the block read through the
    rectangle of one column at offset `k` on the class axis. -/
def cols (x0 : Vec F S1x1024x10 .i32) : Fin 10 → Vec F S1x1024x1 .i32 :=
  fun k => View.ld x0 (Rect.unit (s := S1x1024x10) ![0, 0, k.val] S1x1024x1.size (inb_col k))

/-- The ten tables the body loads from the table block `x1`: class `k`'s is the block read through the rectangle of one
    table at offset `k` on the class axis. -/
def tbls (x1 : Vec F S10x1x256x256 .f32) : Fin 10 → Vec F S1x1x256x256 .f32 :=
  fun k => View.ld x1 (Rect.unit (s := S10x1x256x256) ![k.val, 0, 0, 0] S1x1x256x256.size (inb_tbl k))

/-- Row `r` of class `k`'s column is entry (0, r, k) of the address block. -/
theorem cols_apply (x0 : Vec F S1x1024x10 .i32) (k : Fin 10) (r : Fin 1024) :
    cols x0 k (ix3 (0 : Fin 1) r (0 : Fin 1)) = x0 (ix3 (0 : Fin 1) r k) := by
  show x0 _ = x0 _
  refine congrArg x0 ?_
  funext a
  apply Fin.ext
  match a with
  | ⟨0, _⟩ => show 0 + 1 * 0 = 0; omega
  | ⟨1, _⟩ => show 0 + 1 * r.val = r.val; omega
  | ⟨2, _⟩ => show k.val + 1 * 0 = k.val; omega

/-- Entry (0, 0, p, q) of class `k`'s table is entry (k, 0, p, q) of the table block. -/
theorem tbls_apply (x1 : Vec F S10x1x256x256 .f32) (k : Fin 10) (p q : Fin 256) :
    tbls x1 k (ix4 (0 : Fin 1) (0 : Fin 1) p q) = x1 (ix4 k (0 : Fin 1) p q) := by
  show x1 _ = x1 _
  refine congrArg x1 ?_
  funext a
  apply Fin.ext
  match a with
  | ⟨0, _⟩ => show k.val + 1 * 0 = k.val; omega
  | ⟨1, _⟩ => show 0 + 1 * 0 = 0; omega
  | ⟨2, _⟩ => show 0 + 1 * p.val = p.val; omega
  | ⟨3, _⟩ => show 0 + 1 * q.val = q.val; omega

/-- AT THE FIRST NEURON the body's one store covers the response block, so the block it leaves is the stored vector:
    the ten selections of the block's twenty loads, joined. -/
theorem leftReset_eq (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : Body.resetAt i) (h2 : ¬ Body.addAt i)
    (x0 : Vec F S1x1024x10 .i32) (x1 : Vec F S10x1x256x256 .f32) :
    Body.leftReset c i arg2 harg2 arg3 harg3 arg4 harg4 h1 h2 x0 x1 = Step.stepReset (cols x0) (tbls x1) := by
  unfold Body.leftReset
  rw [View.read_writes_eq_canon _ _ _ (Body.cover_reset c i arg2 harg2 arg3 harg3 arg4 harg4 h1 h2 x0 x1)]
  unfold Body.runReset
  dsimp only
  sl_unfold_words
  rw [View.canon_unit_zero hz2]
  simp only [View.readAt_eq_ld, harg2.read_unread, harg3.read_unread]
  rfl

/-- AT A LATER NEURON the body reads the response block `acc` and its one store covers the block, so the block it leaves
    is the stored vector: `acc` plus the ten selections of the twenty loads, joined. -/
theorem leftAdd_eq (c : Dev nD) (i : grid0.Coords)
    (arg2 : Memref sig .tc .vmem S1x1024x10 .i32) (harg2 : arg2.IsWhole)
    (arg3 : Memref sig .tc .vmem S10x1x256x256 .f32) (harg3 : arg3.IsWhole)
    (arg4 : Memref sig .tc .vmem S1024x10 .f32) (harg4 : arg4.IsWhole)
    (h1 : ¬ Body.resetAt i) (h2 : Body.addAt i)
    (x0 : Vec F S1x1024x10 .i32) (x1 : Vec F S10x1x256x256 .f32) (acc : Vec F S1024x10 .f32) :
    Body.leftAdd c i arg2 harg2 arg3 harg3 arg4 harg4 h1 h2 x0 x1 acc = Step.stepAdd (cols x0) (tbls x1) acc := by
  unfold Body.leftAdd
  rw [View.read_writes_eq_canon _ _ _ (Body.cover_add c i arg2 harg2 arg3 harg3 arg4 harg4 h1 h2 x0 x1 acc)]
  unfold Body.runAdd
  dsimp only
  sl_unfold_words
  rw [View.canon_unit_zero hz2]
  simp only [View.readAt_eq_ld, harg2.read_unread, harg3.read_unread, harg4.read_unread,
    View.ld_unit_zero (S := S1024x10) hz2]
  rfl

end Cert.KernelIdeal.Result

end
-- ==== Proof.Lookup.lean ====
import Idealize.ShloMosaic.PureOps.Ideal
import Idealize.ShloMosaic.PureOps.Ideal.Laws
import Idealize.ShloMosaic.Lib.ValueIdx

/-! # Selecting one entry of a 256 × 256 table by two one-hot rows

The mathematics of one class's contribution, with no program in it. A 16-bit address `w` is cut into
its high byte `w / 256` (an arithmetic shift right by 8: the sign bit is clear) and its low byte
`w % 256` (a mask by 255). Comparing each byte with the lane coordinate gives two one-hot rows; the
first row times the table is the table's row `w / 256`, and that row times the second one-hot row,
summed over the lanes, is the entry at column `w % 256`. Everything is on the extended reals, where
`0 * x = 0` and `1 * x = x` hold for every `x`, infinite or not. -/

open scoped BigOperators

namespace Cert.Wisard.Lookup

open Idealize.ShloMosaic

/-! ## Words -/

/-- The arithmetic shift right by 8 of a word below `2 ^ 16` is the quotient by 256. -/
theorem shrsi8_toNat (w : BitVec 32) (h : w.toNat < 65536) :
    (IntOp.shrsi .vector w 8#32).toNat = w.toNat / 256 := by
  have hm : w.msb = false := by
    rw [BitVec.msb_eq_false_iff_two_mul_lt]; omega
  unfold IntOp.shrsi
  rw [if_pos (by decide)]
  show (w.sshiftRight (8#32).toNat).toNat = _
  rw [BitVec.sshiftRight_eq_of_msb_false hm, BitVec.toNat_ushiftRight, Nat.shiftRight_eq_div_pow]
  rfl

/-- So it is below 256. -/
theorem shrsi8_lt (w : BitVec 32) (h : w.toNat < 65536) : (IntOp.shrsi .vector w 8#32).toNat < 256 := by
  rw [shrsi8_toNat w h]; omega

/-- The mask by 255 is the remainder by 256. -/
theorem andi255_toNat (w : BitVec 32) : (IntOp.andi w 255#32).toNat = w.toNat % 256 := by
  unfold IntOp.andi
  rw [BitVec.toNat_and]
  exact Nat.and_two_pow_sub_one_eq_mod w.toNat 8

/-- A word equals the lane word of coordinate `j` exactly when `j` is the word's value. -/
theorem eq_lane_iff (x : BitVec 32) (j : Fin 256) : x = BitVec.ofNat 32 j.val ↔ j.val = x.toNat := by
  have hj := j.isLt
  constructor
  · intro e; rw [e, BitVec.toNat_ofNat]; omega
  · intro e; apply BitVec.eq_of_toNat_eq; rw [BitVec.toNat_ofNat, e]; have := x.isLt; omega

/-- The word 1, read as a signed integer and converted, is the extended real 1. -/
theorem sitofp_one : FloatOps.sitofp (F := Ideal) .f32 (1#32 : BitVec 32) = (1 : EReal) := by
  show (((1#32 : BitVec 32).toInt : ℝ) : EReal) = 1
  have h : (1#32 : BitVec 32).toInt = 1 := by decide
  rw [h]; simp

/-- The word 0 converted is the extended real 0. -/
theorem sitofp_zero : FloatOps.sitofp (F := Ideal) .f32 (0#32 : BitVec 32) = (0 : EReal) := by
  show (((0#32 : BitVec 32).toInt : ℝ) : EReal) = 0
  have h : (0#32 : BitVec 32).toInt = 0 := by decide
  rw [h]; simp

/-- The comparison bit, widened and converted, is the indicator of equality. -/
theorem onehot (x y : BitVec 32) :
    FloatOps.sitofp (F := Ideal) .f32 ((IntOp.cmpi .eq x y).setWidth 32) = if x = y then (1 : EReal) else 0 := by
  unfold IntOp.cmpi
  by_cases e : x = y
  · subst e
    rw [if_pos rfl]
    have h : (BitVec.ofBool (x == x)).setWidth 32 = 1#32 := by simp
    rw [h]; exact sitofp_one
  · rw [if_neg e]
    have hb : (x == y) = false := by simpa using e
    have h : (BitVec.ofBool (x == y)).setWidth 32 = 0#32 := by rw [hb]; rfl
    rw [h]; exact sitofp_zero

/-! ## The selection -/

/-- A one-hot row times a table, then times a one-hot row and summed: the entry the two rows name. -/
theorem select_entry (T : Fin 256 → Fin 256 → EReal) (p q : Fin 256) (A B : Fin 256 → EReal)
    (hA : ∀ h, A h = if h = p then 1 else 0) (hB : ∀ l, B l = if l = q then 1 else 0) :
    ∑ l : Fin 256, (∑ h : Fin 256, A h * T h l) * B l = T p q := by
  have inner : ∀ l, ∑ h : Fin 256, A h * T h l = T p l := fun l => by
    rw [Finset.sum_eq_single p]
    · rw [hA p, if_pos rfl, one_mul]
    · intro h _ hne; rw [hA h, if_neg hne, zero_mul]
    · intro hp; exact absurd (Finset.mem_univ p) hp
  rw [Finset.sum_eq_single q]
  · rw [inner q, hB q, if_pos rfl, mul_one]
  · intro l _ hne; rw [hB l, if_neg hne, mul_zero]
  · intro hq; exact absurd (Finset.mem_univ q) hq

end Cert.Wisard.Lookup
-- ==== Proof.KI.StepValue.lean ====
import proofs.«403497_j43233140801687_1_alg».proof.Proof.KI.Step
import proofs.«403497_j43233140801687_1_alg».proof.Proof.Lookup
import proofs.«403497_j43233140801687_1_alg».proof.Proof.Spec
import Idealize.ShloMosaic.PureOps.Ideal.Laws
import Idealize.ShloMosaic.Lib.ValueIdx
import Idealize.ShloMosaic.Lib.Pipeline.Value

/-! # One grid step's arithmetic, read at an index (at the ideal values)

For each class `k` the step compares the high byte of the row's address with the lane coordinate (a
one-hot row), multiplies that row into the class's 256 × 256 table (selecting a table row), multiplies
the result by the one-hot row of the low byte and sums over the lanes (selecting a column). So at row
`r`, class `k`, the fresh value is the table entry at (high byte, low byte) of the address, and the
accumulated value is the old entry plus that. -/

noncomputable section

open scoped BigOperators

namespace Cert.KernelIdeal.Step

open Idealize.ShloMosaic Idealize.ShloMosaic.ValueIdx Idealize.SL.Sem
open Cert.Wisard (hiOf loOf)

/-! ## The product of a [1024,256] by a [256,256] matrix at an index -/

/-- The step's one dimension-number record: rows × contraction times contraction × columns. -/
abbrev D := dot_S1024x256_S256x256_S1024x256_1_0_0_1_n_n

theorem lhs_0 (j : S1024x256.Idx) (k : D.contr.Idx) : (D.lhsIdx j k 0 : ℕ) = j 0 := by
  simp [DotDims.lhsIdx, D, dot_S1024x256_S256x256_S1024x256_1_0_0_1_n_n]; rfl
theorem lhs_1 (j : S1024x256.Idx) (k : D.contr.Idx) : (D.lhsIdx j k 1 : ℕ) = k ⟨0, by decide⟩ := by
  simp [DotDims.lhsIdx, D, dot_S1024x256_S256x256_S1024x256_1_0_0_1_n_n]; rfl
theorem rhs_0 (j : S1024x256.Idx) (k : D.contr.Idx) : (D.rhsIdx j k 0 : ℕ) = k ⟨0, by decide⟩ := by
  simp [DotDims.rhsIdx, D, dot_S1024x256_S256x256_S1024x256_1_0_0_1_n_n]; rfl
theorem rhs_1 (j : S1024x256.Idx) (k : D.contr.Idx) : (D.rhsIdx j k 1 : ℕ) = j 1 := by
  simp [DotDims.rhsIdx, D, dot_S1024x256_S256x256_S1024x256_1_0_0_1_n_n]; rfl

/-- The product into the zero splat, at row `r` and column `l`: the sum over the contraction. -/
theorem matmul_at {φ₁ φ₂ : FTy} (L : FVec Ideal S1024x256 φ₁) (R : FVec Ideal S256x256 φ₂) (r : Fin 1024) (l : Fin 256) :
    matmul (F := Ideal) D none L R (constant (F := Ideal) S1024x256 .f32 0x00000000#32) (ix2 r l)
      = ∑ c : Fin 256, L (ix2 r c) * R (ix2 c l) := by
  show FloatOps.matmul D none L R _ (ix2 r l) = _
  rw [Ideal.matmul_constant_zero_apply, ← Equiv.sum_comp (contrEquiv1 D 256 rfl rfl).symm]
  refine Finset.sum_congr rfl fun c _ => ?_
  have hc := contrEquiv1_symm_val D 256 rfl rfl c
  have hL : D.lhsIdx (ix2 r l) ((contrEquiv1 D 256 rfl rfl).symm c) = ix2 r c := by
    apply Shape.idx_ext₂
    · exact lhs_0 _ _
    · exact (lhs_1 _ _).trans hc
  have hR : D.rhsIdx (ix2 r l) ((contrEquiv1 D 256 rfl rfl).symm c) = ix2 c l := by
    apply Shape.idx_ext₂
    · exact (rhs_0 _ _).trans hc
    · exact rhs_1 _ _
  rw [hL, hR]

/-! ## A one-hot row at an index -/

/-- A column of words broadcast along the lanes and compared with the lane coordinate, widened and converted: at
    `(r, l)` the indicator that the word of row `r` is the lane word `l`. -/
theorem hot_at (x : IVec S1024x1 32) (r : Fin 1024) (l : Fin 256) :
    (sitofp (F := Ideal) .f32 (extui 32 (cmpi .eq (broadcastTo S1024x256 x Gen.broadcasts_S1024x1_S1024x256) lanes)
        Gen.natLt_1_32)) (ix2 r l)
      = if x (ix2 r 0) = BitVec.ofNat 32 l.val then (1 : EReal) else 0 := by
  have hb : broadcastTo S1024x256 x Gen.broadcasts_S1024x1_S1024x256 (ix2 r l) = x (ix2 r 0) :=
    broadcastTo_apply x _ (ix2 r l) (ix2 r 0) (fun a => match a with | ⟨0, _⟩ => rfl | ⟨1, _⟩ => rfl)
  have hi : lanes (ix2 r l) = BitVec.ofNat 32 l.val :=
    iota_single_apply .tc S1024x256 32 1 Gen.iota_S1024x256_d1_w32 (ix2 r l)
  show FloatOps.sitofp (F := Ideal) .f32
      ((IntOp.cmpi .eq (broadcastTo S1024x256 x Gen.broadcasts_S1024x1_S1024x256 (ix2 r l)) (lanes (ix2 r l))).setWidth 32) = _
  rw [hb, hi]
  exact Cert.Wisard.Lookup.onehot _ _

/-! ## One class's selection -/

/-- The selection of one class as the step computes it: `a` the class's address column, `T` its table. -/
def contrib (a : IVec S1024x1 32) (T : FVec Ideal S256x256 .f32) : FVec Ideal S1024x1 .f32 :=
  shapeCast S1024x1
    (multiReduction (F := Ideal) .add [1] S1024
      (mulf
        (matmul (F := Ideal) D none
          (truncf .bf16
            (sitofp (F := Ideal) .f32 (extui 32 (cmpi .eq
              (broadcastTo S1024x256 (shrsi a (broadcast S1024x1 8#32)) Gen.broadcasts_S1024x1_S1024x256) lanes)
              Gen.natLt_1_32))
            Gen.bitsLt_bf16_f32)
          (truncf .bf16 T Gen.bitsLt_bf16_f32)
          (constant (F := Ideal) S1024x256 .f32 0x00000000#32))
        (sitofp (F := Ideal) .f32 (extui 32 (cmpi .eq
          (broadcastTo S1024x256 (andi a (broadcast S1024x1 255#32)) Gen.broadcasts_S1024x1_S1024x256) lanes)
          Gen.natLt_1_32)))
      0x00000000#32 Gen.reduces_S1024x256_S1024 (.inl rfl) rfl)
    Gen.shapeCasts_S1024_S1024x1

/-- The high byte's indicator is the indicator of the table row. -/
theorem hi_hot (w : BitVec 32) (h : w.toNat < 65536) (c : Fin 256) :
    (if IntOp.shrsi .vector w 8#32 = BitVec.ofNat 32 c.val then (1 : EReal) else 0) = if c = hiOf w then 1 else 0 := by
  have e : (IntOp.shrsi .vector w 8#32 = BitVec.ofNat 32 c.val) ↔ c = hiOf w := by
    rw [Cert.Wisard.Lookup.eq_lane_iff, Cert.Wisard.Lookup.shrsi8_toNat w h]
    constructor
    · intro hc; apply Fin.ext; show c.val = w.toNat / 256 % 256; omega
    · intro hc; have := congrArg Fin.val hc; change c.val = w.toNat / 256 % 256 at this; omega
  by_cases hc : c = hiOf w
  · rw [if_pos (e.mpr hc), if_pos hc]
  · rw [if_neg (fun h' => hc (e.mp h')), if_neg hc]

/-- The low byte's indicator is the indicator of the table column. -/
theorem lo_hot (w : BitVec 32) (l : Fin 256) :
    (if IntOp.andi w 255#32 = BitVec.ofNat 32 l.val then (1 : EReal) else 0) = if l = loOf w then 1 else 0 := by
  have e : (IntOp.andi w 255#32 = BitVec.ofNat 32 l.val) ↔ l = loOf w := by
    rw [Cert.Wisard.Lookup.eq_lane_iff, Cert.Wisard.Lookup.andi255_toNat w]
    constructor
    · intro hc; apply Fin.ext; exact hc
    · intro hc; exact congrArg Fin.val hc
  by_cases hc : l = loOf w
  · rw [if_pos (e.mpr hc), if_pos hc]
  · rw [if_neg (fun h' => hc (e.mp h')), if_neg hc]

/-- At row `r` the selection is the table's entry at (high byte, low byte) of the row's address. -/
theorem contrib_apply (a : IVec S1024x1 32) (T : FVec Ideal S256x256 .f32) (r : Fin 1024)
    (h : (a (ix2 r 0)).toNat < 65536) :
    contrib a T (ix2 r 0) = T (ix2 (hiOf (a (ix2 r 0))) (loOf (a (ix2 r 0)))) := by
  unfold contrib
  refine (shapeCast_apply _ Gen.shapeCasts_S1024_S1024x1 (ix2 r (0 : Fin 1)) (ix1 r) ?_).trans ?_
  · rw [Shape.rowMajor_val_one, Shape.rowMajor_val_two]
    show r.val = r.val * 1 + 0
    omega
  refine (Ideal.multiReduction_add_single _ 0x00000000#32 Gen.reduces_S1024x256_S1024 (.inl rfl) rfl (ix1 r)).trans ?_
  have hlift : ∀ l : Fin 256, Gen.reduces_S1024x256_S1024.lift (ix1 r) l = ix2 r l := fun l =>
    funext fun d => match d with | ⟨0, _⟩ => rfl | ⟨1, _⟩ => rfl
  show ∑ l : Fin 256, _ = _
  refine (Finset.sum_congr rfl fun l _ => ?_).trans
    (Cert.Wisard.Lookup.select_entry (fun c l => T (ix2 c l)) (hiOf (a (ix2 r 0))) (loOf (a (ix2 r 0)))
      (fun c => if IntOp.shrsi .vector (a (ix2 r 0)) 8#32 = BitVec.ofNat 32 c.val then (1 : EReal) else 0)
      (fun l => if IntOp.andi (a (ix2 r 0)) 255#32 = BitVec.ofNat 32 l.val then (1 : EReal) else 0)
      (fun c => hi_hot _ h c) (fun l => lo_hot _ l))
  rw [hlift l, mulf_apply, matmul_at]
  refine congrArg₂ (· * ·) (Finset.sum_congr rfl fun c _ => ?_) (hot_at _ r l)
  exact congrArg₂ (· * ·) (hot_at _ r c) rfl

/-! ## The ten payloads are the selection -/

/-- A class's address column as the step reshapes it, `[1,1024,1]` to `[1024,1]`. -/
abbrev colOf (c : Vec Ideal S1x1024x1 .i32) : IVec S1024x1 32 :=
  shapeCast S1024x1 c Gen.shapeCasts_S1x1024x1_S1024x1
/-- A class's table as the step reshapes it, `[1,1,256,256]` to `[256,256]`. -/
abbrev tblOf (t : Vec Ideal S1x1x256x256 .f32) : FVec Ideal S256x256 .f32 :=
  shapeCast S256x256 t Gen.shapeCasts_S1x1x256x256_S256x256

theorem colOf_apply (c : Vec Ideal S1x1024x1 .i32) (r : Fin 1024) : colOf c (ix2 r 0) = c (ix3 0 r 0) :=
  shapeCast_apply c _ (ix2 r (0 : Fin 1)) (ix3 (0 : Fin 1) r (0 : Fin 1)) (by
    rw [Shape.rowMajor_val_three, Shape.rowMajor_val_two]
    show (0 * 1024 + r.val) * 1 + 0 = r.val * 1 + 0
    omega)

theorem tblOf_apply (t : Vec Ideal S1x1x256x256 .f32) (p q : Fin 256) : tblOf t (ix2 p q) = t (ix4 0 0 p q) :=
  shapeCast_apply t _ (ix2 p q) (ix4 (0 : Fin 1) (0 : Fin 1) p q) (by
    rw [Shape.rowMajor_val_four, Shape.rowMajor_val_two]
    show ((0 * 1 + 0) * 256 + p.val) * 256 + q.val = p.val * 256 + q.val
    omega)

section Payloads
variable (c : Vec Ideal S1x1024x1 .i32) (t : Vec Ideal S1x1x256x256 .f32)

theorem pay3_eq : Gen.k0_pay3 (F := Ideal) c t = contrib (colOf c) (tblOf t) := rfl
theorem pay8_eq : Gen.k0_pay8 (F := Ideal) lanes (Gen.k0_pay5 t) (Gen.k0_pay6 c) (Gen.k0_pay7 c)
    = contrib (colOf c) (tblOf t) := rfl
theorem pay9_eq : Gen.k0_pay9 (F := Ideal) lanes c t = contrib (colOf c) (tblOf t) := rfl
theorem pay14_eq : Gen.k0_pay14 (F := Ideal) lanes (Gen.k0_pay11 c) (Gen.k0_pay12 c) (Gen.k0_pay13 t)
    = contrib (colOf c) (tblOf t) := rfl
theorem pay15_eq : Gen.k0_pay15 (F := Ideal) lanes c t = contrib (colOf c) (tblOf t) := rfl
theorem pay19_eq : Gen.k0_pay19 (F := Ideal) lanes (Gen.k0_pay17 c) (Gen.k0_pay18 c) t
    = contrib (colOf c) (tblOf t) := rfl
theorem pay20_eq : Gen.k0_pay20 (F := Ideal) lanes c t = contrib (colOf c) (tblOf t) := rfl
theorem pay22_eq : Gen.k0_pay22 (F := Ideal) lanes (Gen.k0_pay21 c) 8#32 t = contrib (colOf c) (tblOf t) := rfl
theorem pay23_eq : Gen.k0_pay23 (F := Ideal) lanes c t = contrib (colOf c) (tblOf t) := rfl

end Payloads

/-! ## The join of the ten columns at an index -/

/-- Ten `[1024,1]` columns joined along axis 1: column `k` of the result is piece `k`. -/
theorem concat10_apply (q : Fin 10 → FVec Ideal S1024x1 .f32)
    (h : Shape.Concatenates ((List.ofFn fun n : Fin 10 =>
      (⟨S1024x1, q n⟩ : (s : Shape) × (s.Idx → Ideal .f32))).map (·.1)) S1024x10 1)
    (r : Fin 1024) (k : Fin 10) :
    concatenate S1024x10 1 (List.ofFn fun n : Fin 10 => (⟨S1024x1, q n⟩ : (s : Shape) × (s.Idx → Ideal .f32))) h (ix2 r k)
      = q k (ix2 r 0) :=
  concatenate_ofFn_unit_apply (t := S1024x10) (s₁ := S1024x1) (1 : Fin 2) q h rfl rfl (ix2 r k) k rfl (ix2 r (0 : Fin 1))
    (fun b hb => match b, hb with
      | ⟨0, _⟩, _ => rfl
      | ⟨1, _⟩, hb => absurd rfl hb)

/-- The stored value at `(r, k)`: the `k`-th of the ten columns at row `r`. -/
theorem pay1_apply (p0 p1 p2 p3 p4 p5 p6 p7 p8 : FVec Ideal S1024x1 .f32)
    (c : Vec Ideal S1x1024x1 .i32) (t : Vec Ideal S1x1x256x256 .f32) (r : Fin 1024) (k : Fin 10) :
    Gen.k0_pay1 (F := Ideal) lanes p0 p1 p2 p3 p4 p5 p6 p7 p8 c t (ix2 r k)
      = (![p0, p1, p2, p3, p4, p5, p6, p7, p8, contrib (colOf c) (tblOf t)] k) (ix2 r 0) :=
  concat10_apply ![p0, p1, p2, p3, p4, p5, p6, p7, p8, contrib (colOf c) (tblOf t)]
    Gen.concatenates_S1024x1_S1024x1_S1024x1_S1024x1_S1024x1_S1024x1_S1024x1_S1024x1_S1024x1_S1024x1_S1024x10_d1 r k

/-! ## The step at an index -/

/-- The fresh value at row `r`, class `k`: the class's table at (high byte, low byte) of the row's address. -/
theorem stepReset_apply (cols : Fin 10 → Vec Ideal S1x1024x1 .i32) (tbls : Fin 10 → Vec Ideal S1x1x256x256 .f32)
    (r : Fin 1024) (k : Fin 10) (h : (cols k (ix3 0 r 0)).toNat < 65536) :
    stepReset (F := Ideal) cols tbls (ix2 r k)
      = tbls k (ix4 0 0 (hiOf (cols k (ix3 0 r 0))) (loOf (cols k (ix3 0 r 0)))) := by
  have piece : ∀ k : Fin 10, (cols k (ix3 0 r 0)).toNat < 65536 →
      contrib (colOf (cols k)) (tblOf (tbls k)) (ix2 r 0)
        = tbls k (ix4 0 0 (hiOf (cols k (ix3 0 r 0))) (loOf (cols k (ix3 0 r 0)))) := fun k hk => by
    have hk' : (colOf (cols k) (ix2 r 0)).toNat < 65536 := by rw [colOf_apply]; exact hk
    rw [contrib_apply _ _ r hk', tblOf_apply, colOf_apply]
  unfold stepReset
  refine (pay1_apply _ _ _ _ _ _ _ _ _ (cols 9) (tbls 9) r k).trans ?_
  rw [pay3_eq, pay8_eq, pay9_eq, pay14_eq, pay15_eq, pay19_eq, pay20_eq, pay22_eq, pay23_eq]
  refine Eq.trans ?_ (piece k h)
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

/-- The accumulated value at row `r`, class `k`: the old entry plus the fresh value. -/
theorem stepAdd_apply (cols : Fin 10 → Vec Ideal S1x1024x1 .i32) (tbls : Fin 10 → Vec Ideal S1x1x256x256 .f32)
    (acc : Vec Ideal S1024x10 .f32) (r : Fin 1024) (k : Fin 10) :
    stepAdd (F := Ideal) cols tbls acc (ix2 r k)
      = acc (ix2 r k) + stepReset (F := Ideal) cols tbls (ix2 r k) := by
  rw [stepAdd_eq, addf_apply, shapeCast_self]

end Cert.KernelIdeal.Step

end
-- ==== Proof.KI.SumUpTo.lean ====
/- A sum over the 64 neurons restricted to the neurons up to a bound: at bound zero it is neuron 0's term, and raising
   the bound by one adds the next neuron's term. -/
import Mathlib.Algebra.BigOperators.Group.Finset.Basic
import Mathlib.Algebra.BigOperators.Group.Finset.Piecewise
import Mathlib.Data.Fintype.Basic

open scoped BigOperators

namespace Cert.KernelIdeal.Result

variable {M : Type*} [AddCommMonoid M]

/-- Up to neuron 0 the restricted sum is neuron 0's term. -/
theorem sum_upTo_zero (f : Fin 64 → M) :
    (∑ n : Fin 64, if n.val ≤ 0 then f n else 0) = f ⟨0, by decide⟩ := by
  have hpt : ∀ n : Fin 64, (if n.val ≤ 0 then f n else 0) = if n = (⟨0, by decide⟩ : Fin 64) then f n else 0 := by
    intro n
    by_cases h : n = (⟨0, by decide⟩ : Fin 64)
    · subst h; rw [if_pos (Nat.le_refl _), if_pos rfl]
    · have h' : ¬ n.val ≤ 0 := fun h' => h (Fin.ext (Nat.le_zero.mp h'))
      rw [if_neg h', if_neg h]
  rw [Finset.sum_congr rfl (fun n _ => hpt n), Finset.sum_ite_eq', if_pos (Finset.mem_univ _)]

/-- Raising the bound from `j` to `j + 1` adds neuron `j + 1`'s term. -/
theorem sum_upTo_succ (f : Fin 64 → M) (j : ℕ) (hj : j + 1 < 64) :
    (∑ n : Fin 64, if n.val ≤ j + 1 then f n else 0)
      = (∑ n : Fin 64, if n.val ≤ j then f n else 0) + f ⟨j + 1, hj⟩ := by
  have hpt : ∀ n : Fin 64, (if n.val ≤ j + 1 then f n else 0)
      = (if n.val ≤ j then f n else 0) + (if n = (⟨j + 1, hj⟩ : Fin 64) then f n else 0) := by
    intro n
    by_cases h1 : n.val ≤ j
    · have h2 : n ≠ (⟨j + 1, hj⟩ : Fin 64) := fun e => by
        have e' : n.val = j + 1 := congrArg Fin.val e
        omega
      rw [if_pos h1, if_pos (Nat.le_succ_of_le h1), if_neg h2, add_zero]
    · by_cases h2 : n = (⟨j + 1, hj⟩ : Fin 64)
      · have e' : n.val = j + 1 := congrArg Fin.val h2
        rw [if_pos (by omega), if_neg h1, if_pos h2, zero_add]
      · have h3 : ¬ n.val ≤ j + 1 := fun h => h2 (Fin.ext (by show n.val = j + 1; omega))
        rw [if_neg h3, if_neg h1, if_neg h2, add_zero]
  rw [Finset.sum_congr rfl (fun n _ => hpt n), Finset.sum_add_distrib, Finset.sum_ite_eq', if_pos (Finset.mem_univ _)]

end Cert.KernelIdeal.Result
-- ==== Proof.KI.Accum.lean ====
/- What the response block holds after each grid point.

   The grid is 4 × 64, row-major: point `t` is (batch tile `t / 64`, neuron `t % 64`). At neuron 0 the block is
   overwritten with the table entries neuron 0 selects; at every later neuron the entries that neuron selects are
   added. So after point `t`, row `r`, class `k` of the block is the sum, over the neurons `0 … t % 64`, of the table
   entry the neuron selects for sample `1024 · (t / 64) + r` and class `k`. -/
import proofs.«403497_j43233140801687_1_alg».proof.Proof.KI.Frame
import proofs.«403497_j43233140801687_1_alg».proof.Proof.KI.Blocks
import proofs.«403497_j43233140801687_1_alg».proof.Proof.KI.Pieces
import proofs.«403497_j43233140801687_1_alg».proof.Proof.KI.StepValue
import proofs.«403497_j43233140801687_1_alg».proof.Proof.KI.SumUpTo
import proofs.«403497_j43233140801687_1_alg».proof.Proof.Spec
import Idealize.ShloMosaic.Lib.ValueIdx

set_option maxRecDepth 16384

noncomputable section

open scoped BigOperators

namespace Cert.KernelIdeal.Result

open Cert.KernelIdeal Cert.KernelIdeal.Gen
open Idealize.ShloMosaic Idealize.ShloMosaic.TcCoe Idealize.ShloMosaic.ValueIdx Idealize.SL.Sem
open Cert.Wisard (hiOf loOf)

variable (m : (ℓ : Loc nD τ sig) → Buf (Elt Ideal) ℓ)

/-- Row `r` of the block of batch tile `t / 64` is a sample of the 4096. -/
theorem row_lt (t : Fin cfg0.N) (r : Fin 1024) : 1024 * (t.val / 64) + r.val < 4096 := by
  have h : t.val < 256 := lt_of_lt_of_eq t.isLt Gen.N_0
  have := r.isLt
  omega

/-- The table entry neuron `n` selects for sample `b` and class `k`: the entry of its square at the row and column
    the address's two bytes name. -/
abbrev pick (c : Dev nD) (b : Fin 4096) (k : Fin 10) (n : Fin 64) : Ideal .f32 :=
  tabArr m c (ix4 k n (hiOf (addrArr m c (ix3 n b k))) (loOf (addrArr m c (ix3 n b k))))

/-- ONE POINT'S SELECTIONS. At point `t` the ten selections joined, read at row `r` and class `k`, are the table entry
    neuron `t % 64` selects for sample `1024 (t / 64) + r` and class `k`: the column's row is that address, and the
    table is that neuron's square. -/
theorem step_value (c : Dev nD) (hA : ∀ i, (Gen.V m c main_v13 i).toNat < 65536) (t : Fin cfg0.N) (r : Fin 1024)
    (k : Fin 10) (b : Fin 4096) (hb : b.val = 1024 * (t.val / 64) + r.val) (n : Fin 64) (hn : n.val = t.val % 64) :
    Step.stepReset (F := Ideal) (cols (addrBlk m c t)) (tbls (tabBlk m c t)) (ix2 r k) = pick m c b k n := by
  obtain rfl : b = ⟨1024 * (t.val / 64) + r.val, pt_row t r⟩ := Fin.ext hb
  obtain rfl : n = ⟨t.val % 64, pt_mod t⟩ := Fin.ext hn
  have hcol : cols (addrBlk m c t) k (ix3 (0 : Fin 1) r (0 : Fin 1))
      = addrArr m c (ix3 (⟨t.val % 64, pt_mod t⟩ : Fin 64) (⟨1024 * (t.val / 64) + r.val, pt_row t r⟩ : Fin 4096) k) :=
    (cols_apply (addrBlk m c t) k r).trans (addrBlk_apply m c t r k)
  rw [Step.stepReset_apply (cols (addrBlk m c t)) (tbls (tabBlk m c t)) r k (by rw [hcol]; exact hA _)]
  rw [hcol, tbls_apply, tabBlk_apply]

/-- AT THE FIRST NEURON of a batch tile the block is that neuron's selections. -/
theorem acc_reset (c : Dev nD) (hA : ∀ i, (Gen.V m c main_v13 i).toNat < 65536) (t : Fin cfg0.N) (h : t.val % 64 = 0)
    (r : Fin 1024) (k : Fin 10) (b : Fin 4096) (hb : b.val = 1024 * (t.val / 64) + r.val) (n : Fin 64)
    (hn : n.val = t.val % 64) :
    Body.accAfter m c t.val t.isLt (ix2 r k) = pick m c b k n := by
  rw [Body.accAfter_reset m c t h]
  refine (congrFun (leftReset_eq (F := Ideal) c (grid0.coords t) (Body.mem0 t) (Body.whole0 t) (Body.mem1 t)
    (Body.whole1 t) (Body.mem2 t) (Body.whole2 t) ((Body.resetAt_iff t).mpr h) (fun h' => (Body.addAt_iff t).mp h' h)
    (addrBlk m c t) (tabBlk m c t)) (ix2 r k)).trans ?_
  exact step_value m c hA t r k b hb n hn

/-- AT A LATER NEURON the block is what the point before left plus that neuron's selections. -/
theorem acc_add (c : Dev nD) (hA : ∀ i, (Gen.V m c main_v13 i).toNat < 65536) (t : Fin cfg0.N) (h : ¬ t.val % 64 = 0)
    (r : Fin 1024) (k : Fin 10) (b : Fin 4096) (hb : b.val = 1024 * (t.val / 64) + r.val) (n : Fin 64)
    (hn : n.val = t.val % 64) :
    Body.accAfter m c t.val t.isLt (ix2 r k)
      = Body.accAfter m c (t.val - 1) (Nat.lt_of_le_of_lt (Nat.sub_le _ _) t.isLt) (ix2 r k) + pick m c b k n := by
  rw [Body.accAfter_add m c t h]
  refine (congrFun (leftAdd_eq (F := Ideal) c (grid0.coords t) (Body.mem0 t) (Body.whole0 t) (Body.mem1 t)
    (Body.whole1 t) (Body.mem2 t) (Body.whole2 t) (fun h' => h ((Body.resetAt_iff t).mp h')) ((Body.addAt_iff t).mpr h)
    (addrBlk m c t) (tabBlk m c t)
    (Body.accAfter m c (t.val - 1) (Nat.lt_of_le_of_lt (Nat.sub_le _ _) t.isLt))) (ix2 r k)).trans ?_
  rw [Step.stepAdd_apply, step_value m c hA t r k b hb n hn]

/-- The invariant over the points, by induction on the point: a multiple of 64 starts the sum afresh with neuron 0's
    term; any other point is in the same batch tile as the point before and adds its own neuron's term. -/
theorem acc_sum (c : Dev nD) (hA : ∀ i, (Gen.V m c main_v13 i).toNat < 65536) (k : Fin 10) :
    ∀ (n : ℕ) (hn : n < cfg0.N) (r : Fin 1024) (b : Fin 4096), b.val = 1024 * (n / 64) + r.val →
      Body.accAfter m c n hn (ix2 r k) = ∑ n' : Fin 64, if n'.val ≤ n % 64 then pick m c b k n' else 0 := by
  intro n
  induction n with
  | zero =>
    intro hn r b hb
    exact (acc_reset m c hA ⟨0, hn⟩ rfl r k b hb ⟨0, by decide⟩ rfl).trans
      (sum_upTo_zero (fun n' => pick m c b k n')).symm
  | succ n ih =>
    intro hn r b hb
    by_cases h : (n + 1) % 64 = 0
    · refine (acc_reset m c hA ⟨n + 1, hn⟩ h r k b hb ⟨0, by decide⟩ h.symm).trans ?_
      rw [h]
      exact (sum_upTo_zero (fun n' => pick m c b k n')).symm
    · have hmod : (n + 1) % 64 = n % 64 + 1 := by omega
      have hdiv : (n + 1) / 64 = n / 64 := by omega
      have hj : n % 64 + 1 < 64 := by omega
      have ihn := ih (Nat.lt_of_succ_lt hn) r b (by rw [hb, hdiv])
      refine (acc_add m c hA ⟨n + 1, hn⟩ h r k b hb ⟨n % 64 + 1, hj⟩ hmod.symm).trans ?_
      rw [hmod, sum_upTo_succ (fun n' => pick m c b k n') (n % 64) hj]
      exact congrArg (· + pick m c b k ⟨n % 64 + 1, hj⟩) ihn

/-- THE INVARIANT. After point `t` the response block's entry (r, k) is the sum over the neurons up to `t % 64` of the
    table entry each selects for sample `1024 (t / 64) + r`, class `k`. -/
theorem acc_value (c : Dev nD) (hA : ∀ i, (Gen.V m c main_v13 i).toNat < 65536) (t : Fin cfg0.N) (r : Fin 1024)
    (k : Fin 10) :
    Body.accAfter m c t.val t.isLt (ix2 r k)
      = ∑ n' : Fin 64, if n'.val ≤ t.val % 64 then
          tabArr m c (ix4 k n'
            (hiOf (addrArr m c (ix3 n' (⟨1024 * (t.val / 64) + r.val, row_lt t r⟩ : Fin 4096) k)))
            (loOf (addrArr m c (ix3 n' (⟨1024 * (t.val / 64) + r.val, row_lt t r⟩ : Fin 4096) k))))
        else 0 :=
  acc_sum m c hA k t.val t.isLt r ⟨1024 * (t.val / 64) + r.val, row_lt t r⟩ rfl

end Cert.KernelIdeal.Result

end
-- ==== Proof.KI.Value.lean ====
/-
  From the response block at each write-back to the kernel's result array. At a write-back point (the last neuron of a
  batch tile) every neuron has been added, so the block's entry (r, k) is the full sum over the 64 neurons for sample
  1024 · (t / 64) + r and class k: the block of the response function at that point. The four write-backs tile the
  responses, so the array ends holding the response function; the run's post follows, the argument arrays untouched.
-/
import proofs.«403497_j43233140801687_1_alg».proof.Proof.KI.Blocks
import proofs.«403497_j43233140801687_1_alg».proof.Proof.KI.Accum
import Idealize.ShloMosaic.Lib.Pipeline.Value
import Idealize.ShloMosaic.Lib.ValueIdx

set_option maxRecDepth 16384

noncomputable section

open scoped BigOperators

namespace Cert.KernelIdeal.Result

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The responses the kernel's two arrays determine, [sample, class]. -/
abbrev resp (c : Dev nD) : FVec Ideal S4096x10 .f32 := Cert.Wisard.Kout (addrArr m c) (tabArr m c)

/-- The block of a response array that point `t`'s window names. -/
abbrev respBlk (G : FVec Ideal S4096x10 .f32) (t : Fin cfg0.N) : FVec Ideal S1024x10 .f32 :=
  ((cfg0.win 2).blk t).view.read (Elt Ideal) G

/-- Row `r`, class `k` of that block: sample `1024 (t / 64) + r`, class `k` of the array. -/
theorem respBlk_apply (G : FVec Ideal S4096x10 .f32) (t : Fin cfg0.N) (r : Fin 1024) (k : Fin 10) :
    respBlk G t (ix2 r k) = G (ix2 (⟨1024 * (t.val / 64) + r.val, row_lt t r⟩ : Fin 4096) k) := by
  obtain ⟨-, -, -, -, -, -, -, e0, e1⟩ := idx_facts t
  unfold respBlk
  rw [View.read_apply]
  refine congrArg G ?_
  funext a
  apply Fin.ext
  match a with
  | ⟨0, _⟩ => show win0_2.index t (0 : Fin 2) * 1024 + 1 * r.val = 1024 * (t.val / 64) + r.val; rw [e0]; omega
  | ⟨1, _⟩ => show win0_2.index t (1 : Fin 2) * 10 + 1 * k.val = k.val; rw [e1]; omega

/-- At the last neuron of a batch tile every neuron has been added: the block's entry is the full response. -/
theorem acc_last (c : Dev nD) (hA : ∀ i, (Gen.V m c main_v13 i).toNat < 65536) (t : Fin cfg0.N) (h63 : t.val % 64 = 63)
    (r : Fin 1024) (k : Fin 10) :
    Body.accAfter m c t.val t.isLt (ix2 r k) = resp m c (ix2 (⟨1024 * (t.val / 64) + r.val, row_lt t r⟩ : Fin 4096) k) := by
  rw [acc_value m c hA t r k]
  show _ = ∑ n : Fin 64, _
  refine Finset.sum_congr rfl fun n _ => ?_
  exact (if_pos (by have := n.isLt; omega)).trans rfl

/-- What a write-back writes is the response function's block there. -/
theorem flushed_eq (c : Dev nD) (hA : ∀ i, (Gen.V m c main_v13 i).toNat < 65536) (t : Fin cfg0.N)
    (ht : (cfg0.win 2).flush t = true) :
    (Body.dats m 0 c).flushed 2 t
      = ((cfg0.win 2).blk t).view.read (Elt Ideal) (Cert.Wisard.Kout (addrArr m c) (tabArr m c)) := by
  have h63 : t.val % 64 = 63 := (flush0_2 t).mp ht
  have key : (Body.accAfter m c t.val t.isLt : FVec Ideal S1024x10 .f32) = respBlk (resp m c) t := by
    funext y
    obtain ⟨r, k, rfl⟩ : ∃ r k, y = ix2 r k := ⟨y 0, y 1, eq_ix2 y⟩
    rw [respBlk_apply]
    exact acc_last m c hA t h63 r k
  show (cfg0.win 2).cut (grid0.coords t) ((Body.dats m 0 c).after 2 t) = _
  rw [Body.dats_after2]
  exact key

/-- The write-backs tile the responses: the result array ends holding the response function. -/
theorem final (c : Dev nD) (hA : ∀ i, (Gen.V m c main_v13 i).toNat < 65536) :
    (Body.dats m 0 c).arrAt 2 cfg0.N = Cert.Wisard.Kout (addrArr m c) (tabArr m c) :=
  (Body.dats m 0 c).arrAt_eq_of_cover 2 (Cert.Wisard.Kout (addrArr m c) (tabArr m c))
    (fun t ht => flushed_eq m c hA t ht) resp_cover

/-- The run, read: the result array at the response function of the two staged arrays, the argument arrays unchanged. -/
theorem run_value (m : (ℓ : Loc nD τ sig) → Buf (Elt Ideal) ℓ) (ρ : Dev nD → PrngReg)
    (hA : ∀ c i, (Gen.V m c main_v13 i).toNat < 65536) :
    θ_run (defs (F := Ideal)) (onTc (τ := τ) (main (F := Ideal))) ⟨m, fun _ => 0, ρ⟩ (fun r => ∀ c : Dev nD,
      r.2.mem ((c.tc : Thread nD τ).loc main_v15) = Cert.Wisard.Kout (Gen.V m c main_v13) (Gen.V m c main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (final m c (hA c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (Body.run_main m ρ)

end Cert.KernelIdeal.Result

end
-- ==== Proof.Ref.Run.lean ====
/- The reference program's @main as the list of its 80 host operations, both module-local calls (and the
   select each makes through its own inner call) written out at the call sites over the calls' buffers, and its run read
   back: every weakly fair execution terminates with the result buffer at the operations' fold over the launch contents
   and the three argument arrays unchanged. -/
import proofs.«403497_j43233140801687_1_alg».proof.Proof.Gen.ReferenceIdeal
import Idealize.ShloMosaic.Lib.StableHlo.Run

noncomputable section

namespace Cert.ReferenceIdeal.Run

open Cert.ReferenceIdeal Idealize.ShloMosaic Idealize.ShloMosaic.TcCoe Idealize.SL.Sem
open Cert.ReferenceIdeal.Facts₀

variable {F : FTy → Type} [FloatOps F]

/-- @main's 80 operations, in order: the 23 of the first gather-with-fill (index normalisation, bounds mask, gather,
    select of the fill), the 33 of the bit pack and the flat offsets, the 22 of the second gather-with-fill, then the
    zero and the sum over the neurons. -/
abbrev ops : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S10x1024, .i32⟩) (broadcastInDim S10x1024 ![] bcast_S_S10x1024),
    StableHlo.TRef.binary (.of main_arg1 : StableHlo.TRef sig ⟨S10x1024, .i32⟩) (.of main_call0_v0 : StableHlo.TRef sig ⟨S10x1024, .i32⟩) (.of main_call0_v1 : StableHlo.TRef sig ⟨S10x1024, .i1⟩) (cmpi .slt),
    StableHlo.TRef.nullary (.of main_call0_c_0 : StableHlo.TRef sig ⟨S_, .i32⟩) (constantI S_ 32 1024#32),
    StableHlo.TRef.unary (.of main_call0_c_0 : StableHlo.TRef sig ⟨S_, .i32⟩) (.of main_call0_v2 : StableHlo.TRef sig ⟨S10x1024, .i32⟩) (broadcastInDim S10x1024 ![] bcast_S_S10x1024),
    StableHlo.TRef.binary (.of main_arg1 : StableHlo.TRef sig ⟨S10x1024, .i32⟩) (.of main_call0_v2 : StableHlo.TRef sig ⟨S10x1024, .i32⟩) (.of main_call0_v3 : StableHlo.TRef sig ⟨S10x1024, .i32⟩) addi,
    StableHlo.TRef.ternary (.of main_call0_v1 : StableHlo.TRef sig ⟨S10x1024, .i1⟩) (.of main_call0_v3 : StableHlo.TRef sig ⟨S10x1024, .i32⟩) (.of main_arg1 : StableHlo.TRef sig ⟨S10x1024, .i32⟩) (.of main_call0_v4 : StableHlo.TRef sig ⟨S10x1024, .i32⟩) select,
    StableHlo.TRef.unary (.of main_call0_v4 : StableHlo.TRef sig ⟨S10x1024, .i32⟩) (.of main_call0_v5 : StableHlo.TRef sig ⟨S10x1024x1, .i32⟩) (broadcastInDim S10x1024x1 ![0, 1] bcast_S10x1024_S10x1024x1_0_1),
    StableHlo.TRef.nullary (.of main_call0_c_1 : StableHlo.TRef sig ⟨S1, .i32⟩) (constantI S1 32 1023#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S10x1024x1, .i32⟩) (broadcastInDim S10x1024x1 ![] bcast_S_S10x1024x1),
    StableHlo.TRef.binary (.of main_call0_v5 : StableHlo.TRef sig ⟨S10x1024x1, .i32⟩) (.of main_call0_v6 : StableHlo.TRef sig ⟨S10x1024x1, .i32⟩) (.of main_call0_v7 : StableHlo.TRef sig ⟨S10x1024x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S10x1024x1, .i32⟩) (broadcastInDim S10x1024x1 ![0, 1, 2] bcast_S1x1x1_S10x1024x1_0_1_2),
    StableHlo.TRef.binary (.of main_call0_v5 : StableHlo.TRef sig ⟨S10x1024x1, .i32⟩) (.of main_call0_v9 : StableHlo.TRef sig ⟨S10x1024x1, .i32⟩) (.of main_call0_v10 : StableHlo.TRef sig ⟨S10x1024x1, .i1⟩) (cmpi .sle),
    StableHlo.TRef.binary (.of main_call0_v7 : StableHlo.TRef sig ⟨S10x1024x1, .i1⟩) (.of main_call0_v10 : StableHlo.TRef sig ⟨S10x1024x1, .i1⟩) (.of main_call0_v11 : StableHlo.TRef sig ⟨S10x1024x1, .i1⟩) andi,
    StableHlo.TRef.nullary (.of main_call0_c_3 : StableHlo.TRef sig ⟨S_, .i1⟩) (constantI S_ 1 1#1),
    StableHlo.TRef.binary (.of main_call0_v11 : StableHlo.TRef sig ⟨S10x1024x1, .i1⟩) (.of main_call0_c_3 : StableHlo.TRef sig ⟨S_, .i1⟩) (.of main_call0_v12 : StableHlo.TRef sig ⟨S10x1024, .i1⟩) (fun x v => Host.reduce IntOp.andi x v reducesTo_S10x1024x1_S10x1024_d2 h_S_),
    StableHlo.TRef.binary (.of main_arg0 : StableHlo.TRef sig ⟨S4096x1024, .i32⟩) (.of main_call0_v5 : StableHlo.TRef sig ⟨S10x1024x1, .i32⟩) (.of main_call0_v13 : StableHlo.TRef sig ⟨S4096x10x1024, .i32⟩) (fun x i => Host.gather gather_S4096x1024_S10x1024x1_S4096x10x1024_0_1_n_n_1_2_40961 x i),
    StableHlo.TRef.unary (.of main_call0_v12 : StableHlo.TRef sig ⟨S10x1024, .i1⟩) (.of main_call0_v14 : StableHlo.TRef sig ⟨S4096x10x1024, .i1⟩) (broadcastInDim S4096x10x1024 ![1, 2] bcast_S10x1024_S4096x10x1024_1_2),
    StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v15 : StableHlo.TRef sig ⟨S4096x10x1024, .i32⟩) (broadcastInDim S4096x10x1024 ![] bcast_S_S4096x10x1024),
    StableHlo.TRef.ternary (.of main_call0_v14 : StableHlo.TRef sig ⟨S4096x10x1024, .i1⟩) (.of main_call0_v13 : StableHlo.TRef sig ⟨S4096x10x1024, .i32⟩) (.of main_call0_v15 : StableHlo.TRef sig ⟨S4096x10x1024, .i32⟩) (.of main_v0 : StableHlo.TRef sig ⟨S4096x10x1024, .i32⟩) select,
    StableHlo.reshape main_v0 main_v1 rfl shapeCasts_S4096x10x1024_S4096x10x64x16,
    StableHlo.nullary main_v2 (iotaInDim S16 32 0),
    StableHlo.nullary main_c (constantI S_ 32 4294967295#32),
    StableHlo.unary main_c main_v3 (broadcastInDim S16 ![] bcast_S_S16 : (⟨S_, .i32⟩ : BufTy).Contents (Elt F) → (⟨S16, .i32⟩ : BufTy).Contents (Elt F)),
    StableHlo.binary main_v3 main_v2 main_v4 (muli : (⟨S16, .i32⟩ : BufTy).Contents (Elt F) → (⟨S16, .i32⟩ : BufTy).Contents (Elt F) → (⟨S16, .i32⟩ : BufTy).Contents (Elt F)),
    StableHlo.nullary main_c_0 (constantI S_ 32 15#32),
    StableHlo.unary main_c_0 main_v5 (broadcastInDim S16 ![] bcast_S_S16 : (⟨S_, .i32⟩ : BufTy).Contents (Elt F) → (⟨S16, .i32⟩ : BufTy).Contents (Elt F)),
    StableHlo.binary main_v5 main_v4 main_v6 (addi : (⟨S16, .i32⟩ : BufTy).Contents (Elt F) → (⟨S16, .i32⟩ : BufTy).Contents (Elt F) → (⟨S16, .i32⟩ : BufTy).Contents (Elt F)),
    StableHlo.nullary main_c_1 (constantI S_ 32 1#32),
    StableHlo.unary main_c_1 main_v7 (broadcastInDim S16 ![] bcast_S_S16 : (⟨S_, .i32⟩ : BufTy).Contents (Elt F) → (⟨S16, .i32⟩ : BufTy).Contents (Elt F)),
    StableHlo.binary main_v7 main_v6 main_v8 (Host.shli : (⟨S16, .i32⟩ : BufTy).Contents (Elt F) → (⟨S16, .i32⟩ : BufTy).Contents (Elt F) → (⟨S16, .i32⟩ : BufTy).Contents (Elt F)),
    StableHlo.unary main_v8 main_v9 (broadcastInDim S1x1x1x16 ![3] bcast_S16_S1x1x1x16_3 : (⟨S16, .i32⟩ : BufTy).Contents (Elt F) → (⟨S1x1x1x16, .i32⟩ : BufTy).Contents (Elt F)),
    StableHlo.unary main_v9 main_v10 (broadcastInDim S4096x10x64x16 ![0, 1, 2, 3] bcast_S1x1x1x16_S4096x10x64x16_0_1_2_3 : (⟨S1x1x1x16, .i32⟩ : BufTy).Contents (Elt F) → (⟨S4096x10x64x16, .i32⟩ : BufTy).Contents (Elt F)),
    StableHlo.binary main_v1 main_v10 main_v11 (muli : (⟨S4096x10x64x16, .i32⟩ : BufTy).Contents (Elt F) → (⟨S4096x10x64x16, .i32⟩ : BufTy).Contents (Elt F) → (⟨S4096x10x64x16, .i32⟩ : BufTy).Contents (Elt F)),
    StableHlo.nullary main_c_2 (constantI S_ 32 0#32),
    StableHlo.binary main_v11 main_c_2 main_v12 ((fun x v => Host.reduce IntOp.addi x v reducesTo_S4096x10x64x16_S4096x10x64_d3 h_S_) : (⟨S4096x10x64x16, .i32⟩ : BufTy).Contents (Elt F) → (⟨S_, .i32⟩ : BufTy).Contents (Elt F) → (⟨S4096x10x64, .i32⟩ : BufTy).Contents (Elt F)),
    StableHlo.nullary main_v13 (iotaInDim S10 32 0),
    StableHlo.unary main_v13 main_v14 (broadcastInDim S10x1 ![0] bcast_S10_S10x1_0 : (⟨S10, .i32⟩ : BufTy).Contents (Elt F) → (⟨S10x1, .i32⟩ : BufTy).Contents (Elt F)),
    StableHlo.nullary main_c_3 (constantI S_ 32 64#32),
    StableHlo.unary main_c_3 main_v15 (broadcastInDim S10x1 ![] bcast_S_S10x1 : (⟨S_, .i32⟩ : BufTy).Contents (Elt F) → (⟨S10x1, .i32⟩ : BufTy).Contents (Elt F)),
    StableHlo.binary main_v14 main_v15 main_v16 (muli : (⟨S10x1, .i32⟩ : BufTy).Contents (Elt F) → (⟨S10x1, .i32⟩ : BufTy).Contents (Elt F) → (⟨S10x1, .i32⟩ : BufTy).Contents (Elt F)),
    StableHlo.nullary main_v17 (iotaInDim S64 32 0),
    StableHlo.unary main_v17 main_v18 (broadcastInDim S1x64 ![1] bcast_S64_S1x64_1 : (⟨S64, .i32⟩ : BufTy).Contents (Elt F) → (⟨S1x64, .i32⟩ : BufTy).Contents (Elt F)),
    StableHlo.unary main_v16 main_v19 (broadcastInDim S10x64 ![0, 1] bcast_S10x1_S10x64_0_1 : (⟨S10x1, .i32⟩ : BufTy).Contents (Elt F) → (⟨S10x64, .i32⟩ : BufTy).Contents (Elt F)),
    StableHlo.unary main_v18 main_v20 (broadcastInDim S10x64 ![0, 1] bcast_S1x64_S10x64_0_1 : (⟨S1x64, .i32⟩ : BufTy).Contents (Elt F) → (⟨S10x64, .i32⟩ : BufTy).Contents (Elt F)),
    StableHlo.binary main_v19 main_v20 main_v21 (addi : (⟨S10x64, .i32⟩ : BufTy).Contents (Elt F) → (⟨S10x64, .i32⟩ : BufTy).Contents (Elt F) → (⟨S10x64, .i32⟩ : BufTy).Contents (Elt F)),
    StableHlo.nullary main_c_4 (constantI S_ 32 65536#32),
    StableHlo.unary main_c_4 main_v22 (broadcastInDim S10x64 ![] bcast_S_S10x64 : (⟨S_, .i32⟩ : BufTy).Contents (Elt F) → (⟨S10x64, .i32⟩ : BufTy).Contents (Elt F)),
    StableHlo.binary main_v21 main_v22 main_v23 (muli : (⟨S10x64, .i32⟩ : BufTy).Contents (Elt F) → (⟨S10x64, .i32⟩ : BufTy).Contents (Elt F) → (⟨S10x64, .i32⟩ : BufTy).Contents (Elt F)),
    StableHlo.unary main_v23 main_v24 (broadcastInDim S1x10x64 ![1, 2] bcast_S10x64_S1x10x64_1_2 : (⟨S10x64, .i32⟩ : BufTy).Contents (Elt F) → (⟨S1x10x64, .i32⟩ : BufTy).Contents (Elt F)),
    StableHlo.unary main_v24 main_v25 (broadcastInDim S4096x10x64 ![0, 1, 2] bcast_S1x10x64_S4096x10x64_0_1_2 : (⟨S1x10x64, .i32⟩ : BufTy).Contents (Elt F) → (⟨S4096x10x64, .i32⟩ : BufTy).Contents (Elt F)),
    StableHlo.binary main_v12 main_v25 main_v26 (addi : (⟨S4096x10x64, .i32⟩ : BufTy).Contents (Elt F) → (⟨S4096x10x64, .i32⟩ : BufTy).Contents (Elt F) → (⟨S4096x10x64, .i32⟩ : BufTy).Contents (Elt F)),
    StableHlo.reshape main_arg2 main_v27 rfl shapeCasts_S10x64x65536_S41943040,
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S4096x10x64, .i32⟩) (broadcastInDim S4096x10x64 ![] bcast_S_S4096x10x64),
    StableHlo.TRef.binary (.of main_v26 : StableHlo.TRef sig ⟨S4096x10x64, .i32⟩) (.of main_call1_v0 : StableHlo.TRef sig ⟨S4096x10x64, .i32⟩) (.of main_call1_v1 : StableHlo.TRef sig ⟨S4096x10x64, .i1⟩) (cmpi .slt),
    StableHlo.TRef.nullary (.of main_call1_c_0 : StableHlo.TRef sig ⟨S_, .i32⟩) (constantI S_ 32 41943040#32),
    StableHlo.TRef.unary (.of main_call1_c_0 : StableHlo.TRef sig ⟨S_, .i32⟩) (.of main_call1_v2 : StableHlo.TRef sig ⟨S4096x10x64, .i32⟩) (broadcastInDim S4096x10x64 ![] bcast_S_S4096x10x64),
    StableHlo.TRef.binary (.of main_v26 : StableHlo.TRef sig ⟨S4096x10x64, .i32⟩) (.of main_call1_v2 : StableHlo.TRef sig ⟨S4096x10x64, .i32⟩) (.of main_call1_v3 : StableHlo.TRef sig ⟨S4096x10x64, .i32⟩) addi,
    StableHlo.TRef.ternary (.of main_call1_v1 : StableHlo.TRef sig ⟨S4096x10x64, .i1⟩) (.of main_call1_v3 : StableHlo.TRef sig ⟨S4096x10x64, .i32⟩) (.of main_v26 : StableHlo.TRef sig ⟨S4096x10x64, .i32⟩) (.of main_call1_v4 : StableHlo.TRef sig ⟨S4096x10x64, .i32⟩) select,
    StableHlo.TRef.unary (.of main_call1_v4 : StableHlo.TRef sig ⟨S4096x10x64, .i32⟩) (.of main_call1_v5 : StableHlo.TRef sig ⟨S4096x10x64x1, .i32⟩) (broadcastInDim S4096x10x64x1 ![0, 1, 2] bcast_S4096x10x64_S4096x10x64x1_0_1_2),
    StableHlo.TRef.nullary (.of main_call1_c_1 : StableHlo.TRef sig ⟨S1, .i32⟩) (constantI S1 32 41943039#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S4096x10x64x1, .i32⟩) (broadcastInDim S4096x10x64x1 ![] bcast_S_S4096x10x64x1),
    StableHlo.TRef.binary (.of main_call1_v5 : StableHlo.TRef sig ⟨S4096x10x64x1, .i32⟩) (.of main_call1_v6 : StableHlo.TRef sig ⟨S4096x10x64x1, .i32⟩) (.of main_call1_v7 : StableHlo.TRef sig ⟨S4096x10x64x1, .i1⟩) (cmpi .sge),
    StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3),
    StableHlo.TRef.unary (.of main_call1_v8 : StableHlo.TRef sig ⟨S1x1x1x1, .i32⟩) (.of main_call1_v9 : StableHlo.TRef sig ⟨S4096x10x64x1, .i32⟩) (broadcastInDim S4096x10x64x1 ![0, 1, 2, 3] bcast_S1x1x1x1_S4096x10x64x1_0_1_2_3),
    StableHlo.TRef.binary (.of main_call1_v5 : StableHlo.TRef sig ⟨S4096x10x64x1, .i32⟩) (.of main_call1_v9 : StableHlo.TRef sig ⟨S4096x10x64x1, .i32⟩) (.of main_call1_v10 : StableHlo.TRef sig ⟨S4096x10x64x1, .i1⟩) (cmpi .sle),
    StableHlo.TRef.binary (.of main_call1_v7 : StableHlo.TRef sig ⟨S4096x10x64x1, .i1⟩) (.of main_call1_v10 : StableHlo.TRef sig ⟨S4096x10x64x1, .i1⟩) (.of main_call1_v11 : StableHlo.TRef sig ⟨S4096x10x64x1, .i1⟩) andi,
    StableHlo.TRef.nullary (.of main_call1_c_3 : StableHlo.TRef sig ⟨S_, .i1⟩) (constantI S_ 1 1#1),
    StableHlo.TRef.binary (.of main_call1_v11 : StableHlo.TRef sig ⟨S4096x10x64x1, .i1⟩) (.of main_call1_c_3 : StableHlo.TRef sig ⟨S_, .i1⟩) (.of main_call1_v12 : StableHlo.TRef sig ⟨S4096x10x64, .i1⟩) (fun x v => Host.reduce IntOp.andi x v reducesTo_S4096x10x64x1_S4096x10x64_d3 h_S_),
    StableHlo.TRef.binary (.of main_v27 : StableHlo.TRef sig ⟨S41943040, .f32⟩) (.of main_call1_v5 : StableHlo.TRef sig ⟨S4096x10x64x1, .i32⟩) (.of main_call1_v13 : StableHlo.TRef sig ⟨S4096x10x64, .f32⟩) (fun x i => Host.gather gather_S41943040_S4096x10x64x1_S4096x10x64_n_0_n_n_0_3_1 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S4096x10x64, .f32⟩) (broadcastInDim S4096x10x64 ![] bcast_S_S4096x10x64),
    StableHlo.TRef.ternary (.of main_call1_v12 : StableHlo.TRef sig ⟨S4096x10x64, .i1⟩) (.of main_call1_v13 : StableHlo.TRef sig ⟨S4096x10x64, .f32⟩) (.of main_call1_v14 : StableHlo.TRef sig ⟨S4096x10x64, .f32⟩) (.of main_v28 : StableHlo.TRef sig ⟨S4096x10x64, .f32⟩) select,
    StableHlo.nullary main_cst (constant S_ .f32 0x00000000#32),
    StableHlo.binary main_v28 main_cst main_v29 ((fun x v => Host.reduceAdd x v reducesTo_S4096x10x64_S4096x10_d2 h_S_) : (⟨S4096x10x64, .f32⟩ : BufTy).Contents (Elt F) → (⟨S_, .f32⟩ : BufTy).Contents (Elt F) → (⟨S4096x10, .f32⟩ : BufTy).Contents (Elt F)) ]

-- eighty binds re-associated under the two calls: the rewrite recurses once per statement
set_option maxRecDepth 8192 in
/-- @main is that straight line: the four functions' definitions unfolded at their calls and the calls' records at their
    fields, both sides are one chain of `hlo` steps once sequencing is reassociated. -/
theorem main_eq (c : Dev nD) : main (F := F) c = StableHlo.seq ops := by
  unfold main fn_take.body fn_take_0.body fn_where.body fn_where_1.body
  simp only [bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.binary_bufs_sub .., StableHlo.nullary_bufs_sub .., StableHlo.binary_bufs_sub ..,
    StableHlo.binary_bufs_sub .., StableHlo.unary_bufs_sub .., StableHlo.nullary_bufs_sub .., StableHlo.unary_bufs_sub .., StableHlo.ternary_bufs_sub .., StableHlo.reshape_bufs_sub ..,
    StableHlo.nullary_bufs_sub .., StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.binary_bufs_sub .., StableHlo.nullary_bufs_sub .., StableHlo.binary_bufs_sub .., StableHlo.nullary_bufs_sub .., StableHlo.unary_bufs_sub .., StableHlo.nullary_bufs_sub ..,
    StableHlo.unary_bufs_sub .., StableHlo.binary_bufs_sub .., StableHlo.nullary_bufs_sub .., StableHlo.unary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.binary_bufs_sub .., StableHlo.reshape_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub .., StableHlo.binary_bufs_sub ..,
    StableHlo.nullary_bufs_sub .., StableHlo.binary_bufs_sub .., StableHlo.binary_bufs_sub .., StableHlo.nullary_bufs_sub .., StableHlo.unary_bufs_sub .., StableHlo.ternary_bufs_sub ..,
    StableHlo.nullary_bufs_sub .., StableHlo.binary_bufs_sub ..⟩

/-- No operation writes `main_arg0`: after the operations it is as it was. -/
theorem after_main_arg0 (V : Valuation τ sig (Elt F)) :
    StableHlo.after ops V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation writes `main_arg1`: after the operations it is as it was. -/
theorem after_main_arg1 (V : Valuation τ sig (Elt F)) :
    StableHlo.after ops V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No operation writes `main_arg2`: after the operations it is as it was. -/
theorem after_main_arg2 (V : Valuation τ sig (Elt F)) :
    StableHlo.after ops V (Proc.devRef .tc main_arg2) = V (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- On every device, for any float values, from any memory with zero counters: every weakly fair execution of @main
    terminates with the result at the operations' fold over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v29) = StableHlo.after ops (fun b => m (c, b)) (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c main_v29,
      (h c main_arg0).trans (after_main_arg0 _),
      (h c main_arg1).trans (after_main_arg1 _),
      (h c main_arg2).trans (after_main_arg2 _)⟩)
    (StableHlo.run_seq scopedRefs_eq scopedSems_eq defs main (fun _ => ops) main_eq (fun _ => ops_sub) m ρ)

/-- The reference runs and leaves its three argument arrays as launched: the run with the result conjunct dropped. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.Run

end
-- ==== Proof.Ref.Term.lean ====
/-
  The reference's result as a function of its three arguments.

  After the shared address chain (`addr`), the reference adds to each address the flat offset of its neuron's
  table, `base[b, c, n] = (c · 64 + n) · 65536`, views the tables `[10, 64, 65536]` as one row of 41943040 entries,
  takes the entry at `addr + base` (a take in fill mode: a negative index is moved up by the row's length, an
  index outside `[0, 41943039]` answers the fill value) and sums the 64 entries of a (sample, class) pair.
-/
import proofs.«403497_j43233140801687_1_alg».proof.Proof.Gen.ReferenceIdeal
import proofs.«403497_j43233140801687_1_alg».proof.Proof.Addr
import proofs.«403497_j43233140801687_1_alg».proof.Proof.Spec
import proofs.«403497_j43233140801687_1_alg».proof.Proof.LibTakeFill

noncomputable section

namespace Cert.ReferenceIdeal.RefValue

open Idealize.ShloMosaic Cert.ReferenceIdeal Cert.ReferenceIdeal.Facts₀

/-- `base[b, c, n]`: the word `(c · 64 + n) · 65536`, the same for every sample `b`. -/
def base : IVec S4096x10x64 32 :=
  broadcastInDim S4096x10x64 ![0, 1, 2] bcast_S1x10x64_S4096x10x64_0_1_2
    (broadcastInDim S1x10x64 ![1, 2] bcast_S10x64_S1x10x64_1_2
      (muli
        (addi
          (broadcastInDim S10x64 ![0, 1] bcast_S10x1_S10x64_0_1
            (muli (broadcastInDim S10x1 ![0] bcast_S10_S10x1_0 (iotaInDim S10 32 0))
              (broadcastInDim S10x1 ![] bcast_S_S10x1 (constantI S_ 32 64#32))))
          (broadcastInDim S10x64 ![0, 1] bcast_S1x64_S10x64_0_1
            (broadcastInDim S1x64 ![1] bcast_S64_S1x64_1 (iotaInDim S64 32 0))))
        (broadcastInDim S10x64 ![] bcast_S_S10x64 (constantI S_ 32 65536#32))))

/-- The flat index `addr + base`, a word per (sample, class, neuron). -/
def gidx (a0 : IVec S4096x1024 32) (a1 : IVec S10x1024 32) : IVec S4096x10x64 32 :=
  addi (Cert.KernelIdeal.Addr.addr a0 a1) base

/-- The take's index after the negative wrap, as a column `[4096, 10, 64, 1]`. -/
def wrapped (g : IVec S4096x10x64 32) : IVec S4096x10x64x1 32 :=
  broadcastInDim S4096x10x64x1 ![0, 1, 2] bcast_S4096x10x64_S4096x10x64x1_0_1_2
    (select (cmpi .slt g (broadcastInDim S4096x10x64 ![] bcast_S_S4096x10x64 (constantI S_ 32 0#32)))
      (addi g (broadcastInDim S4096x10x64 ![] bcast_S_S4096x10x64 (constantI S_ 32 41943040#32))) g)

/-- The take's range test `0 ≤ index ≤ 41943039`, one bit per (sample, class, neuron). -/
def inRange (g : IVec S4096x10x64 32) : IVec S4096x10x64 1 :=
  Host.reduce IntOp.andi
    (andi (cmpi .sge (wrapped g) (broadcastInDim S4096x10x64x1 ![] bcast_S_S4096x10x64x1 (constantI S_ 32 0#32)))
      (cmpi .sle (wrapped g) (broadcastInDim S4096x10x64x1 ![0, 1, 2, 3] bcast_S1x1x1x1_S4096x10x64x1_0_1_2_3
        (broadcastInDim S1x1x1x1 ![3] bcast_S1_S1x1x1x1_3 (constantI S1 32 41943039#32)))))
    (constantI S_ 1 1#1) reducesTo_S4096x10x64x1_S4096x10x64_d3 h_S_

section
variable {F : FTy → Type} [FloatOps F]

/-- The take in fill mode of the flat table `T` at the indices `g`: the gathered entry where the index passes the
    range test, the fill value elsewhere. -/
def taken (T : FVec F S41943040 .f32) (g : IVec S4096x10x64 32) : FVec F S4096x10x64 .f32 :=
  select (inRange g)
    (Host.gather gather_S41943040_S4096x10x64x1_S4096x10x64_n_0_n_n_0_3_1 T (wrapped g))
    (broadcastInDim S4096x10x64 ![] bcast_S_S4096x10x64 (constant S_ .f32 0x7FC00000#32))

/-- The reference's result: per (sample, class) the sum over the 64 neurons, from zero, of the taken entries. -/
def refTerm (a0 : IVec S4096x1024 32) (a1 : IVec S10x1024 32) (a2 : FVec F S10x64x65536 .f32) : FVec F S4096x10 .f32 :=
  Host.reduceAdd
    (taken (shapeCast S41943040 a2 shapeCasts_S10x64x65536_S41943040) (gidx a0 a1))
    (constant S_ .f32 0x00000000#32) reducesTo_S4096x10x64_S4096x10_d2 h_S_

end

end Cert.ReferenceIdeal.RefValue

end
-- ==== Proof.Ref.Value.lean ====
/-
  The value of the reference's result. Under the hypothesis that every address is below 65536, the flat index
  `addr + base` is the position `(c · 64 + n) · 65536 + addr` of the entry `[c, n, addr]` in the tables laid out as
  one row; it is not negative and below the row's length, so the take neither wraps it nor fills nor clamps, and the
  reference's result at `(b, c)` is the sum over the 64 neurons of the table entries at their addresses: `G`.
-/
import proofs.«403497_j43233140801687_1_alg».proof.Proof.Ref.Term
import Idealize.ShloMosaic.Lib.IdealHost
import Idealize.ShloMosaic.Lib.Pipeline.Value

noncomputable section

open scoped BigOperators

namespace Cert.ReferenceIdeal.RefValue

open Idealize.ShloMosaic Idealize.ShloMosaic.ValueIdx Idealize.ShloMosaic.StableHlo.Predicate
open Cert.ReferenceIdeal Cert.ReferenceIdeal.Facts₀

/-! ## The address chain -/

/-- The reference's own spelling of the address chain is the shared one. -/
example (a0 : IVec S4096x1024 32) (a1 : IVec S10x1024 32) :
    Host.reduce IntOp.addi
      (muli
        (shapeCast S4096x10x64x16
          (select
            (broadcastInDim S4096x10x1024 ![1, 2] bcast_S10x1024_S4096x10x1024_1_2
              (Host.reduce IntOp.andi
                (andi
                  (cmpi .sge
                    (broadcastInDim S10x1024x1 ![0, 1] bcast_S10x1024_S10x1024x1_0_1
                      (select (cmpi .slt a1 (broadcastInDim S10x1024 ![] bcast_S_S10x1024 (constantI S_ 32 0#32)))
                        (addi a1 (broadcastInDim S10x1024 ![] bcast_S_S10x1024 (constantI S_ 32 1024#32))) a1))
                    (broadcastInDim S10x1024x1 ![] bcast_S_S10x1024x1 (constantI S_ 32 0#32)))
                  (cmpi .sle
                    (broadcastInDim S10x1024x1 ![0, 1] bcast_S10x1024_S10x1024x1_0_1
                      (select (cmpi .slt a1 (broadcastInDim S10x1024 ![] bcast_S_S10x1024 (constantI S_ 32 0#32)))
                        (addi a1 (broadcastInDim S10x1024 ![] bcast_S_S10x1024 (constantI S_ 32 1024#32))) a1))
                    (broadcastInDim S10x1024x1 ![0, 1, 2] bcast_S1x1x1_S10x1024x1_0_1_2
                      (broadcastInDim S1x1x1 ![2] bcast_S1_S1x1x1_2 (constantI S1 32 1023#32)))))
                (constantI S_ 1 1#1) reducesTo_S10x1024x1_S10x1024_d2 h_S_))
            (Host.gather gather_S4096x1024_S10x1024x1_S4096x10x1024_0_1_n_n_1_2_40961 a0
              (broadcastInDim S10x1024x1 ![0, 1] bcast_S10x1024_S10x1024x1_0_1
                (select (cmpi .slt a1 (broadcastInDim S10x1024 ![] bcast_S_S10x1024 (constantI S_ 32 0#32)))
                  (addi a1 (broadcastInDim S10x1024 ![] bcast_S_S10x1024 (constantI S_ 32 1024#32))) a1)))
            (broadcastInDim S4096x10x1024 ![] bcast_S_S4096x10x1024 (constantI S_ 32 2147483648#32)))
          shapeCasts_S4096x10x1024_S4096x10x64x16)
        (broadcastInDim S4096x10x64x16 ![0, 1, 2, 3] bcast_S1x1x1x16_S4096x10x64x16_0_1_2_3
          (broadcastInDim S1x1x1x16 ![3] bcast_S16_S1x1x1x16_3
            (Host.shli (broadcastInDim S16 ![] bcast_S_S16 (constantI S_ 32 1#32))
              (addi (broadcastInDim S16 ![] bcast_S_S16 (constantI S_ 32 15#32))
                (muli (broadcastInDim S16 ![] bcast_S_S16 (constantI S_ 32 4294967295#32)) (iotaInDim S16 32 0)))))))
      (constantI S_ 32 0#32) reducesTo_S4096x10x64x16_S4096x10x64_d3 h_S_
    = Cert.KernelIdeal.Addr.addr a0 a1 := rfl

/-! ## The base words -/

/-- `base` at an index: the chain of iotas, products and sums read there, as words. -/
theorem base_apply (b : Fin 4096) (c : Fin 10) (n : Fin 64) :
    base (ix3 b c n)
      = IntOp.muli (IntOp.addi (IntOp.muli (BitVec.ofNat 32 c.val) 64#32) (BitVec.ofNat 32 n.val)) 65536#32 := rfl

/-- No product or sum of the chain wraps: for `c < 10` and `n < 64` the word is the number `(c · 64 + n) · 65536`. -/
theorem base_word_toNat (c n : Nat) (hc : c < 10) (hn : n < 64) :
    (IntOp.muli (IntOp.addi (IntOp.muli (BitVec.ofNat 32 c) 64#32) (BitVec.ofNat 32 n)) 65536#32).toNat
      = (c * 64 + n) * 65536 := by
  simp only [IntOp.muli, IntOp.addi, BitVec.toNat_mul, BitVec.toNat_add, BitVec.toNat_ofNat, Nat.reducePow, Nat.reduceMod]
  omega

theorem base_toNat (b : Fin 4096) (c : Fin 10) (n : Fin 64) :
    (base (ix3 b c n)).toNat = (c.val * 64 + n.val) * 65536 := by
  rw [base_apply]
  exact base_word_toNat c.val n.val c.isLt n.isLt

/-- An address below 65536 added to such a base word does not wrap. -/
theorem add_base_toNat (w v : BitVec 32) (c n : Nat) (hw : w.toNat < 65536) (hc : c < 10) (hn : n < 64)
    (hv : v.toNat = (c * 64 + n) * 65536) : (IntOp.addi w v).toNat = (c * 64 + n) * 65536 + w.toNat := by
  simp only [IntOp.addi, BitVec.toNat_add, hv, Nat.reducePow]
  omega

/-- The position of an entry of the tables laid out as one row is below the row's length. -/
theorem pos_lt (a c n : Nat) (ha : a < 65536) (hc : c < 10) (hn : n < 64) : (c * 64 + n) * 65536 + a < 41943040 := by
  omega

/-- The flat index is the position of the entry `[c, n, addr]` in the tables laid out as one row. -/
theorem gidx_toNat (a0 : IVec S4096x1024 32) (a1 : IVec S10x1024 32)
    (hlt : ∀ i : S4096x10x64.Idx, (Cert.KernelIdeal.Addr.addr a0 a1 i).toNat < 65536)
    (b : Fin 4096) (c : Fin 10) (n : Fin 64) :
    (gidx a0 a1 (ix3 b c n)).toNat
      = (c.val * 64 + n.val) * 65536 + (Cert.KernelIdeal.Addr.addr a0 a1 (ix3 b c n)).toNat :=
  add_base_toNat _ _ c.val n.val (hlt (ix3 b c n)) c.isLt n.isLt (base_toNat b c n)

/-- So it is below the row's length. -/
theorem gidx_lt (a0 : IVec S4096x1024 32) (a1 : IVec S10x1024 32)
    (hlt : ∀ i : S4096x10x64.Idx, (Cert.KernelIdeal.Addr.addr a0 a1 i).toNat < 65536)
    (i : S4096x10x64.Idx) : (gidx a0 a1 i).toNat < 41943040 := by
  obtain ⟨b, c, n, rfl⟩ : ∃ (b : Fin 4096) (c : Fin 10) (n : Fin 64), i = ix3 b c n := ⟨i 0, i 1, i 2, eq_ix3 i⟩
  rw [gidx_toNat a0 a1 hlt]
  exact pos_lt _ _ _ (hlt _) c.isLt n.isLt

/-! ## The take -/

/-- The gather of the flat row at a column of one-word start indices, read at `(b, c, n)`: the row at the start index
    `idx[b, c, n, 0]`, read signed and clamped into `[0, 41943039]`. -/
theorem gather_flat_apply {α : Type} (T : S41943040.Idx → α) (idx : IVec S4096x10x64x1 32)
    (b : Fin 4096) (c : Fin 10) (n : Fin 64) :
    Host.gather gather_S41943040_S4096x10x64x1_S4096x10x64_n_0_n_n_0_3_1 T idx (ix3 b c n)
      = T (ix1 ⟨min (idx (ix4 b c n (0 : Fin 1))).toInt.toNat 41943039, by omega⟩) := by
  unfold Host.gather
  congr 1
  funext a
  obtain rfl : a = 0 := Subsingleton.elim _ _
  refine Fin.ext ?_
  show gather_S41943040_S4096x10x64x1_S4096x10x64_n_0_n_n_0_3_1.start (ix3 b c n) idx 0
      + gather_S41943040_S4096x10x64x1_S4096x10x64_n_0_n_n_0_3_1.batchCoord (ix3 b c n) 0
      + gather_S41943040_S4096x10x64x1_S4096x10x64_n_0_n_n_0_3_1.offCoord (ix3 b c n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S41943040_S4096x10x64x1_S4096x10x64_n_0_n_n_0_3_1.startIndexMap from
    List.mem_singleton.mpr rfl)]
  have hsi : gather_S41943040_S4096x10x64x1_S4096x10x64_n_0_n_n_0_3_1.siIdx (ix3 b c n)
      ⟨List.idxOf (0 : Fin 1) gather_S41943040_S4096x10x64x1_S4096x10x64_n_0_n_n_0_3_1.startIndexMap,
        List.idxOf_lt_length_iff.2 (List.mem_singleton.mpr rfl)⟩ = ix4 b c n (0 : Fin 1) := by
    funext e; refine Fin.ext ?_
    match e with
    | ⟨0, _⟩ => rfl
    | ⟨1, _⟩ => rfl
    | ⟨2, _⟩ => rfl
    | ⟨3, _⟩ => rfl
  rw [hsi]
  rfl

/-- The wrapped index at `(b, c, n, 0)` is the wrap of the index at `(b, c, n)`. -/
theorem wrapped_apply (g : IVec S4096x10x64 32) (b : Fin 4096) (c : Fin 10) (n : Fin 64) (z : Fin 1) :
    wrapped g (ix4 b c n z) = TakeFill.wrapIdx 41943040#32 (g (ix3 b c n)) := by
  unfold wrapped
  rw [broadcastInDim_apply _ _ _ (ix4 b c n z) (ix3 b c n)
    (by intro a; match a with | ⟨0, _⟩ => rfl | ⟨1, _⟩ => rfl | ⟨2, _⟩ => rfl)]
  rfl

/-- A word below 2³¹ is not negative: the wrap keeps it. -/
theorem wrapIdx_small (m w : BitVec 32) (h : w.toNat < 2 ^ 31) : TakeFill.wrapIdx m w = w := by
  unfold TakeFill.wrapIdx Scalar.select
  refine if_neg fun hc => ?_
  have h0 : (0#32 : BitVec 32).toNat < 2 ^ 31 := by decide
  have := (slt_iff_toNat h h0).mp hc
  exact absurd this (Nat.not_lt_zero _)

/-- Every index below the row's length passes the range test: the mask is all ones. -/
theorem inRange_all (g : IVec S4096x10x64 32) (hg : ∀ i, (g i).toNat < 41943040) : inRange g = fun _ => 1#1 := by
  unfold inRange
  refine TakeFill.reduce_andi_of_all_one _ (fun i => ?_) _ _
  obtain ⟨b, c, n, z, rfl⟩ : ∃ (b : Fin 4096) (c : Fin 10) (n : Fin 64) (z : Fin 1), i = ix4 b c n z :=
    ⟨i 0, i 1, i 2, i 3, eq_ix4 i⟩
  show IntOp.andi (IntOp.cmpi .sge (wrapped g (ix4 b c n z)) 0#32)
      (IntOp.cmpi .sle (wrapped g (ix4 b c n z)) 41943039#32) = 1#1
  have hw := hg (ix3 b c n)
  have hw31 : (g (ix3 b c n)).toNat < 2 ^ 31 := Nat.lt_trans hw (by decide)
  rw [wrapped_apply, wrapIdx_small _ _ hw31]
  have h0 : (0#32 : BitVec 32).toNat < 2 ^ 31 := by decide
  have h1 : (41943039#32 : BitVec 32).toNat < 2 ^ 31 := by decide
  rw [(sge_iff_toNat hw31 h0).mpr (Nat.zero_le _),
    (sle_iff_toNat hw31 h1).mpr (Nat.le_of_lt_succ hw)]
  rfl

section
variable {F : FTy → Type} [FloatOps F]

/-- The take of the flat row at indices all below its length is the row at those indices: nothing wraps, nothing is
    filled, nothing is clamped. -/
theorem taken_apply (T : FVec F S41943040 .f32) (g : IVec S4096x10x64 32) (hg : ∀ i, (g i).toNat < 41943040)
    (b : Fin 4096) (c : Fin 10) (n : Fin 64) :
    taken T g (ix3 b c n) = T (ix1 ⟨(g (ix3 b c n)).toNat, hg _⟩) := by
  unfold taken
  rw [inRange_all g hg]
  show Host.gather gather_S41943040_S4096x10x64x1_S4096x10x64_n_0_n_n_0_3_1 T (wrapped g) (ix3 b c n) = _
  have hw := hg (ix3 b c n)
  have hw31 : (g (ix3 b c n)).toNat < 2 ^ 31 := Nat.lt_trans hw (by decide)
  rw [gather_flat_apply]
  refine congrArg T (congrArg ix1 (Fin.ext ?_))
  show min (wrapped g (ix4 b c n (0 : Fin 1))).toInt.toNat 41943039 = (g (ix3 b c n)).toNat
  rw [wrapped_apply, wrapIdx_small _ _ hw31, toInt_eq_toNat_of_lt hw31, Int.toNat_natCast]
  exact Nat.min_eq_left (Nat.le_of_lt_succ hw)

end

/-! ## The tables as one row, and the sum over the neurons -/

/-- The tables laid out as one row, read at the position of the entry `[c, n, a]`, are the tables at `[c, n, a]`. -/
theorem flat_apply {α : Type} (R : S10x64x65536.Idx → α) (c : Fin 10) (n : Fin 64) (a : Fin 65536) (p : Fin 41943040)
    (hp : p.val = (c.val * 64 + n.val) * 65536 + a.val) :
    shapeCast S41943040 R shapeCasts_S10x64x65536_S41943040 (ix1 p) = R (ix3 c n a) := by
  refine shapeCast_apply _ _ _ _ ?_
  rw [Shape.rowMajor_val_three, Shape.rowMajor_val_one]
  show (c.val * 64 + n.val) * 65536 + a.val = p.val
  exact hp.symm

/-- The source index over `(b, c)` with the neuron `n` on the reduced axis is `(b, c, n)`. -/
theorem lift_eq (h : S4096x10x64.Reduces [2] S4096x10) (b : Fin 4096) (c : Fin 10) (n : Fin 64) :
    h.lift (ix2 b c) n = ix3 b c n := by
  funext e; refine Fin.ext ?_
  show h.liftVal (ix2 b c) n.val e = (ix3 b c n e).val
  match e with
  | ⟨0, _⟩ => rfl
  | ⟨1, _⟩ => rfl
  | ⟨2, _⟩ => rfl

/-- THE REFERENCE'S VALUE: with every address below 65536 the reference computes `G` of the addresses and the tables. -/
theorem refTerm_eq_G (a0 : IVec S4096x1024 32) (a1 : IVec S10x1024 32) (a2 : FVec Ideal S10x64x65536 .f32)
    (hlt : ∀ i : S4096x10x64.Idx, (Cert.KernelIdeal.Addr.addr a0 a1 i).toNat < 65536) :
    refTerm (F := Ideal) a0 a1 a2 = Cert.Wisard.G (Cert.KernelIdeal.Addr.addr a0 a1) a2 := by
  funext j
  obtain ⟨b, c, rfl⟩ : ∃ (b : Fin 4096) (c : Fin 10), j = ix2 b c := ⟨j 0, j 1, eq_ix2 j⟩
  have hred : S4096x10x64.Reduces [2] S4096x10 := by decide
  unfold refTerm
  rw [hostReduceAdd_apply, Ideal.hostReduceAdd_single reducesTo_S4096x10x64_S4096x10_d2 hred]
  show Ideal.ofBits .f32 0x00000000#32
      + ∑ n : Fin 64, taken (F := Ideal) (shapeCast S41943040 a2 shapeCasts_S10x64x65536_S41943040) (gidx a0 a1)
          (hred.lift (ix2 b c) n)
    = ∑ n : Fin 64, a2 (ix3 c n (Cert.Wisard.cell (Cert.KernelIdeal.Addr.addr a0 a1 (ix3 b c n))))
  rw [Ideal.ofBits_zero_f32, zero_add]
  refine Finset.sum_congr rfl fun n _ => ?_
  rw [lift_eq hred b c n, taken_apply _ _ (gidx_lt a0 a1 hlt) b c n]
  refine flat_apply a2 c n _ _ ?_
  show (gidx a0 a1 (ix3 b c n)).toNat = (c.val * 64 + n.val) * 65536 + (Cert.Wisard.cell _).val
  rw [Cert.Wisard.cell_val _ (hlt _)]
  exact gidx_toNat a0 a1 hlt b c n

end Cert.ReferenceIdeal.RefValue

end
-- ==== Proof.Ref.RunValue.lean ====
/- The reference's result buffer after its 80 operations is the closed term of the three arguments: the operations
   are cut into four consecutive stretches (the first take, the bit pack with the flat offsets and the flattened table,
   the second take, the sum), each stretch's result read off over an arbitrary valuation, and the four composed.
   A typed reference's contents pass through a transport along the equation of its buffer's type with the value's type;
   at a literal reference that equation is between equal types, and the transports are removed before the two sides are
   compared. -/
import proofs.«403497_j43233140801687_1_alg».proof.Proof.Ref.Run
import proofs.«403497_j43233140801687_1_alg».proof.Proof.Ref.Term

noncomputable section

namespace Cert.ReferenceIdeal.Run

open Cert.ReferenceIdeal Idealize.ShloMosaic Idealize.ShloMosaic.TcCoe Idealize.SL.Sem
open Cert.ReferenceIdeal.Facts₀

variable {F : FTy → Type} [FloatOps F]

/-- The first take: `mapped[b, c, e] = a0[b, a1[c, e]]` in fill mode (23 operations). -/
abbrev opsA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S10x1024, .i32⟩) (broadcastInDim S10x1024 ![] bcast_S_S10x1024),
    StableHlo.TRef.binary (.of main_arg1 : StableHlo.TRef sig ⟨S10x1024, .i32⟩) (.of main_call0_v0 : StableHlo.TRef sig ⟨S10x1024, .i32⟩) (.of main_call0_v1 : StableHlo.TRef sig ⟨S10x1024, .i1⟩) (cmpi .slt),
    StableHlo.TRef.nullary (.of main_call0_c_0 : StableHlo.TRef sig ⟨S_, .i32⟩) (constantI S_ 32 1024#32),
    StableHlo.TRef.unary (.of main_call0_c_0 : StableHlo.TRef sig ⟨S_, .i32⟩) (.of main_call0_v2 : StableHlo.TRef sig ⟨S10x1024, .i32⟩) (broadcastInDim S10x1024 ![] bcast_S_S10x1024),
    StableHlo.TRef.binary (.of main_arg1 : StableHlo.TRef sig ⟨S10x1024, .i32⟩) (.of main_call0_v2 : StableHlo.TRef sig ⟨S10x1024, .i32⟩) (.of main_call0_v3 : StableHlo.TRef sig ⟨S10x1024, .i32⟩) addi,
    StableHlo.TRef.ternary (.of main_call0_v1 : StableHlo.TRef sig ⟨S10x1024, .i1⟩) (.of main_call0_v3 : StableHlo.TRef sig ⟨S10x1024, .i32⟩) (.of main_arg1 : StableHlo.TRef sig ⟨S10x1024, .i32⟩) (.of main_call0_v4 : StableHlo.TRef sig ⟨S10x1024, .i32⟩) select,
    StableHlo.TRef.unary (.of main_call0_v4 : StableHlo.TRef sig ⟨S10x1024, .i32⟩) (.of main_call0_v5 : StableHlo.TRef sig ⟨S10x1024x1, .i32⟩) (broadcastInDim S10x1024x1 ![0, 1] bcast_S10x1024_S10x1024x1_0_1),
    StableHlo.TRef.nullary (.of main_call0_c_1 : StableHlo.TRef sig ⟨S1, .i32⟩) (constantI S1 32 1023#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S10x1024x1, .i32⟩) (broadcastInDim S10x1024x1 ![] bcast_S_S10x1024x1),
    StableHlo.TRef.binary (.of main_call0_v5 : StableHlo.TRef sig ⟨S10x1024x1, .i32⟩) (.of main_call0_v6 : StableHlo.TRef sig ⟨S10x1024x1, .i32⟩) (.of main_call0_v7 : StableHlo.TRef sig ⟨S10x1024x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S10x1024x1, .i32⟩) (broadcastInDim S10x1024x1 ![0, 1, 2] bcast_S1x1x1_S10x1024x1_0_1_2),
    StableHlo.TRef.binary (.of main_call0_v5 : StableHlo.TRef sig ⟨S10x1024x1, .i32⟩) (.of main_call0_v9 : StableHlo.TRef sig ⟨S10x1024x1, .i32⟩) (.of main_call0_v10 : StableHlo.TRef sig ⟨S10x1024x1, .i1⟩) (cmpi .sle),
    StableHlo.TRef.binary (.of main_call0_v7 : StableHlo.TRef sig ⟨S10x1024x1, .i1⟩) (.of main_call0_v10 : StableHlo.TRef sig ⟨S10x1024x1, .i1⟩) (.of main_call0_v11 : StableHlo.TRef sig ⟨S10x1024x1, .i1⟩) andi,
    StableHlo.TRef.nullary (.of main_call0_c_3 : StableHlo.TRef sig ⟨S_, .i1⟩) (constantI S_ 1 1#1),
    StableHlo.TRef.binary (.of main_call0_v11 : StableHlo.TRef sig ⟨S10x1024x1, .i1⟩) (.of main_call0_c_3 : StableHlo.TRef sig ⟨S_, .i1⟩) (.of main_call0_v12 : StableHlo.TRef sig ⟨S10x1024, .i1⟩) (fun x v => Host.reduce IntOp.andi x v reducesTo_S10x1024x1_S10x1024_d2 h_S_),
    StableHlo.TRef.binary (.of main_arg0 : StableHlo.TRef sig ⟨S4096x1024, .i32⟩) (.of main_call0_v5 : StableHlo.TRef sig ⟨S10x1024x1, .i32⟩) (.of main_call0_v13 : StableHlo.TRef sig ⟨S4096x10x1024, .i32⟩) (fun x i => Host.gather gather_S4096x1024_S10x1024x1_S4096x10x1024_0_1_n_n_1_2_40961 x i),
    StableHlo.TRef.unary (.of main_call0_v12 : StableHlo.TRef sig ⟨S10x1024, .i1⟩) (.of main_call0_v14 : StableHlo.TRef sig ⟨S4096x10x1024, .i1⟩) (broadcastInDim S4096x10x1024 ![1, 2] bcast_S10x1024_S4096x10x1024_1_2),
    StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v15 : StableHlo.TRef sig ⟨S4096x10x1024, .i32⟩) (broadcastInDim S4096x10x1024 ![] bcast_S_S4096x10x1024),
    StableHlo.TRef.ternary (.of main_call0_v14 : StableHlo.TRef sig ⟨S4096x10x1024, .i1⟩) (.of main_call0_v13 : StableHlo.TRef sig ⟨S4096x10x1024, .i32⟩) (.of main_call0_v15 : StableHlo.TRef sig ⟨S4096x10x1024, .i32⟩) (.of main_v0 : StableHlo.TRef sig ⟨S4096x10x1024, .i32⟩) select ]

/-- The bit pack `addr`, the flat offsets added to it, and the tables viewed as one row (33 operations). -/
abbrev opsB : List (HloOp τ sig (Elt F)) :=
  [ StableHlo.reshape main_v0 main_v1 rfl shapeCasts_S4096x10x1024_S4096x10x64x16,
    StableHlo.nullary main_v2 (iotaInDim S16 32 0),
    StableHlo.nullary main_c (constantI S_ 32 4294967295#32),
    StableHlo.unary main_c main_v3 (broadcastInDim S16 ![] bcast_S_S16 : (⟨S_, .i32⟩ : BufTy).Contents (Elt F) → (⟨S16, .i32⟩ : BufTy).Contents (Elt F)),
    StableHlo.binary main_v3 main_v2 main_v4 (muli : (⟨S16, .i32⟩ : BufTy).Contents (Elt F) → (⟨S16, .i32⟩ : BufTy).Contents (Elt F) → (⟨S16, .i32⟩ : BufTy).Contents (Elt F)),
    StableHlo.nullary main_c_0 (constantI S_ 32 15#32),
    StableHlo.unary main_c_0 main_v5 (broadcastInDim S16 ![] bcast_S_S16 : (⟨S_, .i32⟩ : BufTy).Contents (Elt F) → (⟨S16, .i32⟩ : BufTy).Contents (Elt F)),
    StableHlo.binary main_v5 main_v4 main_v6 (addi : (⟨S16, .i32⟩ : BufTy).Contents (Elt F) → (⟨S16, .i32⟩ : BufTy).Contents (Elt F) → (⟨S16, .i32⟩ : BufTy).Contents (Elt F)),
    StableHlo.nullary main_c_1 (constantI S_ 32 1#32),
    StableHlo.unary main_c_1 main_v7 (broadcastInDim S16 ![] bcast_S_S16 : (⟨S_, .i32⟩ : BufTy).Contents (Elt F) → (⟨S16, .i32⟩ : BufTy).Contents (Elt F)),
    StableHlo.binary main_v7 main_v6 main_v8 (Host.shli : (⟨S16, .i32⟩ : BufTy).Contents (Elt F) → (⟨S16, .i32⟩ : BufTy).Contents (Elt F) → (⟨S16, .i32⟩ : BufTy).Contents (Elt F)),
    StableHlo.unary main_v8 main_v9 (broadcastInDim S1x1x1x16 ![3] bcast_S16_S1x1x1x16_3 : (⟨S16, .i32⟩ : BufTy).Contents (Elt F) → (⟨S1x1x1x16, .i32⟩ : BufTy).Contents (Elt F)),
    StableHlo.unary main_v9 main_v10 (broadcastInDim S4096x10x64x16 ![0, 1, 2, 3] bcast_S1x1x1x16_S4096x10x64x16_0_1_2_3 : (⟨S1x1x1x16, .i32⟩ : BufTy).Contents (Elt F) → (⟨S4096x10x64x16, .i32⟩ : BufTy).Contents (Elt F)),
    StableHlo.binary main_v1 main_v10 main_v11 (muli : (⟨S4096x10x64x16, .i32⟩ : BufTy).Contents (Elt F) → (⟨S4096x10x64x16, .i32⟩ : BufTy).Contents (Elt F) → (⟨S4096x10x64x16, .i32⟩ : BufTy).Contents (Elt F)),
    StableHlo.nullary main_c_2 (constantI S_ 32 0#32),
    StableHlo.binary main_v11 main_c_2 main_v12 ((fun x v => Host.reduce IntOp.addi x v reducesTo_S4096x10x64x16_S4096x10x64_d3 h_S_) : (⟨S4096x10x64x16, .i32⟩ : BufTy).Contents (Elt F) → (⟨S_, .i32⟩ : BufTy).Contents (Elt F) → (⟨S4096x10x64, .i32⟩ : BufTy).Contents (Elt F)),
    StableHlo.nullary main_v13 (iotaInDim S10 32 0),
    StableHlo.unary main_v13 main_v14 (broadcastInDim S10x1 ![0] bcast_S10_S10x1_0 : (⟨S10, .i32⟩ : BufTy).Contents (Elt F) → (⟨S10x1, .i32⟩ : BufTy).Contents (Elt F)),
    StableHlo.nullary main_c_3 (constantI S_ 32 64#32),
    StableHlo.unary main_c_3 main_v15 (broadcastInDim S10x1 ![] bcast_S_S10x1 : (⟨S_, .i32⟩ : BufTy).Contents (Elt F) → (⟨S10x1, .i32⟩ : BufTy).Contents (Elt F)),
    StableHlo.binary main_v14 main_v15 main_v16 (muli : (⟨S10x1, .i32⟩ : BufTy).Contents (Elt F) → (⟨S10x1, .i32⟩ : BufTy).Contents (Elt F) → (⟨S10x1, .i32⟩ : BufTy).Contents (Elt F)),
    StableHlo.nullary main_v17 (iotaInDim S64 32 0),
    StableHlo.unary main_v17 main_v18 (broadcastInDim S1x64 ![1] bcast_S64_S1x64_1 : (⟨S64, .i32⟩ : BufTy).Contents (Elt F) → (⟨S1x64, .i32⟩ : BufTy).Contents (Elt F)),
    StableHlo.unary main_v16 main_v19 (broadcastInDim S10x64 ![0, 1] bcast_S10x1_S10x64_0_1 : (⟨S10x1, .i32⟩ : BufTy).Contents (Elt F) → (⟨S10x64, .i32⟩ : BufTy).Contents (Elt F)),
    StableHlo.unary main_v18 main_v20 (broadcastInDim S10x64 ![0, 1] bcast_S1x64_S10x64_0_1 : (⟨S1x64, .i32⟩ : BufTy).Contents (Elt F) → (⟨S10x64, .i32⟩ : BufTy).Contents (Elt F)),
    StableHlo.binary main_v19 main_v20 main_v21 (addi : (⟨S10x64, .i32⟩ : BufTy).Contents (Elt F) → (⟨S10x64, .i32⟩ : BufTy).Contents (Elt F) → (⟨S10x64, .i32⟩ : BufTy).Contents (Elt F)),
    StableHlo.nullary main_c_4 (constantI S_ 32 65536#32),
    StableHlo.unary main_c_4 main_v22 (broadcastInDim S10x64 ![] bcast_S_S10x64 : (⟨S_, .i32⟩ : BufTy).Contents (Elt F) → (⟨S10x64, .i32⟩ : BufTy).Contents (Elt F)),
    StableHlo.binary main_v21 main_v22 main_v23 (muli : (⟨S10x64, .i32⟩ : BufTy).Contents (Elt F) → (⟨S10x64, .i32⟩ : BufTy).Contents (Elt F) → (⟨S10x64, .i32⟩ : BufTy).Contents (Elt F)),
    StableHlo.unary main_v23 main_v24 (broadcastInDim S1x10x64 ![1, 2] bcast_S10x64_S1x10x64_1_2 : (⟨S10x64, .i32⟩ : BufTy).Contents (Elt F) → (⟨S1x10x64, .i32⟩ : BufTy).Contents (Elt F)),
    StableHlo.unary main_v24 main_v25 (broadcastInDim S4096x10x64 ![0, 1, 2] bcast_S1x10x64_S4096x10x64_0_1_2 : (⟨S1x10x64, .i32⟩ : BufTy).Contents (Elt F) → (⟨S4096x10x64, .i32⟩ : BufTy).Contents (Elt F)),
    StableHlo.binary main_v12 main_v25 main_v26 (addi : (⟨S4096x10x64, .i32⟩ : BufTy).Contents (Elt F) → (⟨S4096x10x64, .i32⟩ : BufTy).Contents (Elt F) → (⟨S4096x10x64, .i32⟩ : BufTy).Contents (Elt F)),
    StableHlo.reshape main_arg2 main_v27 rfl shapeCasts_S10x64x65536_S41943040 ]

/-- The second take, of the flat table at the flat indices, in fill mode (22 operations). -/
abbrev opsC : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S4096x10x64, .i32⟩) (broadcastInDim S4096x10x64 ![] bcast_S_S4096x10x64),
    StableHlo.TRef.binary (.of main_v26 : StableHlo.TRef sig ⟨S4096x10x64, .i32⟩) (.of main_call1_v0 : StableHlo.TRef sig ⟨S4096x10x64, .i32⟩) (.of main_call1_v1 : StableHlo.TRef sig ⟨S4096x10x64, .i1⟩) (cmpi .slt),
    StableHlo.TRef.nullary (.of main_call1_c_0 : StableHlo.TRef sig ⟨S_, .i32⟩) (constantI S_ 32 41943040#32),
    StableHlo.TRef.unary (.of main_call1_c_0 : StableHlo.TRef sig ⟨S_, .i32⟩) (.of main_call1_v2 : StableHlo.TRef sig ⟨S4096x10x64, .i32⟩) (broadcastInDim S4096x10x64 ![] bcast_S_S4096x10x64),
    StableHlo.TRef.binary (.of main_v26 : StableHlo.TRef sig ⟨S4096x10x64, .i32⟩) (.of main_call1_v2 : StableHlo.TRef sig ⟨S4096x10x64, .i32⟩) (.of main_call1_v3 : StableHlo.TRef sig ⟨S4096x10x64, .i32⟩) addi,
    StableHlo.TRef.ternary (.of main_call1_v1 : StableHlo.TRef sig ⟨S4096x10x64, .i1⟩) (.of main_call1_v3 : StableHlo.TRef sig ⟨S4096x10x64, .i32⟩) (.of main_v26 : StableHlo.TRef sig ⟨S4096x10x64, .i32⟩) (.of main_call1_v4 : StableHlo.TRef sig ⟨S4096x10x64, .i32⟩) select,
    StableHlo.TRef.unary (.of main_call1_v4 : StableHlo.TRef sig ⟨S4096x10x64, .i32⟩) (.of main_call1_v5 : StableHlo.TRef sig ⟨S4096x10x64x1, .i32⟩) (broadcastInDim S4096x10x64x1 ![0, 1, 2] bcast_S4096x10x64_S4096x10x64x1_0_1_2),
    StableHlo.TRef.nullary (.of main_call1_c_1 : StableHlo.TRef sig ⟨S1, .i32⟩) (constantI S1 32 41943039#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S4096x10x64x1, .i32⟩) (broadcastInDim S4096x10x64x1 ![] bcast_S_S4096x10x64x1),
    StableHlo.TRef.binary (.of main_call1_v5 : StableHlo.TRef sig ⟨S4096x10x64x1, .i32⟩) (.of main_call1_v6 : StableHlo.TRef sig ⟨S4096x10x64x1, .i32⟩) (.of main_call1_v7 : StableHlo.TRef sig ⟨S4096x10x64x1, .i1⟩) (cmpi .sge),
    StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3),
    StableHlo.TRef.unary (.of main_call1_v8 : StableHlo.TRef sig ⟨S1x1x1x1, .i32⟩) (.of main_call1_v9 : StableHlo.TRef sig ⟨S4096x10x64x1, .i32⟩) (broadcastInDim S4096x10x64x1 ![0, 1, 2, 3] bcast_S1x1x1x1_S4096x10x64x1_0_1_2_3),
    StableHlo.TRef.binary (.of main_call1_v5 : StableHlo.TRef sig ⟨S4096x10x64x1, .i32⟩) (.of main_call1_v9 : StableHlo.TRef sig ⟨S4096x10x64x1, .i32⟩) (.of main_call1_v10 : StableHlo.TRef sig ⟨S4096x10x64x1, .i1⟩) (cmpi .sle),
    StableHlo.TRef.binary (.of main_call1_v7 : StableHlo.TRef sig ⟨S4096x10x64x1, .i1⟩) (.of main_call1_v10 : StableHlo.TRef sig ⟨S4096x10x64x1, .i1⟩) (.of main_call1_v11 : StableHlo.TRef sig ⟨S4096x10x64x1, .i1⟩) andi,
    StableHlo.TRef.nullary (.of main_call1_c_3 : StableHlo.TRef sig ⟨S_, .i1⟩) (constantI S_ 1 1#1),
    StableHlo.TRef.binary (.of main_call1_v11 : StableHlo.TRef sig ⟨S4096x10x64x1, .i1⟩) (.of main_call1_c_3 : StableHlo.TRef sig ⟨S_, .i1⟩) (.of main_call1_v12 : StableHlo.TRef sig ⟨S4096x10x64, .i1⟩) (fun x v => Host.reduce IntOp.andi x v reducesTo_S4096x10x64x1_S4096x10x64_d3 h_S_),
    StableHlo.TRef.binary (.of main_v27 : StableHlo.TRef sig ⟨S41943040, .f32⟩) (.of main_call1_v5 : StableHlo.TRef sig ⟨S4096x10x64x1, .i32⟩) (.of main_call1_v13 : StableHlo.TRef sig ⟨S4096x10x64, .f32⟩) (fun x i => Host.gather gather_S41943040_S4096x10x64x1_S4096x10x64_n_0_n_n_0_3_1 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S4096x10x64, .f32⟩) (broadcastInDim S4096x10x64 ![] bcast_S_S4096x10x64),
    StableHlo.TRef.ternary (.of main_call1_v12 : StableHlo.TRef sig ⟨S4096x10x64, .i1⟩) (.of main_call1_v13 : StableHlo.TRef sig ⟨S4096x10x64, .f32⟩) (.of main_call1_v14 : StableHlo.TRef sig ⟨S4096x10x64, .f32⟩) (.of main_v28 : StableHlo.TRef sig ⟨S4096x10x64, .f32⟩) select ]

/-- The zero and the sum over the 64 neurons (2 operations). -/
abbrev opsD : List (HloOp τ sig (Elt F)) :=
  [ StableHlo.nullary main_cst (constant S_ .f32 0x00000000#32),
    StableHlo.binary main_v28 main_cst main_v29 ((fun x v => Host.reduceAdd x v reducesTo_S4096x10x64_S4096x10_d2 h_S_) : (⟨S4096x10x64, .f32⟩ : BufTy).Contents (Elt F) → (⟨S_, .f32⟩ : BufTy).Contents (Elt F) → (⟨S4096x10, .f32⟩ : BufTy).Contents (Elt F)) ]

/-- The 80 operations are the four stretches in order. -/
theorem ops_split : (ops : List (HloOp τ sig (Elt F))) = opsA ++ (opsB ++ (opsC ++ opsD)) := rfl

/-- Running a concatenation is running its parts in turn. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The first stretch leaves `mapped` of the two integer arguments in its result buffer. -/
theorem stageA (V : Valuation τ sig (Elt F)) :
    StableHlo.after opsA V (Proc.devRef .tc main_v0)
      = Cert.KernelIdeal.Addr.mapped (V (Proc.devRef .tc main_arg0)) (V (Proc.devRef .tc main_arg1)) := by
  after_results_simp
  simp only [StableHlo.TRef.toBuf, StableHlo.TRef.ofBuf, cast_eq]
  rfl

/-- The first stretch does not write the tables. -/
theorem stageA_arg2 (V : Valuation τ sig (Elt F)) :
    StableHlo.after opsA V (Proc.devRef .tc main_arg2) = V (Proc.devRef .tc main_arg2) := by
  after_results_simp

/-- The second stretch leaves the packed address plus the flat offset in `main_v26`, as a function of `main_v0`. -/
theorem stageB_idx (W : Valuation τ sig (Elt F)) :
    StableHlo.after opsB W (Proc.devRef .tc main_v26)
      = addi (Host.reduce IntOp.addi
          (muli (shapeCast S4096x10x64x16 (W (Proc.devRef .tc main_v0)) shapeCasts_S4096x10x1024_S4096x10x64x16)
            (broadcastInDim S4096x10x64x16 ![0, 1, 2, 3] bcast_S1x1x1x16_S4096x10x64x16_0_1_2_3
              (broadcastInDim S1x1x1x16 ![3] bcast_S16_S1x1x1x16_3 Cert.KernelIdeal.Addr.weights)))
          (constantI S_ 32 0#32) reducesTo_S4096x10x64x16_S4096x10x64_d3 h_S_) RefValue.base := by
  after_results_simp
  rfl

/-- The second stretch leaves the tables viewed as one row in `main_v27`. -/
theorem stageB_tab (W : Valuation τ sig (Elt F)) :
    StableHlo.after opsB W (Proc.devRef .tc main_v27)
      = shapeCast S41943040 (W (Proc.devRef .tc main_arg2)) shapeCasts_S10x64x65536_S41943040 := by
  after_results_simp
  rfl

/-- The second take without its closing select (21 operations). -/
abbrev opsC1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S4096x10x64, .i32⟩) (broadcastInDim S4096x10x64 ![] bcast_S_S4096x10x64),
    StableHlo.TRef.binary (.of main_v26 : StableHlo.TRef sig ⟨S4096x10x64, .i32⟩) (.of main_call1_v0 : StableHlo.TRef sig ⟨S4096x10x64, .i32⟩) (.of main_call1_v1 : StableHlo.TRef sig ⟨S4096x10x64, .i1⟩) (cmpi .slt),
    StableHlo.TRef.nullary (.of main_call1_c_0 : StableHlo.TRef sig ⟨S_, .i32⟩) (constantI S_ 32 41943040#32),
    StableHlo.TRef.unary (.of main_call1_c_0 : StableHlo.TRef sig ⟨S_, .i32⟩) (.of main_call1_v2 : StableHlo.TRef sig ⟨S4096x10x64, .i32⟩) (broadcastInDim S4096x10x64 ![] bcast_S_S4096x10x64),
    StableHlo.TRef.binary (.of main_v26 : StableHlo.TRef sig ⟨S4096x10x64, .i32⟩) (.of main_call1_v2 : StableHlo.TRef sig ⟨S4096x10x64, .i32⟩) (.of main_call1_v3 : StableHlo.TRef sig ⟨S4096x10x64, .i32⟩) addi,
    StableHlo.TRef.ternary (.of main_call1_v1 : StableHlo.TRef sig ⟨S4096x10x64, .i1⟩) (.of main_call1_v3 : StableHlo.TRef sig ⟨S4096x10x64, .i32⟩) (.of main_v26 : StableHlo.TRef sig ⟨S4096x10x64, .i32⟩) (.of main_call1_v4 : StableHlo.TRef sig ⟨S4096x10x64, .i32⟩) select,
    StableHlo.TRef.unary (.of main_call1_v4 : StableHlo.TRef sig ⟨S4096x10x64, .i32⟩) (.of main_call1_v5 : StableHlo.TRef sig ⟨S4096x10x64x1, .i32⟩) (broadcastInDim S4096x10x64x1 ![0, 1, 2] bcast_S4096x10x64_S4096x10x64x1_0_1_2),
    StableHlo.TRef.nullary (.of main_call1_c_1 : StableHlo.TRef sig ⟨S1, .i32⟩) (constantI S1 32 41943039#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S4096x10x64x1, .i32⟩) (broadcastInDim S4096x10x64x1 ![] bcast_S_S4096x10x64x1),
    StableHlo.TRef.binary (.of main_call1_v5 : StableHlo.TRef sig ⟨S4096x10x64x1, .i32⟩) (.of main_call1_v6 : StableHlo.TRef sig ⟨S4096x10x64x1, .i32⟩) (.of main_call1_v7 : StableHlo.TRef sig ⟨S4096x10x64x1, .i1⟩) (cmpi .sge),
    StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3),
    StableHlo.TRef.unary (.of main_call1_v8 : StableHlo.TRef sig ⟨S1x1x1x1, .i32⟩) (.of main_call1_v9 : StableHlo.TRef sig ⟨S4096x10x64x1, .i32⟩) (broadcastInDim S4096x10x64x1 ![0, 1, 2, 3] bcast_S1x1x1x1_S4096x10x64x1_0_1_2_3),
    StableHlo.TRef.binary (.of main_call1_v5 : StableHlo.TRef sig ⟨S4096x10x64x1, .i32⟩) (.of main_call1_v9 : StableHlo.TRef sig ⟨S4096x10x64x1, .i32⟩) (.of main_call1_v10 : StableHlo.TRef sig ⟨S4096x10x64x1, .i1⟩) (cmpi .sle),
    StableHlo.TRef.binary (.of main_call1_v7 : StableHlo.TRef sig ⟨S4096x10x64x1, .i1⟩) (.of main_call1_v10 : StableHlo.TRef sig ⟨S4096x10x64x1, .i1⟩) (.of main_call1_v11 : StableHlo.TRef sig ⟨S4096x10x64x1, .i1⟩) andi,
    StableHlo.TRef.nullary (.of main_call1_c_3 : StableHlo.TRef sig ⟨S_, .i1⟩) (constantI S_ 1 1#1),
    StableHlo.TRef.binary (.of main_call1_v11 : StableHlo.TRef sig ⟨S4096x10x64x1, .i1⟩) (.of main_call1_c_3 : StableHlo.TRef sig ⟨S_, .i1⟩) (.of main_call1_v12 : StableHlo.TRef sig ⟨S4096x10x64, .i1⟩) (fun x v => Host.reduce IntOp.andi x v reducesTo_S4096x10x64x1_S4096x10x64_d3 h_S_),
    StableHlo.TRef.binary (.of main_v27 : StableHlo.TRef sig ⟨S41943040, .f32⟩) (.of main_call1_v5 : StableHlo.TRef sig ⟨S4096x10x64x1, .i32⟩) (.of main_call1_v13 : StableHlo.TRef sig ⟨S4096x10x64, .f32⟩) (fun x i => Host.gather gather_S41943040_S4096x10x64x1_S4096x10x64_n_0_n_n_0_3_1 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S4096x10x64, .f32⟩) (broadcastInDim S4096x10x64 ![] bcast_S_S4096x10x64) ]

/-- The closing select of the second take: the gathered entry where the range test holds, the fill value elsewhere. -/
abbrev selC : HloOp τ sig (Elt F) :=
  StableHlo.TRef.ternary (.of main_call1_v12 : StableHlo.TRef sig ⟨S4096x10x64, .i1⟩) (.of main_call1_v13 : StableHlo.TRef sig ⟨S4096x10x64, .f32⟩) (.of main_call1_v14 : StableHlo.TRef sig ⟨S4096x10x64, .f32⟩) (.of main_v28 : StableHlo.TRef sig ⟨S4096x10x64, .f32⟩) select

theorem opsC_split : (opsC : List (HloOp τ sig (Elt F))) = opsC1 ++ [selC] := rfl

/-- The range test `0 ≤ index ≤ 41943039` of the wrapped index. -/
theorem c1_inRange (X : Valuation τ sig (Elt F)) :
    StableHlo.after opsC1 X (Proc.devRef .tc main_call1_v12) = RefValue.inRange (X (Proc.devRef .tc main_v26)) := by
  after_results_simp
  simp only [StableHlo.TRef.toBuf, StableHlo.TRef.ofBuf, cast_eq]
  rfl

/-- The gathered entries of the flat table at the wrapped index. -/
theorem c1_gather (X : Valuation τ sig (Elt F)) :
    StableHlo.after opsC1 X (Proc.devRef .tc main_call1_v13)
      = Host.gather gather_S41943040_S4096x10x64x1_S4096x10x64_n_0_n_n_0_3_1 (X (Proc.devRef .tc main_v27))
          (RefValue.wrapped (X (Proc.devRef .tc main_v26))) := by
  after_results_simp
  rfl

/-- The fill value, broadcast. -/
theorem c1_fill (X : Valuation τ sig (Elt F)) :
    StableHlo.after opsC1 X (Proc.devRef .tc main_call1_v14)
      = broadcastInDim S4096x10x64 ![] bcast_S_S4096x10x64 (constant S_ .f32 0x7FC00000#32) := by
  after_results_simp
  rfl

/-- The closing select reads the three buffers before it. -/
theorem selC_result (Z : Valuation τ sig (Elt F)) :
    selC.result Z (Proc.devRef .tc main_v28)
      = select (Z (Proc.devRef .tc main_call1_v12)) (Z (Proc.devRef .tc main_call1_v13)) (Z (Proc.devRef .tc main_call1_v14)) := by
  rw [StableHlo.ternary_result]
  rfl

/-- The third stretch leaves the take in fill mode of the row at the indices. -/
theorem stageC (X : Valuation τ sig (Elt F)) :
    StableHlo.after opsC X (Proc.devRef .tc main_v28)
      = RefValue.taken (X (Proc.devRef .tc main_v27)) (X (Proc.devRef .tc main_v26)) := by
  rw [opsC_split, after_app, StableHlo.after_cons, StableHlo.after_nil, selC_result, c1_inRange, c1_gather, c1_fill]
  rfl

/-- The last stretch sums the taken entries over the neurons, from zero. -/
theorem stageD (Y : Valuation τ sig (Elt F)) :
    StableHlo.after opsD Y (Proc.devRef .tc main_v29)
      = Host.reduceAdd (Y (Proc.devRef .tc main_v28)) (constant S_ .f32 0x00000000#32) reducesTo_S4096x10x64_S4096x10_d2 h_S_ := by
  after_results_simp

/-- The 80 operations run from `V` are the four stretches run in turn. -/
theorem after_ops (V : Valuation τ sig (Elt F)) :
    StableHlo.after ops V
      = StableHlo.after opsD (StableHlo.after opsC (StableHlo.after opsB (StableHlo.after opsA V))) :=
  (congrArg (fun l => StableHlo.after l V) ops_split).trans
    ((after_app opsA (opsB ++ (opsC ++ opsD)) V).trans
      ((after_app opsB (opsC ++ opsD) _).trans (after_app opsC opsD _)))

/-- The second stretch's index, from what the first left. -/
theorem stageB_idx_of (W : Valuation τ sig (Elt F)) (a0 : IVec S4096x1024 32) (a1 : IVec S10x1024 32)
    (h0 : W (Proc.devRef .tc main_v0) = Cert.KernelIdeal.Addr.mapped a0 a1) :
    StableHlo.after opsB W (Proc.devRef .tc main_v26) = RefValue.gidx a0 a1 := by
  rw [stageB_idx, h0]
  rfl

/-- The second stretch's flat table, from the tables as the first left them. -/
theorem stageB_tab_of (W : Valuation τ sig (Elt F)) (a2 : FVec F S10x64x65536 .f32)
    (h2 : W (Proc.devRef .tc main_arg2) = a2) :
    StableHlo.after opsB W (Proc.devRef .tc main_v27) = shapeCast S41943040 a2 shapeCasts_S10x64x65536_S41943040 := by
  rw [stageB_tab, h2]

/-- The third stretch's take, from the flat table and the indices. -/
theorem stageC_of (X : Valuation τ sig (Elt F)) (T : FVec F S41943040 .f32) (g : IVec S4096x10x64 32)
    (h27 : X (Proc.devRef .tc main_v27) = T) (h26 : X (Proc.devRef .tc main_v26) = g) :
    StableHlo.after opsC X (Proc.devRef .tc main_v28) = RefValue.taken T g := by
  rw [stageC, h27, h26]

/-- The last stretch's sum, from the taken entries. -/
theorem stageD_of (Y : Valuation τ sig (Elt F)) (t : FVec F S4096x10x64 .f32)
    (h28 : Y (Proc.devRef .tc main_v28) = t) :
    StableHlo.after opsD Y (Proc.devRef .tc main_v29)
      = Host.reduceAdd t (constant S_ .f32 0x00000000#32) reducesTo_S4096x10x64_S4096x10_d2 h_S_ := by
  rw [stageD, h28]

/-- The four stretches composed, over any valuation. -/
theorem after_ops_result (V : Valuation τ sig (Elt F)) :
    StableHlo.after ops V (Proc.devRef .tc main_v29)
      = RefValue.refTerm (V (Proc.devRef .tc main_arg0)) (V (Proc.devRef .tc main_arg1)) (V (Proc.devRef .tc main_arg2)) :=
  (congrFun (after_ops V) _).trans
    (stageD_of _ _ (stageC_of _ _ _ (stageB_tab_of _ _ (stageA_arg2 V)) (stageB_idx_of _ _ _ (stageA V))))

/-- The reference's result buffer after the 80 operations is `refTerm` of the three arguments as launched. -/
theorem after_eq (m : (ℓ : Loc nD τ sig) → Buf (Elt F) ℓ) (c : Dev nD) :
    StableHlo.after ops (fun b => m (c, b)) (Proc.devRef .tc main_v29)
      = RefValue.refTerm (m ((c.tc : Thread nD τ).loc main_arg0)) (m ((c.tc : Thread nD τ).loc main_arg1))
          (m ((c.tc : Thread nD τ).loc main_arg2)) :=
  after_ops_result (fun b => m (c, b))

end Cert.ReferenceIdeal.Run

end
-- ==== Proof.lean ====
/-
  The certificate of the RAM lookup: under the precondition (the table finite, the input bits binary, every
  permutation entry a position in `[0, 1024)`) the kernel and its reference compute, for every sample `b` and class `c`,
  the number of neurons whose 16-bit address has been seen: `Σ_n ram[c, n, addr[b, c, n]]` (Proof/Spec.lean's `G`).
  Both programs form the addresses on the host by the same operations (Proof/Addr.lean); under the precondition every
  address is below 65536 (Proof/AddrBound.lean). The reference then reads the flat table at `addr + (c·64 + n)·65536`,
  which is in range, so its fill-mode take is the plain read (Proof/Ref/Value.lean). The kernel views each neuron's
  table as a 256 × 256 square and selects row `addr / 256`, column `addr mod 256` by two one-hot masks — a product of
  the row mask with the square, then a masked sum along the columns — which on the extended reals is exactly the
  entry (Proof/Lookup.lean, Proof/KI/StepValue.lean), and accumulates the 64 neurons in the output block over the
  second grid axis (Proof/KI/Value.lean). The three frames need no precondition: no access of either program depends
  on the data. The idealization rewrote nothing, so `preserves` has nothing to state.
-/
import proofs.«403497_j43233140801687_1_alg».proof.Defs
import proofs.«403497_j43233140801687_1_alg».proof.Proof.Gen.Kernel
import proofs.«403497_j43233140801687_1_alg».proof.Proof.Gen.KernelIdeal
import proofs.«403497_j43233140801687_1_alg».proof.Proof.Gen.ReferenceIdeal
import proofs.«403497_j43233140801687_1_alg».proof.Proof.Gen.Pre_finite_inputs
import proofs.«403497_j43233140801687_1_alg».proof.Proof.Spec
import proofs.«403497_j43233140801687_1_alg».proof.Proof.Addr
import proofs.«403497_j43233140801687_1_alg».proof.Proof.AddrBound
import proofs.«403497_j43233140801687_1_alg».proof.Proof.PreDecode
import proofs.«403497_j43233140801687_1_alg».proof.Proof.K.Frame
import proofs.«403497_j43233140801687_1_alg».proof.Proof.KI.Frame
import proofs.«403497_j43233140801687_1_alg».proof.Proof.KI.Host
import proofs.«403497_j43233140801687_1_alg».proof.Proof.KI.Value
import proofs.«403497_j43233140801687_1_alg».proof.Proof.Ref.Run
import proofs.«403497_j43233140801687_1_alg».proof.Proof.Ref.Value
import proofs.«403497_j43233140801687_1_alg».proof.Proof.Ref.RunValue

noncomputable section

namespace Cert.Proof

open Idealize.ShloMosaic Idealize.ShloMosaic.TcCoe Idealize.SL.Sem

/-- The word-level kernel runs to its end, faults nowhere and leaves its arguments as they were, on any input. -/
theorem frame_k : Cert.frame_Kernel := fun m ρ _ => Cert.Kernel.Body.frame m ρ

/-- The same of the kernel read over the extended reals. -/
theorem frame_ki : Cert.frame_KernelIdeal := fun m ρ _ => Cert.KernelIdeal.Body.frame m ρ

/-- The reference is host operations only; its run ends with the arguments untouched. -/
theorem frame_ri : Cert.frame_ReferenceIdeal := fun m ρ _ => Cert.ReferenceIdeal.Run.frame m ρ

/-- Under the precondition every address the two programs form is a position in a neuron's table. -/
theorem addr_small (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, (Cert.KernelIdeal.Addr.addr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) i).toNat < 65536 :=
  Cert.KernelIdeal.Addr.addr_lt _ _ (Cert.PreDecode.samples_binary _ _ _ (hpre c)) (Cert.PreDecode.mapping_range _ _ _ (hpre c))

/-- Both runs end with the response `G` of the shared addresses and the table. -/
theorem algebraic : Cert.algebraic_KernelIdeal_ReferenceIdeal := by
  intro m ρ m' ρ' hpre hagree
  refine ⟨fun c => Cert.Wisard.G
      (Cert.KernelIdeal.Addr.addr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · have hA : ∀ c i, (Cert.KernelIdeal.Gen.V m c Cert.KernelIdeal.main_v13 i).toNat < 65536 := by
      intro c i
      obtain ⟨n, b, k, rfl⟩ : ∃ n b k, i = ValueIdx.ix3 n b k := ⟨i 0, i 1, i 2, ValueIdx.eq_ix3 i⟩
      rw [Cert.KernelIdeal.Host.V13_apply]
      exact addr_small m hpre c _
    exact (θ_run Cert.KernelIdeal.defs _ _).mono
      (fun _ h c => ⟨(h c).1.trans (Cert.KernelIdeal.Host.Kout_eq_G m c (addr_small m hpre c)), (h c).2⟩)
      (Cert.KernelIdeal.Result.run_value m ρ hA)
  · refine (θ_run Cert.ReferenceIdeal.defs _ _).mono (fun _ h c => ⟨?_, (h c).2⟩) (Cert.ReferenceIdeal.Run.run (F := Ideal) m' ρ')
    rw [(h c).1, Cert.ReferenceIdeal.Run.after_eq, (hagree c).1, (hagree c).2.1, (hagree c).2.2]
    exact Cert.ReferenceIdeal.RefValue.refTerm_eq_G _ _ _ (addr_small m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
